-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x4 : Shape := ⟨2, ![8192, 4]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_

variable [Facts]

def fn {F : FTy → Type} [FloatOps F] (main_arg0 : FVec F S4096x512 .f32) (main_arg1 : FVec F S4096x512 .f32) (main_arg2 : IVec S8192x4 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_c_2 : IVec S_ 32 := constantI S_ 32 0#32
  let main_v9 : IVec S8192x4 32 := broadcastInDim S8192x4 ![] bcast_S_S8192x4 main_c_2
  let main_v10 : IVec S8192x4 1 := cmpi .sge main_arg2 main_v9
  let main_c_3 : IVec S_ 32 := constantI S_ 32 8191#32
  let main_v11 : IVec S8192x4 32 := broadcastInDim S8192x4 ![] bcast_S_S8192x4 main_c_3
  let main_v12 : IVec S8192x4 1 := cmpi .slt main_arg2 main_v11
  let main_v13 : IVec S8192x4 1 := andi main_v10 main_v12
  let main_c_4 : IVec S_ 1 := constantI S_ 1 1#1
  let main_v14 : IVec S_ 1 := (fun x v => Host.reduce IntOp.andi x v reducesTo_S8192x4_S_d0_1 h_S_) main_v13 main_c_4
  let main_v15 : IVec S_ 1 := andi main_v8 main_v14
  main_v15
-- ==== Kernel.lean ====
abbrev S4096x512 : Shape := ⟨2, ![4096, 512]⟩
abbrev S8192x4 : Shape := ⟨2, ![8192, 4]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4096 : Shape := ⟨1, ![4096]⟩
abbrev S512x512 : Shape := ⟨2, ![512, 512]⟩
abbrev S512x4 : Shape := ⟨2, ![512, 4]⟩
abbrev S1024x512 : Shape := ⟨2, ![1024, 512]⟩
abbrev S512x1024 : Shape := ⟨2, ![512, 1024]⟩
abbrev S512x1 : Shape := ⟨2, ![512, 1]⟩
abbrev S512 : Shape := ⟨1, ![512]⟩
abbrev S8192x5 : Shape := ⟨2, ![8192, 5]⟩

abbrev nBuf : Space → Nat
  | .hbm => 63
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x4, .i32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S8192x512, .f32⟩
  | .hbm, ⟨14, _⟩ => ⟨S8192x512, .bf16⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .i32⟩
  | .hbm, ⟨25, _⟩ => ⟨S8192x1, .i32⟩
  | .hbm, ⟨26, _⟩ => ⟨S8192x4, .i32⟩
  | .hbm, ⟨27, _⟩ => ⟨S8192x4, .i1⟩
  | .hbm, ⟨28, _⟩ => ⟨S8192x4, .i32⟩
  | .hbm, ⟨29, _⟩ => ⟨S8192x4, .i32⟩
  | .hbm, ⟨30, _⟩ => ⟨S8192x4, .f32⟩
  | .hbm, ⟨31, _⟩ => ⟨S_, .f32⟩
  | .hbm, ⟨32, _⟩ => ⟨S8192x4, .f32⟩
  | .hbm, ⟨33, _⟩ => ⟨S8192x4, .f32⟩
  | .hbm, ⟨34, _⟩ => ⟨S8192x1, .f32⟩
  | .hbm, ⟨35, _⟩ => ⟨S8192x5, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x5, .f32⟩
  | .hbm, ⟨43, _⟩ => ⟨S8192x5, .f32⟩
  | .hbm, ⟨44, _⟩ => ⟨S8192x5, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x5, .f32⟩
  | .hbm, ⟨50, _⟩ => ⟨S8192x5, .f32⟩
  | .hbm, ⟨51, _⟩ => ⟨S8192x1, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x4, .i32⟩
  | .local _ .vmem, ⟨4, _⟩ => ⟨S512x4, .i32⟩
  | .local _ .vmem, ⟨5, _⟩ => ⟨S512x4, .f32⟩
  | .local _ .vmem, ⟨6, _⟩ => ⟨S512x4, .f32⟩
  | .local _ .vmem, ⟨7, _⟩ => ⟨S512x4, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_cst_5 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_17 : BitVec 32 := 0#32
  let v58 : BitVec 1 := Scalar.cmpi .ne v57 c0_i32_17
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  slices_S8192x512_S4096x512_0_0 : S8192x512.Slices ![0, 0] S4096x512
  slices_S8192x512_S4096x512_4096_0 : S8192x512.Slices ![4096, 0] S4096x512
  reducesTo_S4096x512_S4096_d1 : S4096x512.ReducesTo [1] S4096
  concatenates_S4096_S4096_S8192_d0 : Shape.Concatenates [S4096, S4096] S8192 0
  bcast_S_S8192 : S_.BroadcastsInDim S8192 (![] : Fin 0 → Fin S8192.rank)
  bcast_S8192x1_S8192x4_0_1 : S8192x1.BroadcastsInDim S8192x4 (![0, 1] : Fin 2 → Fin S8192x4.rank)
  natLt_1_32 : 1 < 32
  inb_S512x4_S512x4_0_0 : ∀ a, (![0, 0] : Fin 2 → Nat) a + S512x4.size a ≤ S512x4.size a
  h_S512x4 : 0 < S512x4.numel
  shapeCasts_S512x4_S512x4 : S512x4.ShapeCasts S512x4
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S1024x512_p1_0_S512x1024 : S1024x512.Transposes [1, 0] S512x1024
  iota_S512x1024_d1_w32 : S512x1024.Iotas .tc 32 [1]
  slices_S512x4_o0_0_S512x1 : S512x4.Slices ![0, 0] S512x1
  broadcasts_S512x1_S512x1024 : S512x1.Broadcasts S512x1024
  reduces_S512x1024_S512 : S512x1024.Reduces [1] S512
  shapeCasts_S512_S512x1 : S512.ShapeCasts S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  concatenates_S512x1_S512x1_S512x1_S512x1_S512x4_d1 : Shape.Concatenates [S512x1, S512x1, S512x1, S512x1] S512x4 1
  bcast_S_S8192x4 : S_.BroadcastsInDim S8192x4 (![] : Fin 0 → Fin S8192x4.rank)
  concatenates_S8192x1_S8192x4_S8192x5_d1 : Shape.Concatenates [S8192x1, S8192x4] S8192x5 1
  reducesTo_S8192x5_S8192_d1 : S8192x5.ReducesTo [1] S8192
  bcast_S8192x1_S8192x5_0_1 : S8192x1.BroadcastsInDim S8192x5 (![0, 1] : Fin 2 → Fin S8192x5.rank)
  slices_S8192x5_S8192x1_0_0 : S8192x5.Slices ![0, 0] S8192x1
  shapeCasts_S8192x1_S8192 : S8192x1.ShapeCasts S8192
  reducesTo_S8192_S_d0 : S8192.ReducesTo [0] S_
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S8192x4.size a
  hwx0_2 : ∀ i : grid0.Coords, EltTy.bits .i32 = 32 ∨ (Rect.block (s := S8192x4) S512x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S8192x4.size a
  hwx0_3 : ∀ i : grid0.Coords, EltTy.bits .f32 = 32 ∨ (Rect.block (s := S8192x4) S512x4.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x4 : Shape := ⟨2, ![8192, 4]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S8192x2 : Shape := ⟨2, ![8192, 2]⟩
abbrev S8192x4x1 : Shape := ⟨3, ![8192, 4, 1]⟩
abbrev S1 : Shape := ⟨1, ![1]⟩
abbrev S1x1x1 : Shape := ⟨3, ![1, 1, 1]⟩
abbrev S8192x5 : Shape := ⟨2, ![8192, 5]⟩

abbrev nBuf : Space → Nat
  | .hbm => 119
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x4, .i32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S8192x512, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S_, .i1⟩
  | .hbm, ⟨39, _⟩ => ⟨S8192, .i1⟩
  | .hbm, ⟨40, _⟩ => ⟨S8192, .i1⟩
  | .hbm, ⟨41, _⟩ => ⟨S8192, .i1⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x1, .i32⟩
  | .hbm, ⟨61, _⟩ => ⟨S8192x2, .i32⟩
  | .hbm, ⟨62, _⟩ => ⟨S8192, .f32⟩
  | .hbm, ⟨63, _⟩ => ⟨S8192x1, .i32⟩
  | .hbm, ⟨64, _⟩ => ⟨S8192x4, .i32⟩
  | .hbm, ⟨65, _⟩ => ⟨S8192x4, .i1⟩
  | .hbm, ⟨66, _⟩ => ⟨S8192x4, .i32⟩
  | .hbm, ⟨67, _⟩ => ⟨S8192x4, .i32⟩
  | .hbm, ⟨68, _⟩ => ⟨S_, .i32⟩
  | .hbm, ⟨69, _⟩ => ⟨S8192x4, .i32⟩
  | .hbm, ⟨70, _⟩ => ⟨S8192x4, .i1⟩
  | .hbm, ⟨71, _⟩ => ⟨S_, .i32⟩
  | .hbm, ⟨72, _⟩ => ⟨S8192x4, .i32⟩
  | .hbm, ⟨73, _⟩ => ⟨S8192x4, .i32⟩
  | .hbm, ⟨74, _⟩ => ⟨S8192x4, .i32⟩
  | .hbm, ⟨75, _⟩ => ⟨S8192x4x1, .i32⟩
  | .hbm, ⟨76, _⟩ => ⟨S1, .i32⟩
  | .hbm, ⟨77, _⟩ => ⟨S_, .i32⟩
  | .hbm, ⟨78, _⟩ => ⟨S8192x4x1, .i32⟩
  | .hbm, ⟨79, _⟩ => ⟨S8192x4x1, .i1⟩
  | .hbm, ⟨80, _⟩ => ⟨S1x1x1, .i32⟩
  | .hbm, ⟨81, _⟩ => ⟨S8192x4x1, .i32⟩
  | .hbm, ⟨82, _⟩ => ⟨S8192x4x1, .i1⟩
  | .hbm, ⟨83, _⟩ => ⟨S8192x4x1, .i1⟩
  | .hbm, ⟨84, _⟩ => ⟨S_, .i1⟩
  | .hbm, ⟨85, _⟩ => ⟨S8192x4, .i1⟩
  | .hbm, ⟨86, _⟩ => ⟨S8192x4, .f32⟩
  | .hbm, ⟨87, _⟩ => ⟨S_, .f32⟩
  | .hbm, ⟨88, _⟩ => ⟨S8192x4, .f32⟩
  | .hbm, ⟨89, _⟩ => ⟨S8192x4, .f32⟩
  | .hbm, ⟨90, _⟩ => ⟨S8192x1, .f32⟩
  | .hbm, ⟨91, _⟩ => ⟨S8192x5, .f32⟩
  | .hbm, ⟨92, _⟩ => ⟨S_, .f32⟩
  | .hbm, ⟨93, _⟩ => ⟨S8192, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S8192x1, .f32⟩
  | .hbm, ⟨98, _⟩ => ⟨S8192x5, .f32⟩
  | .hbm, ⟨99, _⟩ => ⟨S8192x5, .f32⟩
  | .hbm, ⟨100, _⟩ => ⟨S8192x5, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1, .f32⟩
  | .hbm, ⟨105, _⟩ => ⟨S8192x5, .f32⟩
  | .hbm, ⟨106, _⟩ => ⟨S8192x5, .f32⟩
  | .hbm, ⟨107, _⟩ => ⟨S8192x1, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_c_3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call3_cst : Ref sig .tc := ⟨.hbm, 92, rfl⟩
abbrev main_call3_v0 : Ref sig .tc := ⟨.hbm, 93, rfl⟩
abbrev main_call3_cst_0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_cst_1 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_cst_6 : Ref sig .tc := ⟨.hbm, 110, rfl⟩
abbrev main_v40 : Ref sig .tc := ⟨.hbm, 111, rfl⟩
abbrev main_v41 : Ref sig .tc := ⟨.hbm, 112, rfl⟩
abbrev main_cst_7 : Ref sig .tc := ⟨.hbm, 113, rfl⟩
abbrev main_v42 : Ref sig .tc := ⟨.hbm, 114, rfl⟩
abbrev main_cst_8 : Ref sig .tc := ⟨.hbm, 115, rfl⟩
abbrev main_cst_9 : Ref sig .tc := ⟨.hbm, 116, rfl⟩
abbrev main_v43 : Ref sig .tc := ⟨.hbm, 117, rfl⟩
abbrev main_v44 : Ref sig .tc := ⟨.hbm, 118, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S8192x1_S8192x4_0_1 : S8192x1.BroadcastsInDim S8192x4 (![0, 1] : Fin 2 → Fin S8192x4.rank)
  natLt_1_32 : 1 < 32
  bcast_S_S8192x4 : S_.BroadcastsInDim S8192x4 (![] : Fin 0 → Fin S8192x4.rank)
  shapeCasts_S8192x4_S8192x4x1 : S8192x4.ShapeCasts S8192x4x1
  bcast_S_S8192x4x1 : S_.BroadcastsInDim S8192x4x1 (![] : Fin 0 → Fin S8192x4x1.rank)
  bcast_S1_S1x1x1_2 : S1.BroadcastsInDim S1x1x1 (![2] : Fin 1 → Fin S1x1x1.rank)
  bcast_S1x1x1_S8192x4x1_0_1_2 : S1x1x1.BroadcastsInDim S8192x4x1 (![0, 1, 2] : Fin 3 → Fin S8192x4x1.rank)
  reducesTo_S8192x4x1_S8192x4_d2 : S8192x4x1.ReducesTo [2] S8192x4
  concatenates_S8192x1_S8192x4_S8192x5_d1 : Shape.Concatenates [S8192x1, S8192x4] S8192x5 1
  reducesTo_S8192x5_S8192_d1 : S8192x5.ReducesTo [1] S8192
  bcast_S8192x1_S8192x5_0_1 : S8192x1.BroadcastsInDim S8192x5 (![0, 1] : Fin 2 → Fin S8192x5.rank)
  slices_S8192x5_S8192x1_0_0 : S8192x5.Slices ![0, 0] S8192x1
  shapeCasts_S8192x1_S8192 : S8192x1.ShapeCasts S8192
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x2_S8192_n_01_n_n_01_1_11_wf : GatherDims.WF S8192x8192 S8192x2 S8192 [] [0, 1] [] [0, 1] [] 1 ![1, 1]
  gather_S8192x8192_S8192x4x1_S8192x4_n_1_0_0_1_2_11_wf : GatherDims.WF S8192x8192 S8192x4x1 S8192x4 [] [1] [0] [1] [0] 2 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def gather_S8192x8192_S8192x4x1_S8192x4_n_1_0_0_1_2_11 : GatherDims S8192x8192 S8192x4x1 S8192x4 where
  offsetDims := []
  collapsedSliceDims := [1]
  operandBatchingDims := [0]
  startIndicesBatchingDims := [0]
  startIndexMap := [1]
  indexVectorDim := 2
  sliceSizes := ![1, 1]
  wf := gather_S8192x8192_S8192x4x1_S8192x4_n_1_0_0_1_2_11_wf

class Facts : Prop extends Facts₀ where

variable [Facts]
-- ==== Proof.Kernel.Defs.lean ====
/-
  The kernel program's shared vocabulary: the buffer contents its region is entered from (the host operations
  before the launch folded over the launch memory), each window's block at a grid point, the two branch conditions
  of the body decided over the grid (the column-tile coordinate is 0; it is 7), where the output window is idle,
  and what the scratch accumulator holds after a point as a function of the point's three loaded blocks and of
  what it held before: the previous contents plus, per sampled column k, the one-hot selection of the row tile's
  similarities against this column tile, summed along the tile.
-/
import proofs.«418182_j40372692582790_2_alg».proof.Proof.Gen.Kernel.Launch
import proofs.«418182_j40372692582790_2_alg».proof.Proof.Gen.Kernel.Skeleton
import proofs.«418182_j40372692582790_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents up to the region's entry -/

/-- Core `c`'s buffers at launch. -/
abbrev W0 (c : Dev nD) : Valuation τ sig (Elt F) := fun b => m (c, b)
/-- After the concatenation of the two inputs. -/
abbrev W1 (c : Dev nD) : Valuation τ sig (Elt F) := StableHlo.after hostOps0 (W0 m c)
/-- After the row norms. -/
abbrev W2 (c : Dev nD) : Valuation τ sig (Elt F) := StableHlo.after hostOps0_1 (W1 m c)
/-- After the normalisation, the positives and the shifted column indices: the region's entry. -/
abbrev W3 (c : Dev nD) : Valuation τ sig (Elt F) := StableHlo.after hostOps0_2 (W2 m c)
/-- The same read at a TensorCore reference. -/
abbrev V (c : Dev nD) (b : Ref sig .tc) : Buf (Elt F) ((c : Thread nD τ).loc b) := W3 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The column-tile coordinate is 0: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column-tile coordinate is 7: the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column tile the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x4 .f32 := Memref.whole cc0_scratch0

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What a point computes -/

/-- The column tile's 1024 rows of the resident key matrix: rows `1024 * j .. 1024 * j + 1023` of the whole array,
    `j` the point's column-tile coordinate. -/
def colSlice (i : grid0.Coords) (za : Vec F S8192x512 .bf16) : Vec F S1024x512 .bf16 :=
  View.ld (Val := Elt F) za (Rect.unit (s := S8192x512) (k0_off1 i) S1024x512.size (k0_off1_inb i))

/-- The accumulator after a point: what it held (`prev`) plus the point's contribution — for each of the four sampled
    columns, the sum over the column tile of the similarities selected where the sampled column is the tile's. -/
def accNext (i : grid0.Coords) (za : Vec F S8192x512 .bf16) (zr : Vec F S512x512 .bf16) (cl : Vec F S512x4 .i32) (prev : Vec F S512x4 .f32) :
    Vec F S512x4 .f32 :=
  k0_pay1 (k0_pay3 (colSlice i za) zr) (k0_pay4 i) (k0_pay5 cl) (k0_pay6 i (colSlice i za) zr cl) (k0_pay7 i (colSlice i za) zr cl)
    (k0_pay8 i (colSlice i za) zr cl) prev

end Cert.Kernel.Hand

end
-- ==== Proof.Kernel.RunFirst.lean ====
/-
  The kernel body at a point whose column tile is the first (and not the last): the accumulator is reset to zero,
  then this tile's contribution is added; the output block is not touched.
-/
import proofs.«418182_j40372692582790_2_alg».proof.Proof.Kernel.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Column tile 0: on whole memrefs — the row tile `zr`, the resident key matrix `za`, the sampled columns `cl`, the
    output block at `x5`, the accumulator at anything — the body runs and leaves the inputs and the output block as
    they were and the accumulator at zero plus the tile's contribution. -/
theorem run_first (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : cond0_0 i) (hc1 : ¬cond0_1 i)
    (zr : Vec F S512x512 .bf16) (za : Vec F S8192x512 .bf16) (cl : Vec F S512x4 .i32) (x5 : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ owns (c : Thread nD τ) arg5 fullShare x5 ∗ (∃ d, owns (c : Thread nD τ) arg6 fullShare d)
        ∗ (iprop(owns (c : Thread nD τ) arg2 fullShare zr ∗ owns (c : Thread nD τ) arg3 fullShare za ∗ owns (c : Thread nD τ) arg4 fullShare cl
            ∗ owns (c : Thread nD τ) arg5 fullShare x5 ∗ owns (c : Thread nD τ) arg6 fullShare (accNext i za zr cl (k0_pay2 (F := F)))) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  have hz : (![0, 0] : Fin 2 → Nat) = fun _ => 0 := funext fun a => by fin_cases a <;> rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; rotate_left
  · iexact H6
  -- the later of the two whole-block stores leaves its payload: the loads read the contents held, the accumulator's load the reset value
  ipureintro
  sl_unfold_run_names
  rw [View.read_writes_eq_canon _ _ _ (fun y => ⟨_, List.mem_cons_self, View.mem_set_unit_zero hz inb_S512x4_S512x4_0_0 y⟩)]
  rw [View.canon_cons_unit_zero hz]
  simp only [View.readCov_unit_zero (S := S512x4) _ hz, View.readAt_eq_ld, harg2.read_unread, harg3.read_unread, harg4.read_unread, View.ld_unit_zero (S := S512x4) hz, View.ld_unit_zero (S := S512x512) hz]
  unfold accNext colSlice
  rfl

end Cert.Kernel.Hand

end
-- ==== Proof.Kernel.RunMiddle.lean ====
/-
  The kernel body at a point whose column tile is neither the first nor the last: this tile's contribution is added
  to the accumulator; the output block is not touched.
-/
import proofs.«418182_j40372692582790_2_alg».proof.Proof.Kernel.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle column tile: the accumulator goes from `prev` to `prev` plus the tile's contribution; everything else is
    left as it was. -/
theorem run_middle (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : ¬cond0_0 i) (hc1 : ¬cond0_1 i)
    (zr : Vec F S512x512 .bf16) (za : Vec F S8192x512 .bf16) (cl : Vec F S512x4 .i32) (x5 : Vec F S512x4 .f32) (prev : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ owns (c : Thread nD τ) arg5 fullShare x5 ∗ owns (c : Thread nD τ) arg6 fullShare prev
        ∗ (iprop(owns (c : Thread nD τ) arg2 fullShare zr ∗ owns (c : Thread nD τ) arg3 fullShare za ∗ owns (c : Thread nD τ) arg4 fullShare cl
            ∗ owns (c : Thread nD τ) arg5 fullShare x5 ∗ owns (c : Thread nD τ) arg6 fullShare (accNext i za zr cl prev)) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; rotate_left
  · iexact H6
  -- the one whole-block store leaves its payload, whose loads read the contents held: the accumulator's next value
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S512x4_S512x4_0_0 y⟩)]
  sl_unfold_run_names
  rw [View.canon_unit_zero hz]
  simp only [View.readAt_eq_ld, harg2.read_unread, harg3.read_unread, harg4.read_unread, harg6.read_unread, View.ld_unit_zero (S := S512x4) hz, View.ld_unit_zero (S := S512x512) hz]
  unfold accNext colSlice
  rfl

end Cert.Kernel.Hand

end
-- ==== Proof.Kernel.RunLast.lean ====
/-
  The kernel body at a point whose column tile is the last: this tile's contribution is added to the accumulator,
  and the accumulator is copied into the output block.
-/
import proofs.«418182_j40372692582790_2_alg».proof.Proof.Kernel.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last column tile: the accumulator goes from `prev` to `prev` plus the tile's contribution, and the output
    block, whatever it held, ends holding the same. -/
theorem run_last (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : ¬cond0_0 i) (hc1 : cond0_1 i)
    (zr : Vec F S512x512 .bf16) (za : Vec F S8192x512 .bf16) (cl : Vec F S512x4 .i32) (prev : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ (∃ d, owns (c : Thread nD τ) arg5 fullShare d) ∗ owns (c : Thread nD τ) arg6 fullShare prev
        ∗ (iprop(owns (c : Thread nD τ) arg2 fullShare zr ∗ owns (c : Thread nD τ) arg3 fullShare za ∗ owns (c : Thread nD τ) arg4 fullShare cl
            ∗ owns (c : Thread nD τ) arg5 fullShare (accNext i za zr cl prev) ∗ owns (c : Thread nD τ) arg6 fullShare (accNext i za zr cl prev)) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  have hz : (![0, 0] : Fin 2 → Nat) = fun _ => 0 := funext fun a => by fin_cases a <;> rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; rotate_left
    · iexact H5
    -- the output block's one whole-block store holds what the accumulator's load read back through its own store
    ipureintro
    sl_unfold_run_names
    rw [View.read_writes_eq_canon _ _ _ (fun y => ⟨_, List.mem_singleton_self _, View.mem_set_unit_zero hz inb_S512x4_S512x4_0_0 y⟩)]
    rw [View.canon_unit_zero hz]
    simp only [View.readCov_unit_zero (S := S512x4) _ hz, View.readAt_eq_ld, harg2.read_unread, harg3.read_unread, harg4.read_unread, harg6.read_unread, View.ld_unit_zero (S := S512x4) hz, View.ld_unit_zero (S := S512x512) hz]
    unfold accNext colSlice
    rfl
  iexists _; isplitr; rotate_left
  · iexact H6
  -- the accumulator's one whole-block store leaves its payload, whose loads read the contents held
  ipureintro
  sl_unfold_run_names
  rw [View.read_writes_eq_canon _ _ _ (fun y => ⟨_, List.mem_singleton_self _, View.mem_set_unit_zero hz inb_S512x4_S512x4_0_0 y⟩)]
  rw [View.canon_unit_zero hz]
  simp only [View.readAt_eq_ld, harg2.read_unread, harg3.read_unread, harg4.read_unread, harg6.read_unread, View.ld_unit_zero (S := S512x4) hz, View.ld_unit_zero (S := S512x512) hz]
  unfold accNext colSlice
  rfl

end Cert.Kernel.Hand

end
-- ==== Proof.Kernel.Data.lean ====
/-
  The pipeline's proof data. The accumulator after point n holds, per row of the row tile and per sampled column, the
  sum over the column tiles visited so far in this row tile of the tile contributions (`scAt`: by recursion on the point,
  restarting from zero at every point whose column tile is the first). After the body each input window's buffer holds
  its block; the output window's buffer, at a last column tile, holds the accumulator. The region invariant carries the
  accumulator at `scAt` of the point before. Windows 0 and 1 read ONE array (the normalised rows, once as the row tile
  and once whole): each holds a half share of it.
-/
import proofs.«418182_j40372692582790_2_alg».proof.Proof.Kernel.RunFirst
import proofs.«418182_j40372692582790_2_alg».proof.Proof.Kernel.RunMiddle
import proofs.«418182_j40372692582790_2_alg».proof.Proof.Kernel.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The accumulator, point by point -/

/-- What the accumulator holds after point `n`. -/
def scAt (c : Dev nD) : (n : ℕ) → n < cfg0.N → Vec F S512x4 .f32
  | 0, h => accNext (grid0.coords ⟨0, h⟩) (iblk m c 1 ⟨0, h⟩) (iblk m c 0 ⟨0, h⟩) (iblk m c 2 ⟨0, h⟩) (k0_pay2 (F := F))
  | n + 1, h => accNext (grid0.coords ⟨n + 1, h⟩) (iblk m c 1 ⟨n + 1, h⟩) (iblk m c 0 ⟨n + 1, h⟩) (iblk m c 2 ⟨n + 1, h⟩)
      (if (n + 1) % 8 = 0 then (k0_pay2 (F := F)) else scAt c n (Nat.lt_of_succ_lt h))

/-- At a first column tile the accumulator restarts from zero. -/
theorem scAt_first (c : Dev nD) (t : Fin cfg0.N) (h : t.val % 8 = 0) :
    scAt m c t.val t.isLt = accNext (grid0.coords t) (iblk m c 1 t) (iblk m c 0 t) (iblk m c 2 t) (k0_pay2 (F := F)) := by
  obtain ⟨n, hn⟩ := t
  cases n with
  | zero => rw [scAt]
  | succ n =>
    have h' : (n + 1) % 8 = 0 := h
    rw [scAt, if_pos h']

/-- At any other column tile it continues from the point before. -/
theorem scAt_next (c : Dev nD) (t : Fin cfg0.N) (h : ¬t.val % 8 = 0) :
    scAt m c t.val t.isLt = accNext (grid0.coords t) (iblk m c 1 t) (iblk m c 0 t) (iblk m c 2 t)
      (scAt m c (t.val - 1) (Nat.lt_of_le_of_lt (Nat.sub_le _ _) t.isLt)) := by
  obtain ⟨n, hn⟩ := t
  cases n with
  | zero => exact absurd (Nat.zero_mod _) h
  | succ n =>
    have h' : ¬(n + 1) % 8 = 0 := h
    rw [scAt, if_neg h']
    rfl

/-! ## The region invariant -/

/-- Before the first point the class's invariant (the accumulator at anything); afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

/-- Before the first point: the class's invariant. -/
theorem PhiS_zero (c : Dev nD) (n : ℕ) (h : n ≤ cfg0.N) (hz : n = 0) : PhiS m c n h = Pipeline.ΦA spec0 c := by
  subst hz; rw [PhiS]

/-- After point `n`: the accumulator at that point's contents. -/
theorem PhiS_succ (c : Dev nD) (n : ℕ) (hn : n < cfg0.N) :
    PhiS m c (n + 1) hn = iprop(iprop(owns (c : Thread nD τ) scM0_0 fullShare (scAt m c n hn)) ∗ (∃ r, prngReg c r)) := by
  rw [PhiS]

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rw [PhiS]; rfl

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = scAt m c t.val t.isLt := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- The invariant at a point's end: the accumulator at the point's contents. -/
theorem PhiS_fsucc (c : Dev nD) (t : Fin cfg0.N) :
    (dats m 0 c).Φ t.succ
      = iprop(iprop(owns (c : Thread nD τ) scM0_0 fullShare (scAt m c t.val t.isLt)) ∗ (∃ r, prngReg c r)) := by
  dsimp only [dats]; simp only [Fin.val_succ]; rw [PhiS_succ]

/-! ## The input windows' buffers hold their blocks at every point

The row tile and the sampled columns are fetched when the row tile changes, the resident key matrix once; unfetched,
a window's block index has not moved and the body left the block in place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation at a point -/

/-- What the body is called with at point `t`: the invariant, what the core owes, and the four windows' current
    buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]

theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]

theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

/-- At a last column tile the output block is left at the accumulator's contents. -/
theorem leaves0_3_last (c : Dev nD) (t : Fin cfg0.N) (h : cond0_1 (grid0.coords t)) :
    (dats m 0 c).leavesExact 3 t = owns (c : Thread nD τ) (ms0_3 t) fullShare (scAt m c t.val t.isLt) := by
  unfold Dat.leavesExact; rw [liveAt0_3 t h, after0_3]

set_option maxHeartbeats 1600000 in
/-- The body at any point. The three inputs' buffers hold their blocks. At a first column tile the accumulator,
    whatever it held, restarts; at any other it continues from the point before; the output block is handed back as
    found off the last column tile, and at it holds the accumulator's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [PhiS_fsucc, leaves0_0, leaves0_1, leaves0_2, PhiS_castSucc m c t]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dats m 0 c) 3 t (idleAt0_3 t hc1) (noFlush0_3 t hc1), scAt_first m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_pos m c _ _ hz]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [PhiS_pos m c _ _ hz, scAt_next m c t h0]
    by_cases h1 : t.val % 8 = 7
    · have hc1 : cond0_1 (grid0.coords t) := (hcond0_1 t).mpr h1
      rw [leaves0_3_last m c t hc1, scAt_next m c t h0]
      iintro ⟨⟨HS, Hg⟩, Ho, ⟨%d0, H0⟩, ⟨%d1, H1⟩, ⟨%d2, H2⟩, ⟨%d3, H3⟩⟩
      iapply (run_last c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dats m 0 c) 3 t (idleAt0_3 t hc1) (noFlush0_3 t hc1)]
      iintro ⟨⟨HS, Hg⟩, Ho, ⟨%d0, H0⟩, ⟨%d1, H1⟩, ⟨%d2, H2⟩, ⟨%d3, H3⟩⟩
      iapply (run_middle c (grid0.coords t) _ _ _ _ _ _ _ _ _ _ hc0 hc1 (iblk m c 0 t) (iblk m c 1 t) (iblk m c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

/-- After the last point the invariant gives the class's back: the accumulator's named contents are forgotten. -/
theorem hout (c : Dev nD) : (dats m 0 c).Φ (Fin.last cfg0.N) ⊢ Pipeline.ΦA spec0 c :=
  Phi_out m c _ (by rw [Fin.val_last]; have : cfg0.N = 128 := N_0; omega)

/-! ## The buffers' contents from the region's exit to the return -/

/-- At the region's exit: the output array at what the pipeline's write-backs leave, every other buffer as entered. -/
def W4 (c : Dev nD) : Valuation τ sig (Elt F) :=
  Function.update (W3 m c) (Proc.devRef .tc main_v20) ((dats m 0 c).arrAt 3 cfg0.N)
/-- After the scaling of the negatives and the assembly of the logits. -/
abbrev W5 (c : Dev nD) : Valuation τ sig (Elt F) := StableHlo.after hostOps1 (W4 m c)
/-- After the log-softmax. -/
abbrev W6 (c : Dev nD) : Valuation τ sig (Elt F) := StableHlo.after hostOps1_1 (W5 m c)
/-- After the weighted mean: the return. -/
abbrev W7 (c : Dev nD) : Valuation τ sig (Elt F) := StableHlo.after hostOps1_2 (W6 m c)

end Cert.Kernel.Hand

end
-- ==== Proof.Kernel.Launch.lean ====
/-
  The launch. @main is: three stretches of host operations, the fused kernel's region, three more stretches. Between two
  items the core holds every unscoped buffer whole at a named valuation (W0 .. W7). The region takes its arrays out of
  that state — the normalised rows' buffer split into two half shares, one per window that reads it — runs the pipeline
  over the proof data, and puts them back with the output array at what the write-backs leave. Every weakly fair execution
  therefore terminates with every unscoped buffer at W7; no item writes an argument.
-/
import proofs.«418182_j40372692582790_2_alg».proof.Proof.Kernel.Data
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays among the unscoped buffers -/

/-- The buffers behind the windows' arrays: the normalised rows (read by two windows), the shifted column indices,
    the output. -/
theorem arrRefs_image : (Finset.univ.image (Pipeline.arrRef spec0) : Finset (Ref sig .tc)) = {main_v6, main_v19, main_v20} := by
  decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The pipeline's arrays at contents `G`, window by window, each a whole buffer at its share. -/
theorem arrays_unfold (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v19) ↦{fullShare} G 2) ∗ (((c : Thread nD τ).loc main_v20) ↦{fullShare} G 3)) := by
  unfold Dat.arrays
  rw [bigSep_W0, (arr_whole0 0).set_eq_univ, (arr_whole0 2).set_eq_univ, (arr_whole0 3).set_eq_univ,
    share0, share1, share2, share3]

/-- The distinct buffers behind the arrays, one by one, at contents `V'`. -/
theorem arrBufs_unfold (c : Dev nD) (V' : (b : Ref sig .tc) → Buf (Elt F) ((c : Thread nD τ).loc b)) :
    (Pipeline.arrBufs spec0 c V' : sProp 𝕄)
      = iprop((((c : Thread nD τ).loc main_v6) ↦{fullShare} V' main_v6) ∗ (((c : Thread nD τ).loc main_v19) ↦{fullShare} V' main_v19)
          ∗ (((c : Thread nD τ).loc main_v20) ↦{fullShare} V' main_v20)) := by
  unfold Pipeline.arrBufs
  rw [arrRefs_image, bigSep_insert (by decide), bigSep_insert (by decide), bigSep_singleton]
  rfl

/-- ENTRY: the core's unscoped buffers at the region's entry contents are the pipeline's arrays at those contents — the
    normalised rows' buffer dealt in two halves, to the row-tile window and to the resident window — and the rest. -/
theorem arrays_of_unscopedBufs (c : Dev nD) :
    (unscopedBufs c (V m c) : sProp 𝕄)
      ⊢ iprop((dats m 0 c).arrays (dats m 0 c).A ∗ Pipeline.unscopedRest spec0 c (V m c)) := by
  rw [Pipeline.unscopedBufs_split₀ cfgs 0 winFacts₀0.arr_unscoped c (V m c), arrBufs_unfold, arrays_unfold]
  refine sep_mono ?_ .rfl
  iintro ⟨H6, H19, H20⟩
  ihave H := (pointsTo_share (PosShare.mem_left_op_right fullShare)).1 $$ H6
  icases H with ⟨Hl, Hr⟩
  isplitl [Hl]; · iexact Hl
  isplitl [Hr]; · iexact Hr
  isplitl [H19]; · iexact H19
  iexact H20

/-- The region's exit contents at the output array: what the write-backs leave. -/
theorem W4_out (c : Dev nD) : W4 m c (Proc.devRef .tc main_v20) = (dats m 0 c).arrAt 3 cfg0.N := by
  unfold W4; exact Function.update_self ..
/-- Every other buffer is as the region found it. -/
theorem W4_of_ne (c : Dev nD) (b : Ref sig .tc) (hb : b ≠ main_v20) : W4 m c (Proc.devRef .tc b) = W3 m c (Proc.devRef .tc b) := by
  unfold W4; exact Function.update_of_ne (StableHlo.devRef_ne_of_ne hb) _ _

/-- EXIT: the pipeline's arrays at what it leaves — the inputs as entered, the two halves of the normalised rows' buffer
    joined back, the output at its write-backs — and the rest are the core's unscoped buffers at the exit contents. -/
theorem unscopedBufs_of_arrays (c : Dev nD) :
    iprop((dats m 0 c).arrays ((dats m 0 c).arrAt · cfg0.N) ∗ Pipeline.unscopedRest spec0 c (V m c))
      ⊢ (unscopedBufs c (fun b => W4 m c (Proc.devRef .tc b)) : sProp 𝕄) := by
  rw [Pipeline.unscopedBufs_split₀ cfgs 0 winFacts₀0.arr_unscoped c (fun b => W4 m c (Proc.devRef .tc b)), arrBufs_unfold, arrays_unfold]
  refine sep_mono ?_ (Entails.of_eq ?_)
  · beta_reduce
    rw [(dats m 0 c).arrAt_in 0 rfl, (dats m 0 c).arrAt_in 1 rfl, (dats m 0 c).arrAt_in 2 rfl, A_eq, A_eq, A_eq,
      W4_of_ne m c main_v6 (by decide), W4_of_ne m c main_v19 (by decide), W4_out]
    iintro ⟨Hl, Hr, H19, H20⟩
    isplitl [Hl Hr]
    · iapply (pointsTo_share (PosShare.mem_left_op_right fullShare)).2
      isplitl [Hl]; · iexact Hl
      iexact Hr
    isplitl [H19]; · iexact H19
    iexact H20
  · unfold Pipeline.unscopedRest
    exact bigSep_congr fun b hb => by
      have hne : b ≠ main_v20 := fun e => (Finset.mem_sdiff.mp hb).2 (e ▸ Finset.mem_image.mpr ⟨3, Finset.mem_univ _, rfl⟩)
      beta_reduce; rw [W4_of_ne m c b hne]

/-! ## The launch's vocabulary -/

/-- No pipeline has a prefetched table: the admissible contents are trivial. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dats m 0 c
/-- No core owes another anything: no level is assigned. -/
abbrev L : GSem nD τ sig → Finset Unit := fun _ => ∅
abbrev lv : GSem nD τ sig → Unit → ℕ := fun _ _ => 0
/-- What rides beside the buffers from item to item: the core's generator register at some state, and that it owes nothing. -/
abbrev R (c : Dev nD) : sProp 𝕄 := iprop((∃ r, prngReg c r) ∗ ∃ W, owes (c : Thread nD τ) (0 : CellTallies nD τ sig Unit) W)
/-- The thread state between two items: every unscoped buffer whole at the valuation, and what rides along. -/
abbrev stateAt (W : Dev nD → Valuation τ sig (Elt F)) (c : Dev nD) : sProp 𝕄 :=
  iprop(StableHlo.held (c : Thread nD τ) (Pipeline.ucRefs τ sig) (W c) ∗ R c)

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## The region as a segment -/

/-- The entry split over the held set: the region's entry state's buffers are the arrays and the rest. -/
theorem held_entry (c : Dev nD) :
    (StableHlo.held (c : Thread nD τ) (Pipeline.ucRefs τ sig) (W3 m c) : sProp 𝕄)
      ⊢ iprop((dats m 0 c).arrays (dats m 0 c).A ∗ Pipeline.unscopedRest spec0 c (V m c)) :=
  (Entails.of_eq (Pipeline.unscopedBufs_held c (W3 m c)).symm).trans (arrays_of_unscopedBufs m c)

/-- The exit join over the held set. -/
theorem held_exit (c : Dev nD) :
    iprop((dats m 0 c).arrays ((dats m 0 c).arrAt · cfg0.N) ∗ Pipeline.unscopedRest spec0 c (V m c))
      ⊢ (StableHlo.held (c : Thread nD τ) (Pipeline.ucRefs τ sig) (W4 m c) : sProp 𝕄) :=
  (unscopedBufs_of_arrays m c).trans (Entails.of_eq (Pipeline.unscopedBufs_held c (W4 m c)))

set_option backward.isDefEq.respectTransparency.types false in
/-- The fused kernel's region: entered from every unscoped buffer at `W3`, left at `W4`. The arrays leave the held
    buffers at entry and return at exit; the generator register passes through the class invariant; nothing is owed;
    the kernel has no semaphore of its own. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre := stateAt (W3 m)
  post := stateAt (W4 m)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hbufs, Hreg, Howes⟩, -, -⟩
    ihave Hsplit := held_entry m c $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T
      isplitr; · ipureintro; exact fun _ _ => Or.inl trivial
      iexact Howes
    isplitl [Hreg]; · iexact Hreg
    iexact Hrest
  hin c := by
    refine BIBase.Entails.trans ?_ (hin m c)
    unfold Pipeline.ΦA
    iintro ⟨Hreg, -, Hscoped⟩
    isplitl [Hscoped]; · iexact Hscoped
    iexact Hreg
  hout c := by
    rw [Pipeline.ownSems0_none]
    refine (hout m c).trans ?_
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (held_exit m c); isplitl [Harr]; · iexact Harr
      iexact Hrest
    isplitl [Hreg]; · iexact Hreg
    unfold Pipeline.Dat.owesAt Pipeline.owesWithin
    icases Howes with ⟨%T, -, Howes⟩; iexists T; iexact Howes

/-! ## @main as its seven items -/

/-- @main's items in order: three stretches of host operations, the kernel's region, three more stretches; each stretch
    from its boundary's valuation. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)) ]

/-- @main is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, with
    every unscoped buffer of every core at the last valuation. -/
theorem run : θ_run defs (onTc (τ := τ) (main (F := F))) ⟨m, fun _ => 0, ρ⟩
    (fun r => ∀ (c : Dev nD), ∀ b ∈ Pipeline.ucRefs τ sig, r.2.mem (((c : Thread nD τ)).1, b) = W7 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch's element is the pipeline's rounds element through the one-component embedding; no core sets anything else up
      rw [BI.bigSep_emp_const]
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iempintro)
    (T₀ := stateAt (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl,
      fun _ => sep_assoc.2⟩)
    (hinit := Pipeline.initEach L lv fun c => by
      -- a core's launch holdings: its unscoped buffers at the launch memory are the held set at `W0`; the register's
      -- launch state is some state; it owes nothing
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W7 m c b)
    (hfin := fun c s' => by
      iintro ⟨⟨Hbufs, -⟩, Hstate⟩
      unfold StableHlo.held
      imodintro
      iapply (pointsTo_read_all (Pipeline.ucRefs τ sig) (fun b => (((c : Thread nD τ)).1, b)) (W7 m c) s')
      isplitl [Hbufs]; · iexact Hbufs
      iexact Hstate)
    (hQ := fun s h => h)

/-! ## The arguments -/

/-- @main's three arguments. -/
abbrev args : List (Ref sig .tc) := [main_arg0, main_arg1, main_arg2]

/-- No host operation writes an argument: each stretch leaves the arguments' buffers as it found them. -/
theorem hostOps0_keeps (Vl : Valuation τ sig (Elt F)) (b : Ref sig .tc) (hb : b ∈ args) :
    StableHlo.after hostOps0 Vl (Proc.devRef .tc b) = Vl (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps0_1_keeps (Vl : Valuation τ sig (Elt F)) (b : Ref sig .tc) (hb : b ∈ args) :
    StableHlo.after hostOps0_1 Vl (Proc.devRef .tc b) = Vl (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps0_2_keeps (Vl : Valuation τ sig (Elt F)) (b : Ref sig .tc) (hb : b ∈ args) :
    StableHlo.after hostOps0_2 Vl (Proc.devRef .tc b) = Vl (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_keeps (Vl : Valuation τ sig (Elt F)) (b : Ref sig .tc) (hb : b ∈ args) :
    StableHlo.after hostOps1 Vl (Proc.devRef .tc b) = Vl (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_1_keeps (Vl : Valuation τ sig (Elt F)) (b : Ref sig .tc) (hb : b ∈ args) :
    StableHlo.after hostOps1_1 Vl (Proc.devRef .tc b) = Vl (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_2_keeps (Vl : Valuation τ sig (Elt F)) (b : Ref sig .tc) (hb : b ∈ args) :
    StableHlo.after hostOps1_2 Vl (Proc.devRef .tc b) = Vl (Proc.devRef .tc b) :=
  StableHlo.after_of_forall_not_mem (b := Proc.devRef .tc b) _ _ (List.forall_iff_forall_mem.mp (by
    simp only [hostOps1_2, List.Forall, StableHlo.nullary_writes, StableHlo.unary_writes, StableHlo.binary_writes,
      StableHlo.reshape_writes, Finset.mem_singleton]
    repeat' apply And.intro
    all_goals exact fun e => absurd (Proc.devRef_injective _ e ▸ hb) (by decide)))

/-- An argument's buffer at the return is the launch memory's: no stretch writes it, and the region writes only its
    output array. -/
theorem W7_arg (c : Dev nD) (b : Ref sig .tc) (hb : b ∈ args) : W7 m c (Proc.devRef .tc b) = m ((c : Thread nD τ).loc b) :=
  calc W7 m c (Proc.devRef .tc b)
    _ = W6 m c (Proc.devRef .tc b) := hostOps1_2_keeps _ b hb
    _ = W5 m c (Proc.devRef .tc b) := hostOps1_1_keeps _ b hb
    _ = W4 m c (Proc.devRef .tc b) := hostOps1_keeps _ b hb
    _ = W3 m c (Proc.devRef .tc b) := W4_of_ne m c b fun e => absurd (e ▸ hb) (by decide)
    _ = W2 m c (Proc.devRef .tc b) := hostOps0_2_keeps _ b hb
    _ = W1 m c (Proc.devRef .tc b) := hostOps0_1_keeps _ b hb
    _ = W0 m c (Proc.devRef .tc b) := hostOps0_keeps _ b hb
    _ = m ((c : Thread nD τ).loc b) := rfl

/-- No item writes an argument: each reaches the return as launched. -/
theorem W7_main_arg0 (c : Dev nD) : W7 m c (Proc.devRef .tc main_arg0) = m ((c : Thread nD τ).loc main_arg0) :=
  W7_arg m c main_arg0 (by decide)
theorem W7_main_arg1 (c : Dev nD) : W7 m c (Proc.devRef .tc main_arg1) = m ((c : Thread nD τ).loc main_arg1) :=
  W7_arg m c main_arg1 (by decide)
theorem W7_main_arg2 (c : Dev nD) : W7 m c (Proc.devRef .tc main_arg2) = m ((c : Thread nD τ).loc main_arg2) :=
  W7_arg m c main_arg2 (by decide)

/-- THE FRAME: the run read at the three arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run m ρ)

end Cert.Kernel.Hand

end
-- ==== Proof.KernelIdeal.Defs.lean ====
/-
  The kernel program's shared vocabulary: the buffer contents its region is entered from (the host operations
  before the launch folded over the launch memory), each window's block at a grid point, the two branch conditions
  of the body decided over the grid (the column-tile coordinate is 0; it is 7), where the output window is idle,
  and what the scratch accumulator holds after a point as a function of the point's three loaded blocks and of
  what it held before: the previous contents plus, per sampled column k, the one-hot selection of the row tile's
  similarities against this column tile, summed along the tile.
-/
import proofs.«418182_j40372692582790_2_alg».proof.Proof.Gen.KernelIdeal.Launch
import proofs.«418182_j40372692582790_2_alg».proof.Proof.Gen.KernelIdeal.Skeleton
import proofs.«418182_j40372692582790_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents up to the region's entry -/

/-- Core `c`'s buffers at launch. -/
abbrev W0 (c : Dev nD) : Valuation τ sig (Elt F) := fun b => m (c, b)
/-- After the concatenation of the two inputs. -/
abbrev W1 (c : Dev nD) : Valuation τ sig (Elt F) := StableHlo.after hostOps0 (W0 m c)
/-- After the row norms. -/
abbrev W2 (c : Dev nD) : Valuation τ sig (Elt F) := StableHlo.after hostOps0_1 (W1 m c)
/-- After the normalisation, the positives and the shifted column indices: the region's entry. -/
abbrev W3 (c : Dev nD) : Valuation τ sig (Elt F) := StableHlo.after hostOps0_2 (W2 m c)
/-- The same read at a TensorCore reference. -/
abbrev V (c : Dev nD) (b : Ref sig .tc) : Buf (Elt F) ((c : Thread nD τ).loc b) := W3 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The column-tile coordinate is 0: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column-tile coordinate is 7: the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column tile the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x4 .f32 := Memref.whole cc0_scratch0

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What a point computes -/

/-- The column tile's 1024 rows of the resident key matrix: rows `1024 * j .. 1024 * j + 1023` of the whole array,
    `j` the point's column-tile coordinate. -/
def colSlice (i : grid0.Coords) (za : Vec F S8192x512 .bf16) : Vec F S1024x512 .bf16 :=
  View.ld (Val := Elt F) za (Rect.unit (s := S8192x512) (k0_off1 i) S1024x512.size (k0_off1_inb i))

/-- The accumulator after a point: what it held (`prev`) plus the point's contribution — for each of the four sampled
    columns, the sum over the column tile of the similarities selected where the sampled column is the tile's. -/
def accNext (i : grid0.Coords) (za : Vec F S8192x512 .bf16) (zr : Vec F S512x512 .bf16) (cl : Vec F S512x4 .i32) (prev : Vec F S512x4 .f32) :
    Vec F S512x4 .f32 :=
  k0_pay1 (k0_pay3 (colSlice i za) zr) (k0_pay4 i) (k0_pay5 cl) (k0_pay6 i (colSlice i za) zr cl) (k0_pay7 i (colSlice i za) zr cl)
    (k0_pay8 i (colSlice i za) zr cl) prev

end Cert.KernelIdeal.Hand

end
-- ==== Proof.KernelIdeal.RunFirst.lean ====
/-
  The kernel body at a point whose column tile is the first (and not the last): the accumulator is reset to zero,
  then this tile's contribution is added; the output block is not touched.
-/
import proofs.«418182_j40372692582790_2_alg».proof.Proof.KernelIdeal.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Column tile 0: on whole memrefs — the row tile `zr`, the resident key matrix `za`, the sampled columns `cl`, the
    output block at `x5`, the accumulator at anything — the body runs and leaves the inputs and the output block as
    they were and the accumulator at zero plus the tile's contribution. -/
theorem run_first (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : cond0_0 i) (hc1 : ¬cond0_1 i)
    (zr : Vec F S512x512 .bf16) (za : Vec F S8192x512 .bf16) (cl : Vec F S512x4 .i32) (x5 : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ owns (c : Thread nD τ) arg5 fullShare x5 ∗ (∃ d, owns (c : Thread nD τ) arg6 fullShare d)
        ∗ (iprop(owns (c : Thread nD τ) arg2 fullShare zr ∗ owns (c : Thread nD τ) arg3 fullShare za ∗ owns (c : Thread nD τ) arg4 fullShare cl
            ∗ owns (c : Thread nD τ) arg5 fullShare x5 ∗ owns (c : Thread nD τ) arg6 fullShare (accNext i za zr cl (k0_pay2 (F := F)))) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  have hz : (![0, 0] : Fin 2 → Nat) = fun _ => 0 := funext fun a => by fin_cases a <;> rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; rotate_left
  · iexact H6
  -- the later of the two whole-block stores leaves its payload: the loads read the contents held, the accumulator's load the reset value
  ipureintro
  sl_unfold_run_names
  rw [View.read_writes_eq_canon _ _ _ (fun y => ⟨_, List.mem_cons_self, View.mem_set_unit_zero hz inb_S512x4_S512x4_0_0 y⟩)]
  rw [View.canon_cons_unit_zero hz]
  simp only [View.readCov_unit_zero (S := S512x4) _ hz, View.readAt_eq_ld, harg2.read_unread, harg3.read_unread, harg4.read_unread, View.ld_unit_zero (S := S512x4) hz, View.ld_unit_zero (S := S512x512) hz]
  unfold accNext colSlice
  rfl

end Cert.KernelIdeal.Hand

end
-- ==== Proof.KernelIdeal.RunMiddle.lean ====
/-
  The kernel body at a point whose column tile is neither the first nor the last: this tile's contribution is added
  to the accumulator; the output block is not touched.
-/
import proofs.«418182_j40372692582790_2_alg».proof.Proof.KernelIdeal.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle column tile: the accumulator goes from `prev` to `prev` plus the tile's contribution; everything else is
    left as it was. -/
theorem run_middle (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : ¬cond0_0 i) (hc1 : ¬cond0_1 i)
    (zr : Vec F S512x512 .bf16) (za : Vec F S8192x512 .bf16) (cl : Vec F S512x4 .i32) (x5 : Vec F S512x4 .f32) (prev : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ owns (c : Thread nD τ) arg5 fullShare x5 ∗ owns (c : Thread nD τ) arg6 fullShare prev
        ∗ (iprop(owns (c : Thread nD τ) arg2 fullShare zr ∗ owns (c : Thread nD τ) arg3 fullShare za ∗ owns (c : Thread nD τ) arg4 fullShare cl
            ∗ owns (c : Thread nD τ) arg5 fullShare x5 ∗ owns (c : Thread nD τ) arg6 fullShare (accNext i za zr cl prev)) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; rotate_left
  · iexact H6
  -- the one whole-block store leaves its payload, whose loads read the contents held: the accumulator's next value
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S512x4_S512x4_0_0 y⟩)]
  sl_unfold_run_names
  rw [View.canon_unit_zero hz]
  simp only [View.readAt_eq_ld, harg2.read_unread, harg3.read_unread, harg4.read_unread, harg6.read_unread, View.ld_unit_zero (S := S512x4) hz, View.ld_unit_zero (S := S512x512) hz]
  unfold accNext colSlice
  rfl

end Cert.KernelIdeal.Hand

end
-- ==== Proof.KernelIdeal.RunLast.lean ====
/-
  The kernel body at a point whose column tile is the last: this tile's contribution is added to the accumulator,
  and the accumulator is copied into the output block.
-/
import proofs.«418182_j40372692582790_2_alg».proof.Proof.KernelIdeal.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last column tile: the accumulator goes from `prev` to `prev` plus the tile's contribution, and the output
    block, whatever it held, ends holding the same. -/
theorem run_last (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x4 .i32) (harg4 : arg4.IsWhole) (arg5 : Memref sig .tc .vmem S512x4 .f32) (harg5 : arg5.IsWhole) (arg6 : Memref sig .tc .vmem S512x4 .f32) (harg6 : arg6.IsWhole)
    (hc0 : ¬cond0_0 i) (hc1 : cond0_1 i)
    (zr : Vec F S512x512 .bf16) (za : Vec F S8192x512 .bf16) (cl : Vec F S512x4 .i32) (prev : Vec F S512x4 .f32)
    (E : Set ℕ) (K : PUnit → sProp 𝕄) :
    iprop(owns (c : Thread nD τ) arg2 fullShare zr ∗ owns (c : Thread nD τ) arg3 fullShare za ∗ owns (c : Thread nD τ) arg4 fullShare cl
        ∗ (∃ d, owns (c : Thread nD τ) arg5 fullShare d) ∗ owns (c : Thread nD τ) arg6 fullShare prev
        ∗ (iprop(owns (c : Thread nD τ) arg2 fullShare zr ∗ owns (c : Thread nD τ) arg3 fullShare za ∗ owns (c : Thread nD τ) arg4 fullShare cl
            ∗ owns (c : Thread nD τ) arg5 fullShare (accNext i za zr cl prev) ∗ owns (c : Thread nD τ) arg6 fullShare (accNext i za zr cl prev)) -∗ K ⟨⟩))
      ⊢ wp frame (wpE (defs₀ (F := F)) Variants.none c none) E (cc0__negatives_kernel i arg2 harg2 arg3 harg3 arg4 harg4 arg5 harg5 arg6 harg6) K := by
  simp only [cc0__negatives_kernel_eq_skeleton]; unfold cc0__negatives_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  have hz : (![0, 0] : Fin 2 → Nat) = fun _ => 0 := funext fun a => by fin_cases a <;> rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; rotate_left
    · iexact H5
    -- the output block's one whole-block store holds what the accumulator's load read back through its own store
    ipureintro
    sl_unfold_run_names
    rw [View.read_writes_eq_canon _ _ _ (fun y => ⟨_, List.mem_singleton_self _, View.mem_set_unit_zero hz inb_S512x4_S512x4_0_0 y⟩)]
    rw [View.canon_unit_zero hz]
    simp only [View.readCov_unit_zero (S := S512x4) _ hz, View.readAt_eq_ld, harg2.read_unread, harg3.read_unread, harg4.read_unread, harg6.read_unread, View.ld_unit_zero (S := S512x4) hz, View.ld_unit_zero (S := S512x512) hz]
    unfold accNext colSlice
    rfl
  iexists _; isplitr; rotate_left
  · iexact H6
  -- the accumulator's one whole-block store leaves its payload, whose loads read the contents held
  ipureintro
  sl_unfold_run_names
  rw [View.read_writes_eq_canon _ _ _ (fun y => ⟨_, List.mem_singleton_self _, View.mem_set_unit_zero hz inb_S512x4_S512x4_0_0 y⟩)]
  rw [View.canon_unit_zero hz]
  simp only [View.readAt_eq_ld, harg2.read_unread, harg3.read_unread, harg4.read_unread, harg6.read_unread, View.ld_unit_zero (S := S512x4) hz, View.ld_unit_zero (S := S512x512) hz]
  unfold accNext colSlice
  rfl

end Cert.KernelIdeal.Hand

end
-- ==== Proof.KernelIdeal.Data.lean ====
/-
  The pipeline's proof data. The accumulator after point n holds, per row of the row tile and per sampled column, the
  sum over the column tiles visited so far in this row tile of the tile contributions (`scAt`: by recursion on the point,
  restarting from zero at every point whose column tile is the first). After the body each input window's buffer holds
  its block; the output window's buffer, at a last column tile, holds the accumulator. The region invariant carries the
  accumulator at `scAt` of the point before. Windows 0 and 1 read ONE array (the normalised rows, once as the row tile
  and once whole): each holds a half share of it.
-/
import proofs.«418182_j40372692582790_2_alg».proof.Proof.KernelIdeal.RunFirst
import proofs.«418182_j40372692582790_2_alg».proof.Proof.KernelIdeal.RunMiddle
import proofs.«418182_j40372692582790_2_alg».proof.Proof.KernelIdeal.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The accumulator, point by point -/

/-- What the accumulator holds after point `n`. -/
def scAt (c : Dev nD) : (n : ℕ) → n < cfg0.N → Vec F S512x4 .f32
  | 0, h => accNext (grid0.coords ⟨0, h⟩) (iblk m c 1 ⟨0, h⟩) (iblk m c 0 ⟨0, h⟩) (iblk m c 2 ⟨0, h⟩) (k0_pay2 (F := F))
  | n + 1, h => accNext (grid0.coords ⟨n + 1, h⟩) (iblk m c 1 ⟨n + 1, h⟩) (iblk m c 0 ⟨n + 1, h⟩) (iblk m c 2 ⟨n + 1, h⟩)
      (if (n + 1) % 8 = 0 then (k0_pay2 (F := F)) else scAt c n (Nat.lt_of_succ_lt h))

/-- At a first column tile the accumulator restarts from zero. -/
theorem scAt_first (c : Dev nD) (t : Fin cfg0.N) (h : t.val % 8 = 0) :
    scAt m c t.val t.isLt = accNext (grid0.coords t) (iblk m c 1 t) (iblk m c 0 t) (iblk m c 2 t) (k0_pay2 (F := F)) := by
  obtain ⟨n, hn⟩ := t
  cases n with
  | zero => rw [scAt]
  | succ n =>
    have h' : (n + 1) % 8 = 0 := h
    rw [scAt, if_pos h']

/-- At any other column tile it continues from the point before. -/
theorem scAt_next (c : Dev nD) (t : Fin cfg0.N) (h : ¬t.val % 8 = 0) :
    scAt m c t.val t.isLt = accNext (grid0.coords t) (iblk m c 1 t) (iblk m c 0 t) (iblk m c 2 t)
      (scAt m c (t.val - 1) (Nat.lt_of_le_of_lt (Nat.sub_le _ _) t.isLt)) := by
  obtain ⟨n, hn⟩ := t
  cases n with
  | zero => exact absurd (Nat.zero_mod _) h
  | succ n =>
    have h' : ¬(n + 1) % 8 = 0 := h
    rw [scAt, if_neg h']
    rfl

/-! ## The region invariant -/

/-- Before the first point the class's invariant (the accumulator at anything); afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

/-- Before the first point: the class's invariant. -/
theorem PhiS_zero (c : Dev nD) (n : ℕ) (h : n ≤ cfg0.N) (hz : n = 0) : PhiS m c n h = Pipeline.ΦA spec0 c := by
  subst hz; rw [PhiS]

/-- After point `n`: the accumulator at that point's contents. -/
theorem PhiS_succ (c : Dev nD) (n : ℕ) (hn : n < cfg0.N) :
    PhiS m c (n + 1) hn = iprop(iprop(owns (c : Thread nD τ) scM0_0 fullShare (scAt m c n hn)) ∗ (∃ r, prngReg c r)) := by
  rw [PhiS]

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rw [PhiS]; rfl

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = scAt m c t.val t.isLt := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- The invariant at a point's end: the accumulator at the point's contents. -/
theorem PhiS_fsucc (c : Dev nD) (t : Fin cfg0.N) :
    (dats m 0 c).Φ t.succ
      = iprop(iprop(owns (c : Thread nD τ) scM0_0 fullShare (scAt m c t.val t.isLt)) ∗ (∃ r, prngReg c r)) := by
  dsimp only [dats]; simp only [Fin.val_succ]; rw [PhiS_succ]

/-! ## The input windows' buffers hold their blocks at every point

The row tile and the sampled columns are fetched when the row tile changes, the resident key matrix once; unfetched,
a window's block index has not moved and the body left the block in place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation at a point -/

/-- What the body is called with at point `t`: the invariant, what the core owes, and the four windows' current
    buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]

theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]

theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

/-- At a last column tile the output block is left at the accumulator's contents. -/
theorem leaves0_3_last (c : Dev nD) (t : Fin cfg0.N) (h : cond0_1 (grid0.coords t)) :
    (dats m 0 c).leavesExact 3 t = owns (c : Thread nD τ) (ms0_3 t) fullShare (scAt m c t.val t.isLt) := by
  unfold Dat.leavesExact; rw [liveAt0_3 t h, after0_3]

set_option maxHeartbeats 1600000 in
/-- The body at any point. The three inputs' buffers hold their blocks. At a first column tile the accumulator,
    whatever it held, restarts; at any other it continues from the point before; the output block is handed back as
    found off the last column tile, and at it holds the accumulator's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [PhiS_fsucc, leaves0_0, leaves0_1, leaves0_2, PhiS_castSucc m c t]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dats m 0 c) 3 t (idleAt0_3 t hc1) (noFlush0_3 t hc1), scAt_first m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_pos m c _ _ hz]
      iintro ⟨⟨HS, Hg⟩, Ho, ⟨%d0, H0⟩, ⟨%d1, H1⟩, ⟨%d2, H2⟩, ⟨%d3, H3⟩⟩
      iapply (run_first c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [PhiS_pos m c _ _ hz, scAt_next m c t h0]
    by_cases h1 : t.val % 8 = 7
    · have hc1 : cond0_1 (grid0.coords t) := (hcond0_1 t).mpr h1
      rw [leaves0_3_last m c t hc1, scAt_next m c t h0]
      iintro ⟨⟨HS, Hg⟩, Ho, ⟨%d0, H0⟩, ⟨%d1, H1⟩, ⟨%d2, H2⟩, ⟨%d3, H3⟩⟩
      iapply (run_last c (grid0.coords t) _ _ _ _ _ _ _ _ _ _ hc0 hc1 (iblk m c 0 t) (iblk m c 1 t) (iblk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dats m 0 c) 3 t (idleAt0_3 t hc1) (noFlush0_3 t hc1)]
      iintro ⟨⟨HS, Hg⟩, Ho, ⟨%d0, H0⟩, ⟨%d1, H1⟩, ⟨%d2, H2⟩, ⟨%d3, H3⟩⟩
      iapply (run_middle c (grid0.coords t) _ _ _ _ _ _ _ _ _ _ hc0 hc1 (iblk m c 0 t) (iblk m c 1 t) (iblk m c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

/-- After the last point the invariant gives the class's back: the accumulator's named contents are forgotten. -/
theorem hout (c : Dev nD) : (dats m 0 c).Φ (Fin.last cfg0.N) ⊢ Pipeline.ΦA spec0 c :=
  Phi_out m c _ (by rw [Fin.val_last]; have : cfg0.N = 128 := N_0; omega)

/-! ## The buffers' contents from the region's exit to the return -/

/-- At the region's exit: the output array at what the pipeline's write-backs leave, every other buffer as entered. -/
def W4 (c : Dev nD) : Valuation τ sig (Elt F) :=
  Function.update (W3 m c) (Proc.devRef .tc main_v20) ((dats m 0 c).arrAt 3 cfg0.N)
/-- After the scaling of the negatives and the assembly of the logits. -/
abbrev W5 (c : Dev nD) : Valuation τ sig (Elt F) := StableHlo.after hostOps1 (W4 m c)
/-- After the log-softmax. -/
abbrev W6 (c : Dev nD) : Valuation τ sig (Elt F) := StableHlo.after hostOps1_1 (W5 m c)
/-- After the weighted mean: the return. -/
abbrev W7 (c : Dev nD) : Valuation τ sig (Elt F) := StableHlo.after hostOps1_2 (W6 m c)

end Cert.KernelIdeal.Hand

end
-- ==== Proof.KernelIdeal.Launch.lean ====
/-
  The launch. @main is: three stretches of host operations, the fused kernel's region, three more stretches. Between two
  items the core holds every unscoped buffer whole at a named valuation (W0 .. W7). The region takes its arrays out of
  that state — the normalised rows' buffer split into two half shares, one per window that reads it — runs the pipeline
  over the proof data, and puts them back with the output array at what the write-backs leave. Every weakly fair execution
  therefore terminates with every unscoped buffer at W7; no item writes an argument.
-/
import proofs.«418182_j40372692582790_2_alg».proof.Proof.KernelIdeal.Data
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays among the unscoped buffers -/

/-- The buffers behind the windows' arrays: the normalised rows (read by two windows), the shifted column indices,
    the output. -/
theorem arrRefs_image : (Finset.univ.image (Pipeline.arrRef spec0) : Finset (Ref sig .tc)) = {main_v6, main_v19, main_v20} := by
  decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The pipeline's arrays at contents `G`, window by window, each a whole buffer at its share. -/
theorem arrays_unfold (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v19) ↦{fullShare} G 2) ∗ (((c : Thread nD τ).loc main_v20) ↦{fullShare} G 3)) := by
  unfold Dat.arrays
  rw [bigSep_W0, (arr_whole0 0).set_eq_univ, (arr_whole0 2).set_eq_univ, (arr_whole0 3).set_eq_univ,
    share0, share1, share2, share3]

/-- The distinct buffers behind the arrays, one by one, at contents `V'`. -/
theorem arrBufs_unfold (c : Dev nD) (V' : (b : Ref sig .tc) → Buf (Elt F) ((c : Thread nD τ).loc b)) :
    (Pipeline.arrBufs spec0 c V' : sProp 𝕄)
      = iprop((((c : Thread nD τ).loc main_v6) ↦{fullShare} V' main_v6) ∗ (((c : Thread nD τ).loc main_v19) ↦{fullShare} V' main_v19)
          ∗ (((c : Thread nD τ).loc main_v20) ↦{fullShare} V' main_v20)) := by
  unfold Pipeline.arrBufs
  rw [arrRefs_image, bigSep_insert (by decide), bigSep_insert (by decide), bigSep_singleton]
  rfl

/-- ENTRY: the core's unscoped buffers at the region's entry contents are the pipeline's arrays at those contents — the
    normalised rows' buffer dealt in two halves, to the row-tile window and to the resident window — and the rest. -/
theorem arrays_of_unscopedBufs (c : Dev nD) :
    (unscopedBufs c (V m c) : sProp 𝕄)
      ⊢ iprop((dats m 0 c).arrays (dats m 0 c).A ∗ Pipeline.unscopedRest spec0 c (V m c)) := by
  rw [Pipeline.unscopedBufs_split₀ cfgs 0 winFacts₀0.arr_unscoped c (V m c), arrBufs_unfold, arrays_unfold]
  refine sep_mono ?_ .rfl
  iintro ⟨H6, H19, H20⟩
  ihave H := (pointsTo_share (PosShare.mem_left_op_right fullShare)).1 $$ H6
  icases H with ⟨Hl, Hr⟩
  isplitl [Hl]; · iexact Hl
  isplitl [Hr]; · iexact Hr
  isplitl [H19]; · iexact H19
  iexact H20

/-- The region's exit contents at the output array: what the write-backs leave. -/
theorem W4_out (c : Dev nD) : W4 m c (Proc.devRef .tc main_v20) = (dats m 0 c).arrAt 3 cfg0.N := by
  unfold W4; exact Function.update_self ..
/-- Every other buffer is as the region found it. -/
theorem W4_of_ne (c : Dev nD) (b : Ref sig .tc) (hb : b ≠ main_v20) : W4 m c (Proc.devRef .tc b) = W3 m c (Proc.devRef .tc b) := by
  unfold W4; exact Function.update_of_ne (StableHlo.devRef_ne_of_ne hb) _ _

/-- EXIT: the pipeline's arrays at what it leaves — the inputs as entered, the two halves of the normalised rows' buffer
    joined back, the output at its write-backs — and the rest are the core's unscoped buffers at the exit contents. -/
theorem unscopedBufs_of_arrays (c : Dev nD) :
    iprop((dats m 0 c).arrays ((dats m 0 c).arrAt · cfg0.N) ∗ Pipeline.unscopedRest spec0 c (V m c))
      ⊢ (unscopedBufs c (fun b => W4 m c (Proc.devRef .tc b)) : sProp 𝕄) := by
  rw [Pipeline.unscopedBufs_split₀ cfgs 0 winFacts₀0.arr_unscoped c (fun b => W4 m c (Proc.devRef .tc b)), arrBufs_unfold, arrays_unfold]
  refine sep_mono ?_ (Entails.of_eq ?_)
  · beta_reduce
    rw [(dats m 0 c).arrAt_in 0 rfl, (dats m 0 c).arrAt_in 1 rfl, (dats m 0 c).arrAt_in 2 rfl, A_eq, A_eq, A_eq,
      W4_of_ne m c main_v6 (by decide), W4_of_ne m c main_v19 (by decide), W4_out]
    iintro ⟨Hl, Hr, H19, H20⟩
    isplitl [Hl Hr]
    · iapply (pointsTo_share (PosShare.mem_left_op_right fullShare)).2
      isplitl [Hl]; · iexact Hl
      iexact Hr
    isplitl [H19]; · iexact H19
    iexact H20
  · unfold Pipeline.unscopedRest
    exact bigSep_congr fun b hb => by
      have hne : b ≠ main_v20 := fun e => (Finset.mem_sdiff.mp hb).2 (e ▸ Finset.mem_image.mpr ⟨3, Finset.mem_univ _, rfl⟩)
      beta_reduce; rw [W4_of_ne m c b hne]

/-! ## The launch's vocabulary -/

/-- No pipeline has a prefetched table: the admissible contents are trivial. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dats m 0 c
/-- No core owes another anything: no level is assigned. -/
abbrev L : GSem nD τ sig → Finset Unit := fun _ => ∅
abbrev lv : GSem nD τ sig → Unit → ℕ := fun _ _ => 0
/-- What rides beside the buffers from item to item: the core's generator register at some state, and that it owes nothing. -/
abbrev R (c : Dev nD) : sProp 𝕄 := iprop((∃ r, prngReg c r) ∗ ∃ W, owes (c : Thread nD τ) (0 : CellTallies nD τ sig Unit) W)
/-- The thread state between two items: every unscoped buffer whole at the valuation, and what rides along. -/
abbrev stateAt (W : Dev nD → Valuation τ sig (Elt F)) (c : Dev nD) : sProp 𝕄 :=
  iprop(StableHlo.held (c : Thread nD τ) (Pipeline.ucRefs τ sig) (W c) ∗ R c)

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## The region as a segment -/

/-- The entry split over the held set: the region's entry state's buffers are the arrays and the rest. -/
theorem held_entry (c : Dev nD) :
    (StableHlo.held (c : Thread nD τ) (Pipeline.ucRefs τ sig) (W3 m c) : sProp 𝕄)
      ⊢ iprop((dats m 0 c).arrays (dats m 0 c).A ∗ Pipeline.unscopedRest spec0 c (V m c)) :=
  (Entails.of_eq (Pipeline.unscopedBufs_held c (W3 m c)).symm).trans (arrays_of_unscopedBufs m c)

/-- The exit join over the held set. -/
theorem held_exit (c : Dev nD) :
    iprop((dats m 0 c).arrays ((dats m 0 c).arrAt · cfg0.N) ∗ Pipeline.unscopedRest spec0 c (V m c))
      ⊢ (StableHlo.held (c : Thread nD τ) (Pipeline.ucRefs τ sig) (W4 m c) : sProp 𝕄) :=
  (unscopedBufs_of_arrays m c).trans (Entails.of_eq (Pipeline.unscopedBufs_held c (W4 m c)))

set_option backward.isDefEq.respectTransparency.types false in
/-- The fused kernel's region: entered from every unscoped buffer at `W3`, left at `W4`. The arrays leave the held
    buffers at entry and return at exit; the generator register passes through the class invariant; nothing is owed;
    the kernel has no semaphore of its own. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre := stateAt (W3 m)
  post := stateAt (W4 m)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hbufs, Hreg, Howes⟩, -, -⟩
    ihave Hsplit := held_entry m c $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T
      isplitr; · ipureintro; exact fun _ _ => Or.inl trivial
      iexact Howes
    isplitl [Hreg]; · iexact Hreg
    iexact Hrest
  hin c := by
    refine BIBase.Entails.trans ?_ (hin m c)
    unfold Pipeline.ΦA
    iintro ⟨Hreg, -, Hscoped⟩
    isplitl [Hscoped]; · iexact Hscoped
    iexact Hreg
  hout c := by
    rw [Pipeline.ownSems0_none]
    refine (hout m c).trans ?_
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (held_exit m c); isplitl [Harr]; · iexact Harr
      iexact Hrest
    isplitl [Hreg]; · iexact Hreg
    unfold Pipeline.Dat.owesAt Pipeline.owesWithin
    icases Howes with ⟨%T, -, Howes⟩; iexists T; iexact Howes

/-! ## @main as its seven items -/

/-- @main's items in order: three stretches of host operations, the kernel's region, three more stretches; each stretch
    from its boundary's valuation. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)) ]

/-- @main is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, with
    every unscoped buffer of every core at the last valuation. -/
theorem run : θ_run defs (onTc (τ := τ) (main (F := F))) ⟨m, fun _ => 0, ρ⟩
    (fun r => ∀ (c : Dev nD), ∀ b ∈ Pipeline.ucRefs τ sig, r.2.mem (((c : Thread nD τ)).1, b) = W7 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch's element is the pipeline's rounds element through the one-component embedding; no core sets anything else up
      rw [BI.bigSep_emp_const]
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iempintro)
    (T₀ := stateAt (W0 m)) (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl,
      fun _ => sep_assoc.2⟩)
    (hinit := Pipeline.initEach L lv fun c => by
      -- a core's launch holdings: its unscoped buffers at the launch memory are the held set at `W0`; the register's
      -- launch state is some state; it owes nothing
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W7 m c b)
    (hfin := fun c s' => by
      iintro ⟨⟨Hbufs, -⟩, Hstate⟩
      unfold StableHlo.held
      imodintro
      iapply (pointsTo_read_all (Pipeline.ucRefs τ sig) (fun b => (((c : Thread nD τ)).1, b)) (W7 m c) s')
      isplitl [Hbufs]; · iexact Hbufs
      iexact Hstate)
    (hQ := fun s h => h)

/-! ## The arguments -/

/-- @main's three arguments. -/
abbrev args : List (Ref sig .tc) := [main_arg0, main_arg1, main_arg2]

/-- No host operation writes an argument: each stretch leaves the arguments' buffers as it found them. -/
theorem hostOps0_keeps (Vl : Valuation τ sig (Elt F)) (b : Ref sig .tc) (hb : b ∈ args) :
    StableHlo.after hostOps0 Vl (Proc.devRef .tc b) = Vl (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps0_1_keeps (Vl : Valuation τ sig (Elt F)) (b : Ref sig .tc) (hb : b ∈ args) :
    StableHlo.after hostOps0_1 Vl (Proc.devRef .tc b) = Vl (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps0_2_keeps (Vl : Valuation τ sig (Elt F)) (b : Ref sig .tc) (hb : b ∈ args) :
    StableHlo.after hostOps0_2 Vl (Proc.devRef .tc b) = Vl (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_keeps (Vl : Valuation τ sig (Elt F)) (b : Ref sig .tc) (hb : b ∈ args) :
    StableHlo.after hostOps1 Vl (Proc.devRef .tc b) = Vl (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_1_keeps (Vl : Valuation τ sig (Elt F)) (b : Ref sig .tc) (hb : b ∈ args) :
    StableHlo.after hostOps1_1 Vl (Proc.devRef .tc b) = Vl (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.reshape_writes, Finset.mem_singleton]
    repeat' apply And.intro
    all_goals exact fun e => absurd (Proc.devRef_injective _ e ▸ hb) (by decide)))
theorem hostOps1_2_keeps (Vl : Valuation τ sig (Elt F)) (b : Ref sig .tc) (hb : b ∈ args) :
    StableHlo.after hostOps1_2 Vl (Proc.devRef .tc b) = Vl (Proc.devRef .tc b) :=
  StableHlo.after_of_forall_not_mem (b := Proc.devRef .tc b) _ _ (List.forall_iff_forall_mem.mp (by
    simp only [hostOps1_2, List.Forall, StableHlo.nullary_writes, StableHlo.unary_writes, StableHlo.binary_writes,
      StableHlo.reshape_writes, Finset.mem_singleton]
    repeat' apply And.intro
    all_goals exact fun e => absurd (Proc.devRef_injective _ e ▸ hb) (by decide)))

/-- An argument's buffer at the return is the launch memory's: no stretch writes it, and the region writes only its
    output array. -/
theorem W7_arg (c : Dev nD) (b : Ref sig .tc) (hb : b ∈ args) : W7 m c (Proc.devRef .tc b) = m ((c : Thread nD τ).loc b) :=
  calc W7 m c (Proc.devRef .tc b)
    _ = W6 m c (Proc.devRef .tc b) := hostOps1_2_keeps _ b hb
    _ = W5 m c (Proc.devRef .tc b) := hostOps1_1_keeps _ b hb
    _ = W4 m c (Proc.devRef .tc b) := hostOps1_keeps _ b hb
    _ = W3 m c (Proc.devRef .tc b) := W4_of_ne m c b fun e => absurd (e ▸ hb) (by decide)
    _ = W2 m c (Proc.devRef .tc b) := hostOps0_2_keeps _ b hb
    _ = W1 m c (Proc.devRef .tc b) := hostOps0_1_keeps _ b hb
    _ = W0 m c (Proc.devRef .tc b) := hostOps0_keeps _ b hb
    _ = m ((c : Thread nD τ).loc b) := rfl

/-- No item writes an argument: each reaches the return as launched. -/
theorem W7_main_arg0 (c : Dev nD) : W7 m c (Proc.devRef .tc main_arg0) = m ((c : Thread nD τ).loc main_arg0) :=
  W7_arg m c main_arg0 (by decide)
theorem W7_main_arg1 (c : Dev nD) : W7 m c (Proc.devRef .tc main_arg1) = m ((c : Thread nD τ).loc main_arg1) :=
  W7_arg m c main_arg1 (by decide)
theorem W7_main_arg2 (c : Dev nD) : W7 m c (Proc.devRef .tc main_arg2) = m ((c : Thread nD τ).loc main_arg2) :=
  W7_arg m c main_arg2 (by decide)

/-- THE FRAME: the run read at the three arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run m ρ)

end Cert.KernelIdeal.Hand

end
-- ==== Proof.Spec.lean ====
/-
  The mathematics both programs compute, stated once.

  Rows: z is z_i stacked on z_j (8192 rows of 512), each row divided by max(its Euclidean norm, eps): zn.
  Sampled columns: cols[r, k] = idx[r, k] + (1 if idx[r, k] >= r else 0): the k-th sampled column of row r with the
  diagonal skipped.
  Logits, 5 per row: column 0 the similarity of row r with its partner row (r + 4096) mod 8192, columns 1..4 the
  similarities of row r with its sampled columns; a similarity is the dot product of two normalised rows, scaled
  by 2 (the temperature 0.5 + 1e-8 is 0.5 in single precision, and its reciprocal 2).
  Loss: minus the log-softmax of each row at column 0, weighted by 4, summed, over 4 * 8192.

  Both programs share the chains rows -> zn, idx -> cols and logits -> loss operation for operation; they are named
  here as single functions so that nobody has to open them. What differs is how the logits are obtained from zn and
  cols: the two programs' own terms are `kerLogits` and `refLogits`, and `logits` is the index-level statement both equal.
-/
import proofs.«418182_j40372692582790_2_alg».proof.Proof.Gen.KernelIdeal
import proofs.«418182_j40372692582790_2_alg».proof.Proof.Gen.ReferenceIdeal
import Idealize.ShloMosaic.PureOps.Ideal
import Idealize.ShloMosaic.Lib.ValueIdx

noncomputable section

namespace Cert.Spec

open Idealize.ShloMosaic

/-! ## The shared chains, spelt with the kernel program's vocabulary -/

section Shared
open Cert.KernelIdeal Cert.KernelIdeal.Facts₀

/-- The normalised rows: z / max(‖z‖, eps), z the two inputs stacked. -/
def znOf (zi zj : FVec Ideal S4096x512 .f32) : FVec Ideal S8192x512 .f32 :=
  let z : FVec Ideal S8192x512 .f32 := concatenate S8192x512 0 [⟨S4096x512, zi⟩, ⟨S4096x512, zj⟩] concatenates_S4096x512_S4096x512_S8192x512_d0
  let n : FVec Ideal S8192x1 .f32 :=
    Host.sqrt (broadcastInDim S8192x1 ![0] bcast_S8192_S8192x1_0 (Host.reduceAdd (mulf z z) (constant (F := Ideal) S_ .f32 0x00000000#32) reducesTo_S8192x512_S8192_d1 h_S_))
  let e : FVec Ideal S8192x1 .f32 := broadcastInDim S8192x1 ![] bcast_S_S8192x1 (constant (F := Ideal) S_ .f32 0x322BCC77#32)
  Host.divf z (broadcastInDim S8192x512 ![0, 1] bcast_S8192x1_S8192x512_0_1 (maximumf n e))

/-- The sampled columns with the diagonal skipped: idx + (idx >= row). -/
def colsOf (idx : IVec S8192x4 32) : IVec S8192x4 32 :=
  addi idx (extui 32 (cmpi .sge idx (broadcastInDim S8192x4 ![0, 1] bcast_S8192x1_S8192x4_0_1
    (broadcastInDim S8192x1 ![0] bcast_S8192_S8192x1_0 (iotaInDim S8192 32 0)))) natLt_1_32)

/-- From the logits to the loss: log-softmax along the 5 columns, column 0, negated, times 4, summed, over 4 * 8192. -/
def lossOf (lg : FVec Ideal S8192x5 .f32) : FVec Ideal S_ .f32 :=
  let v0 : FVec Ideal S8192 .f32 := Host.reduce FloatOps.maximumf lg (constant (F := Ideal) S_ .f32 0xFF800000#32) reducesTo_S8192x5_S8192_d1 h_S_
  let v2 : FVec Ideal S8192 .f32 := maximumf (broadcastInDim S8192 ![] bcast_S_S8192 (constant (F := Ideal) S_ .f32 0xFF800000#32)) v0
  let v5 : FVec Ideal S8192x5 .f32 := subf lg (broadcastInDim S8192x5 ![0, 1] bcast_S8192x1_S8192x5_0_1 (broadcastInDim S8192x1 ![0] bcast_S8192_S8192x1_0 v2))
  let v7 : FVec Ideal S8192 .f32 := Host.reduceAdd (Host.exp v5) (constant (F := Ideal) S_ .f32 0x00000000#32) reducesTo_S8192x5_S8192_d1 h_S_
  let v11 : FVec Ideal S8192x5 .f32 := subf v5 (broadcastInDim S8192x5 ![0, 1] bcast_S8192x1_S8192x5_0_1 (Host.log (broadcastInDim S8192x1 ![0] bcast_S8192_S8192x1_0 v7)))
  let v27 : FVec Ideal S8192 .f32 := shapeCast S8192 (extractStridedSlice S8192x1 ![0, 0] v11 slices_S8192x5_S8192x1_0_0) shapeCasts_S8192x1_S8192
  let v30 : FVec Ideal S8192 .f32 := mulf (broadcastInDim S8192 ![] bcast_S_S8192 (constant (F := Ideal) S_ .f32 0x40800000#32)) (Host.negf v27)
  let v31 : FVec Ideal S_ .f32 := Host.reduceAdd v30 (constant (F := Ideal) S_ .f32 0x00000000#32) reducesTo_S8192_S_d0 h_S_
  Host.divf v31 (mulf (constant (F := Ideal) S_ .f32 0x40800000#32) (constant (F := Ideal) S_ .f32 0x46000000#32))

/-! ## The kernel program's logits: from zn and the fused kernel's output -/

/-- The positives as the kernel's program computes them: the row dots of the two halves, duplicated, times 2. -/
def posK (zn : FVec Ideal S8192x512 .f32) : FVec Ideal S8192 .f32 :=
  let v7 : FVec Ideal S4096x512 .f32 := extractStridedSlice S4096x512 ![0, 0] zn slices_S8192x512_S4096x512_0_0
  let v8 : FVec Ideal S4096x512 .f32 := extractStridedSlice S4096x512 ![4096, 0] zn slices_S8192x512_S4096x512_4096_0
  let v10 : FVec Ideal S4096 .f32 := Host.reduceAdd (mulf v7 v8) (constant (F := Ideal) S_ .f32 0x00000000#32) reducesTo_S4096x512_S4096_d1 h_S_
  mulf (concatenate S8192 0 [⟨S4096, v10⟩, ⟨S4096, v10⟩] concatenates_S4096_S4096_S8192_d0)
    (broadcastInDim S8192 ![] bcast_S_S8192 (constant (F := Ideal) S_ .f32 0x40000000#32))

/-- The kernel program's logits: the positives beside the fused kernel's output `out` times 2. -/
def kerLogits (zn : FVec Ideal S8192x512 .f32) (out : FVec Ideal S8192x4 .f32) : FVec Ideal S8192x5 .f32 :=
  concatenate S8192x5 1 [⟨S8192x1, broadcastInDim S8192x1 ![0] bcast_S8192_S8192x1_0 (posK zn)⟩,
    ⟨S8192x4, mulf out (broadcastInDim S8192x4 ![] bcast_S_S8192x4 (constant (F := Ideal) S_ .f32 0x40000000#32))⟩] concatenates_S8192x1_S8192x4_S8192x5_d1

end Shared

/-! ## The index-level statement -/

open ValueIdx in
/-- The dot product of two normalised rows. -/
def dot (zn : FVec Ideal Cert.KernelIdeal.S8192x512 .f32) (r c : Fin 8192) : EReal :=
  ∑ d : Fin 512, zn (ix2 r d) * zn (ix2 c d)

/-- Row r's partner: (r + 4096) mod 8192. -/
def partner (r : Fin 8192) : Fin 8192 := ⟨(r.val + 4096) % 8192, Nat.mod_lt _ (by decide)⟩

open ValueIdx in
/-- Row r's k-th sampled column, as a row number (a word outside 0 .. 8191 is reduced mod 8192: no admitted input has one). -/
def colAt (cols : IVec Cert.KernelIdeal.S8192x4 32) (r : Fin 8192) (k : Fin 4) : Fin 8192 :=
  ⟨(cols (ix2 r k)).toNat % 8192, Nat.mod_lt _ (by decide)⟩

/-- What the fused kernel's output holds: the similarity of row r with its k-th sampled column, unscaled. -/
def negOut (zn : FVec Ideal Cert.KernelIdeal.S8192x512 .f32) (cols : IVec Cert.KernelIdeal.S8192x4 32) : FVec Ideal Cert.KernelIdeal.S8192x4 .f32 :=
  fun i => dot zn (i 0) (colAt cols (i 0) (i 1))

/-- THE LOGITS: column 0 the partner's similarity, columns 1..4 the sampled columns', each times 2. -/
def logits (zn : FVec Ideal Cert.KernelIdeal.S8192x512 .f32) (cols : IVec Cert.KernelIdeal.S8192x4 32) : FVec Ideal Cert.KernelIdeal.S8192x5 .f32 :=
  fun i =>
    let r : Fin 8192 := i 0
    let k : Fin 5 := i 1
    if h : k.val = 0 then dot zn r (partner r) * ((2 : ℝ) : EReal)
    else dot zn r (colAt cols r ⟨k.val - 1, by omega⟩) * ((2 : ℝ) : EReal)

/-- The two literals: 0.5 and 2.0. -/
theorem ofBits_half : Ideal.ofBits .f32 0x3F000000#32 = ((0.5 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

end Cert.Spec

end
-- ==== Proof.KernelIdeal.HostValue.lean ====
/-
  The host stretches of the kernel program read back. Before the region: the buffer the fused kernel reads its rows from
  holds the normalised rows (the narrowing to the matrix unit's input format is the identity over the extended reals), and
  the buffer it reads its column indices from holds the shifted indices. After the region: the result is the loss of the
  kernel program's logits, assembled from the positives and from whatever the region left in its output array.
-/
import proofs.«418182_j40372692582790_2_alg».proof.Proof.KernelIdeal.Data
import proofs.«418182_j40372692582790_2_alg».proof.Proof.Spec
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

namespace HostRun

/-! ## Before the region, stretch by stretch -/

/-- After the first stretch: the two inputs stacked. -/
theorem W1_stack (c : Dev nD) :
    (W1 m c (Proc.devRef .tc main_v0) : FVec Ideal S8192x512 .f32)
      = concatenate S8192x512 0 [⟨S4096x512, m ((c.tc : Thread nD τ).loc main_arg0)⟩, ⟨S4096x512, m ((c.tc : Thread nD τ).loc main_arg1)⟩]
          concatenates_S4096x512_S4096x512_S8192x512_d0 := by
  dsimp only [W1, hostOps0]; after_results

/-- The Euclidean norms of the rows, as a column. -/
def normOf (z : FVec Ideal S8192x512 .f32) : FVec Ideal S8192x1 .f32 :=
  Host.sqrt (broadcastInDim S8192x1 ![0] bcast_S8192_S8192x1_0
    (Host.reduceAdd (mulf z z) (constant (F := Ideal) S_ .f32 0x00000000#32) reducesTo_S8192x512_S8192_d1 h_S_))

/-- After the second stretch: the norms of the stacked rows. -/
theorem W2_norm (c : Dev nD) :
    (W2 m c (Proc.devRef .tc main_v1) : FVec Ideal S8192x1 .f32) = normOf (W1 m c (Proc.devRef .tc main_v0)) := by
  dsimp only [W2]; generalize W1 m c = W
  dsimp only [hostOps0_1]; after_results
  rfl

/-- The second stretch leaves the stacked rows in place. -/
theorem W2_stack (c : Dev nD) : W2 m c (Proc.devRef .tc main_v0) = W1 m c (Proc.devRef .tc main_v0) := by
  dsimp only [W2]; generalize W1 m c = W
  dsimp only [hostOps0_1]; after_results

/-- Neither stretch writes the sampled indices. -/
theorem W2_idx (c : Dev nD) : W2 m c (Proc.devRef .tc main_arg2) = m ((c.tc : Thread nD τ).loc main_arg2) := by
  dsimp only [W2, W1, W0, hostOps0, hostOps0_1]; after_results

/-- After the third stretch: the normalised rows. -/
theorem W3_rows (c : Dev nD) :
    (W3 m c (Proc.devRef .tc main_v5) : FVec Ideal S8192x512 .f32)
      = Cert.Spec.znOf (m ((c.tc : Thread nD τ).loc main_arg0)) (m ((c.tc : Thread nD τ).loc main_arg1)) := by
  have h0 := W2_stack m c
  have h1 := W2_norm m c
  rw [W1_stack] at h0 h1
  dsimp only [W3]
  generalize W2 m c = W at h0 h1 ⊢
  dsimp only [hostOps0_2]; after_results
  rw [h0, h1]; rfl

/-- The narrowed copy holds the same rows, narrowed. -/
theorem W3_narrow (c : Dev nD) :
    (W3 m c (Proc.devRef .tc main_v6) : FVec Ideal S8192x512 .bf16)
      = (truncf (F := Ideal) (s := S8192x512) (φ := .f32) .bf16 (W3 m c (Proc.devRef .tc main_v5)) bitsLt_bf16_f32 : FVec Ideal S8192x512 .bf16) := by
  dsimp only [W3]; generalize W2 m c = W
  dsimp only [hostOps0_2]; after_results

/-- The positives are computed from the normalised rows. -/
theorem W3_pos (c : Dev nD) :
    (W3 m c (Proc.devRef .tc main_v13) : FVec Ideal S8192 .f32) = Cert.Spec.posK (W3 m c (Proc.devRef .tc main_v5)) := by
  dsimp only [W3]; generalize W2 m c = W
  dsimp only [hostOps0_2]; after_results
  rfl

/-- The shifted indices. -/
theorem W3_cols (c : Dev nD) :
    (W3 m c (Proc.devRef .tc main_v19) : IVec S8192x4 32) = Cert.Spec.colsOf (m ((c.tc : Thread nD τ).loc main_arg2)) := by
  have h := W2_idx m c
  dsimp only [W3]
  generalize W2 m c = W at h ⊢
  dsimp only [hostOps0_2]; after_results
  rw [h]; rfl

/-! ## After the region -/

/-- At the region's exit the output array holds what the write-backs left. -/
theorem exit_out (c : Dev nD) : W4 m c (Proc.devRef .tc main_v20) = (dats (F := Ideal) m 0 c).arrAt 3 cfg0.N := by
  unfold W4; exact Function.update_self _ _ _

/-- The positives are as the region found them. -/
theorem exit_pos (c : Dev nD) : W4 m c (Proc.devRef .tc main_v13) = W3 m c (Proc.devRef .tc main_v13) := by
  unfold W4; exact Function.update_of_ne (StableHlo.devRef_ne_of_ne (by decide)) _ _

/-- After the fourth stretch: the logits, the positives beside the scaled output array. -/
theorem W5_logits (c : Dev nD) :
    (W5 m c (Proc.devRef .tc main_v24) : FVec Ideal S8192x5 .f32)
      = Cert.Spec.kerLogits (Cert.Spec.znOf (m ((c.tc : Thread nD τ).loc main_arg0)) (m ((c.tc : Thread nD τ).loc main_arg1)))
          ((dats (F := Ideal) m 0 c).arrAt 3 cfg0.N) := by
  have h0 := exit_out m c
  have h1 := exit_pos m c
  rw [W3_pos, W3_rows] at h1
  dsimp only [W5]
  generalize W4 m c = W at h0 h1 ⊢
  dsimp only [hostOps1]; after_results
  rw [h0, h1]; rfl

/-! ## From the logits to the loss -/

/-- The log-softmax along the five columns: the row maximum subtracted, then the logarithm of the row's sum of exponentials. -/
def lsmOf (lg : FVec Ideal S8192x5 .f32) : FVec Ideal S8192x5 .f32 :=
  let v0 : FVec Ideal S8192 .f32 := Host.reduce FloatOps.maximumf lg (constant (F := Ideal) S_ .f32 0xFF800000#32) reducesTo_S8192x5_S8192_d1 h_S_
  let v2 : FVec Ideal S8192 .f32 := maximumf (broadcastInDim S8192 ![] bcast_S_S8192 (constant (F := Ideal) S_ .f32 0xFF800000#32)) v0
  let v5 : FVec Ideal S8192x5 .f32 := subf lg (broadcastInDim S8192x5 ![0, 1] bcast_S8192x1_S8192x5_0_1 (broadcastInDim S8192x1 ![0] bcast_S8192_S8192x1_0 v2))
  let v7 : FVec Ideal S8192 .f32 := Host.reduceAdd (Host.exp v5) (constant (F := Ideal) S_ .f32 0x00000000#32) reducesTo_S8192x5_S8192_d1 h_S_
  subf v5 (broadcastInDim S8192x5 ![0, 1] bcast_S8192x1_S8192x5_0_1 (Host.log (broadcastInDim S8192x1 ![0] bcast_S8192_S8192x1_0 v7)))

/-- The fifth stretch computes the log-softmax of the logits it finds. -/
theorem after_lsm (W : Valuation τ sig (Elt Ideal)) :
    (StableHlo.after hostOps1_1 W (Proc.devRef .tc main_v25) : FVec Ideal S8192x5 .f32) = lsmOf (W (Proc.devRef .tc main_v24)) := by
  dsimp only [hostOps1_1]; after_results
  simp only [StableHlo.TRef.ofBuf, StableHlo.TRef.toBuf, cast_eq]
  rfl

/-- From the log-softmax to the loss: column 0, negated, times 4, summed, over 4 * 8192. -/
def meanOf (ls : FVec Ideal S8192x5 .f32) : FVec Ideal S_ .f32 :=
  let v27 : FVec Ideal S8192 .f32 := shapeCast S8192 (extractStridedSlice S8192x1 ![0, 0] ls slices_S8192x5_S8192x1_0_0) shapeCasts_S8192x1_S8192
  let v30 : FVec Ideal S8192 .f32 := mulf (broadcastInDim S8192 ![] bcast_S_S8192 (constant (F := Ideal) S_ .f32 0x40800000#32)) (Host.negf v27)
  let v31 : FVec Ideal S_ .f32 := Host.reduceAdd v30 (constant (F := Ideal) S_ .f32 0x00000000#32) reducesTo_S8192_S_d0 h_S_
  Host.divf v31 (mulf (constant (F := Ideal) S_ .f32 0x40800000#32) (constant (F := Ideal) S_ .f32 0x46000000#32))

/-- The last stretch computes the weighted mean of column 0 of what it finds, negated. -/
theorem after_mean (W : Valuation τ sig (Elt Ideal)) :
    (StableHlo.after hostOps1_2 W (Proc.devRef .tc main_v33) : FVec Ideal S_ .f32) = meanOf (W (Proc.devRef .tc main_v25)) := by
  dsimp only [hostOps1_2]; after_results
  rfl

/-- The loss is the mean of the log-softmax. -/
theorem lossOf_eq (lg : FVec Ideal S8192x5 .f32) : Cert.Spec.lossOf lg = meanOf (lsmOf lg) := rfl

end HostRun

/-- The region's row array holds the normalised rows of the two inputs. -/
theorem V_rows (c : Dev nD) (i : S8192x512.Idx) :
    V m c main_v6 i = Cert.Spec.znOf (m ((c.tc : Thread nD τ).loc main_arg0)) (m ((c.tc : Thread nD τ).loc main_arg1)) i := by
  show W3 m c (Proc.devRef .tc main_v6) i = _
  rw [HostRun.W3_narrow, HostRun.W3_rows]; rfl

/-- The region's column-index array holds the shifted indices. -/
theorem V_cols (c : Dev nD) (i : S8192x4.Idx) :
    V m c main_v19 i = Cert.Spec.colsOf (m ((c.tc : Thread nD τ).loc main_arg2)) i := by
  show W3 m c (Proc.devRef .tc main_v19) i = _
  rw [HostRun.W3_cols]

/-- The returned scalar is the loss of the kernel program's logits over the rows and the region's output array. -/
theorem W7_result (c : Dev nD) :
    W7 m c (Proc.devRef .tc main_v33)
      = Cert.Spec.lossOf (Cert.Spec.kerLogits (Cert.Spec.znOf (m ((c.tc : Thread nD τ).loc main_arg0)) (m ((c.tc : Thread nD τ).loc main_arg1)))
          ((dats (F := Ideal) m 0 c).arrAt 3 cfg0.N)) := by
  show StableHlo.after hostOps1_2 (StableHlo.after hostOps1_1 (W5 m c)) (Proc.devRef .tc main_v33) = _
  rw [HostRun.after_mean, HostRun.after_lsm, HostRun.W5_logits, HostRun.lossOf_eq]

end Cert.KernelIdeal.Hand

end
-- ==== Proof.KernelIdeal.PointValue.lean ====
/-
  One grid point's arithmetic at an index, over the extended reals. The point's contribution to row p of the row tile
  and sampled column k is the sum over the 1024 columns c of the column tile of: the similarity of row p with key row
  1024 j + c — the dot product of the two rows, a matrix product into a zero accumulator — where the sampled column
  index equals 1024 j + c, and zero elsewhere. The roundings to and from the narrow format are the identity here.
-/
import proofs.«418182_j40372692582790_2_alg».proof.Proof.KernelIdeal.Defs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Cert.KernelIdeal Cert.KernelIdeal.Gen ValueIdx

/-- The column tile at (c, d) is row 1024 j + c of the key matrix. -/
theorem colSlice_apply (i : grid0.Coords) (za : FVec Ideal S8192x512 .bf16) (c : Fin 1024) (d : Fin 512) :
    colSlice (F := Ideal) i za (ix2 c d)
      = za (ix2 (⟨1024 * (i 1).val + c.val, by have h8 : (i 1).val < 8 := (i 1).isLt; have := c.isLt; omega⟩ : Fin 8192) d) := by
  unfold colSlice View.ld
  refine congrArg za ?_
  funext a
  apply Fin.ext
  match a with
  | ⟨0, _⟩ => show k0_off1 i 0 + 1 * c.val = 1024 * (i 1).val + c.val; rw [k0_off1_eq]; simp
  | ⟨1, _⟩ => show k0_off1 i 1 + 1 * d.val = d.val; rw [k0_off1_eq]; simp

/-- The reset value is zero everywhere. -/
theorem pay2_apply (y : S512x4.Idx) : (k0_pay2 (F := Ideal)) y = (0 : EReal) := by
  unfold k0_pay2
  rw [shapeCast_self]
  exact Ideal.ofBits_zero_f32

/-- The tile's column numbers: column c of tile j is 1024 j + c. -/
theorem colNumber_apply (i : grid0.Coords) (p : Fin 512) (c : Fin 1024) :
    k0_pay4 i (ix2 p c) = BitVec.ofNat 32 (1024 * (i 1).val + c.val) := by
  unfold k0_pay4
  show IntOp.addi (iota .tc S512x1024 32 [1] iota_S512x1024_d1_w32 (ix2 p c)) (Scalar.muli (BitVec.ofNat 32 (i 1).val) 1024#32) = _
  rw [iota_single_apply]
  show BitVec.ofNat 32 c.val + BitVec.ofNat 32 (i 1).val * BitVec.ofNat 32 1024 = _
  rw [← BitVec.ofNat_mul, ← BitVec.ofNat_add]
  congr 1
  omega

/-! ## The similarities: the matrix product read at an index -/

/-- The left operand's row is the result's row; -/
theorem simLhs_0 (j : S512x1024.Idx) (k : dot_S512x512_S512x1024_S512x1024_1_0_0_1_n_n.contr.Idx) :
    (dot_S512x512_S512x1024_S512x1024_1_0_0_1_n_n.lhsIdx j k 0).val = (j 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
/-- its column the contraction's coordinate. -/
theorem simLhs_1 (j : S512x1024.Idx) (k : dot_S512x512_S512x1024_S512x1024_1_0_0_1_n_n.contr.Idx) :
    (dot_S512x512_S512x1024_S512x1024_1_0_0_1_n_n.lhsIdx j k 1).val = (k ⟨0, by decide⟩).val :=
  dot_S512x512_S512x1024_S512x1024_1_0_0_1_n_n.lhsIdx_val_of_single rfl j k
/-- The right operand's row is the contraction's coordinate; -/
theorem simRhs_0 (j : S512x1024.Idx) (k : dot_S512x512_S512x1024_S512x1024_1_0_0_1_n_n.contr.Idx) :
    (dot_S512x512_S512x1024_S512x1024_1_0_0_1_n_n.rhsIdx j k 0).val = (k ⟨0, by decide⟩).val :=
  dot_S512x512_S512x1024_S512x1024_1_0_0_1_n_n.rhsIdx_val_of_single rfl j k
/-- its column the result's column. -/
theorem simRhs_1 (j : S512x1024.Idx) (k : dot_S512x512_S512x1024_S512x1024_1_0_0_1_n_n.contr.Idx) :
    (dot_S512x512_S512x1024_S512x1024_1_0_0_1_n_n.rhsIdx j k 1).val = (j 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a 512 x 512 matrix with a 512 x 1024 one into a zero accumulator, at (p, c): the sum over the
    shared coordinate of the entries' products. -/
theorem simMatmul_apply (A : FVec Ideal S512x512 .bf16) (B : FVec Ideal S512x1024 .bf16) (p : Fin 512) (c : Fin 1024) :
    matmul dot_S512x512_S512x1024_S512x1024_1_0_0_1_n_n none A B (constant (F := Ideal) S512x1024 .f32 0x00000000#32) (ix2 p c)
      = ∑ d : Fin 512, A (ix2 p d) * B (ix2 d c) := by
  show FloatOps.matmul _ none A B _ (ix2 p c) = _
  rw [Ideal.matmul_constant_zero_apply,
    ← Equiv.sum_comp (contrEquiv1 dot_S512x512_S512x1024_S512x1024_1_0_0_1_n_n 512 rfl rfl).symm]
  refine Finset.sum_congr rfl fun d _ => ?_
  have hk := contrEquiv1_symm_val dot_S512x512_S512x1024_S512x1024_1_0_0_1_n_n 512 rfl rfl d
  have hl : dot_S512x512_S512x1024_S512x1024_1_0_0_1_n_n.lhsIdx (ix2 p c)
      ((contrEquiv1 dot_S512x512_S512x1024_S512x1024_1_0_0_1_n_n 512 rfl rfl).symm d) = ix2 p d := by
    funext ax; apply Fin.ext
    match ax with
    | ⟨0, _⟩ => exact simLhs_0 _ _
    | ⟨1, _⟩ => exact (simLhs_1 _ _).trans hk
  have hr : dot_S512x512_S512x1024_S512x1024_1_0_0_1_n_n.rhsIdx (ix2 p c)
      ((contrEquiv1 dot_S512x512_S512x1024_S512x1024_1_0_0_1_n_n 512 rfl rfl).symm d) = ix2 d c := by
    funext ax; apply Fin.ext
    match ax with
    | ⟨0, _⟩ => exact (simRhs_0 _ _).trans hk
    | ⟨1, _⟩ => exact simRhs_1 _ _
  rw [hl, hr]

/-! ## A row's sum along the tile, a comparison of words, the zero of the narrow format -/

/-- The sum along the columns of a 512 x 1024 array, at row p. -/
theorem rowSum_apply (src : FVec Ideal S512x1024 .f32) (p : Fin 512) :
    multiReduction .add [1] S512 src 0x00000000#32 reduces_S512x1024_S512 (.inl rfl) rfl (ix1 p)
      = ∑ c : Fin 1024, src (ix2 p c) := by
  refine (Ideal.multiReduction_add_single src 0x00000000#32 reduces_S512x1024_S512 (.inl rfl) rfl (ix1 p)).trans ?_
  refine Finset.sum_congr rfl fun c _ => congrArg src (funext fun a => Fin.ext ?_)
  match a with
  | ⟨0, _⟩ => rfl
  | ⟨1, _⟩ => rfl

/-- A select on the equality of two words is the `if` on it. -/
theorem select_cmpi_eq {α : Type} (x y : BitVec 32) (a b : α) :
    Scalar.select (IntOp.cmpi .eq x y) a b = if x = y then a else b := by
  show (if BitVec.ofBool (x == y) = 1#1 then a else b) = _
  by_cases h : x = y
  · subst h; simp
  · have hb : (x == y) = false := by simpa using h
    rw [hb, if_neg h]; rfl

/-- The narrow format's zero word is zero. -/
theorem ofBits_zero_bf16 : Ideal.ofBits .bf16 0x0000#16 = 0 := IdealRules.sign_bit.ideal_zero .bf16

/-! ## The similarities of the row tile against the column tile -/

/-- Row p of the row tile against row c of the column tile: the dot product of the two rows. -/
theorem sims_apply (ct : FVec Ideal S1024x512 .bf16) (zr : FVec Ideal S512x512 .bf16) (p : Fin 512) (c : Fin 1024) :
    k0_pay3 (F := Ideal) ct zr (ix2 p c) = ∑ d : Fin 512, zr (ix2 p d) * ct (ix2 c d) := by
  unfold k0_pay3
  rw [shapeCast_self, shapeCast_self]
  refine (truncf_apply (φ := .f32) (ψ := .bf16) _ bitsLt_bf16_f32 _).trans ?_
  rw [simMatmul_apply]
  refine Finset.sum_congr rfl fun d _ => ?_
  rw [transpose_ix2_apply]

/-! ## One sampled column: the similarities selected where the sampled column is the tile's, summed along the tile -/

/-- The sum along the tile of the similarities `sims` selected where column `o` of the sampled columns `cl` equals the
    tile's column number `cn`, as a 512 x 1 array. -/
def pickedSum (o : Nat) (h : S512x4.Slices ![0, o] S512x1) (cl : IVec S512x4 32) (cn : IVec S512x1024 32)
    (sims : FVec Ideal S512x1024 .bf16) : FVec Ideal S512x1 .f32 :=
  shapeCast S512x1 (multiReduction .add [1] S512 (extf .f32 (select (cmpi .eq (broadcastTo S512x1024
    (extractStridedSlice S512x1 ![0, o] cl h) broadcasts_S512x1_S512x1024) cn) sims
    (broadcast S512x1024 (Scalar.ofBits (F := Ideal) .bf16 0x0000#16))) bitsLt_bf16_f32) 0x00000000#32 reduces_S512x1024_S512 (.inl rfl) rfl)
    shapeCasts_S512_S512x1

/-- At row p: the sum over the tile's columns c of the similarity at (p, c) where the sampled column k = o of row p is
    the column's number, of zero elsewhere. -/
theorem pickedSum_apply (o : Nat) (h : S512x4.Slices ![0, o] S512x1) (cl : IVec S512x4 32) (cn : IVec S512x1024 32)
    (sims : FVec Ideal S512x1024 .bf16) (p : Fin 512) (u : Fin 1) (k : Fin 4) (hk : k.val = o) :
    pickedSum o h cl cn sims (ix2 p u)
      = ∑ c : Fin 1024, (if cl (ix2 p k) = cn (ix2 p c) then sims (ix2 p c) else (0 : EReal)) := by
  unfold pickedSum
  refine (shapeCast_apply _ shapeCasts_S512_S512x1 (ix2 p u) (ix1 p) (by
    rw [Shape.rowMajor_val_one, Shape.rowMajor_val_two]
    show p.val = p.val * 1 + u.val
    omega)).trans ?_
  rw [rowSum_apply]
  refine Finset.sum_congr rfl fun c _ => ?_
  refine (extf_apply (φ := .bf16) (ψ := .f32) _ bitsLt_bf16_f32 _).trans ?_
  rw [select_apply]
  show Scalar.select (IntOp.cmpi .eq (broadcastTo S512x1024 (extractStridedSlice S512x1 ![0, o] cl h) broadcasts_S512x1_S512x1024 (ix2 p c)) (cn (ix2 p c)))
    (sims (ix2 p c)) (Ideal.ofBits .bf16 0x0000#16) = _
  rw [select_cmpi_eq, ofBits_zero_bf16,
    broadcastTo_apply _ broadcasts_S512x1_S512x1024 (ix2 p c) (ix2 p (0 : Fin 1)) (fun a => by
      match a with
      | ⟨0, _⟩ => rfl
      | ⟨1, _⟩ => rfl),
    slice2_axis1_apply o cl h p (0 : Fin 1) k (by rw [hk]; rfl)]

/-- The three sampled columns computed before the accumulator is read are that sum, at columns 0, 1 and 2. -/
theorem pay6_eq (i : grid0.Coords) (ct : FVec Ideal S1024x512 .bf16) (zr : FVec Ideal S512x512 .bf16) (cl : IVec S512x4 32) :
    k0_pay6 (F := Ideal) i ct zr cl = pickedSum 0 slices_S512x4_o0_0_S512x1 (k0_pay5 (F := Ideal) cl) (k0_pay4 i) (k0_pay3 ct zr) := rfl
theorem pay7_eq (i : grid0.Coords) (ct : FVec Ideal S1024x512 .bf16) (zr : FVec Ideal S512x512 .bf16) (cl : IVec S512x4 32) :
    k0_pay7 (F := Ideal) i ct zr cl = pickedSum 1 slices_S512x4_o0_1_S512x1 (k0_pay5 (F := Ideal) cl) (k0_pay4 i) (k0_pay3 ct zr) := rfl
theorem pay8_eq (i : grid0.Coords) (ct : FVec Ideal S1024x512 .bf16) (zr : FVec Ideal S512x512 .bf16) (cl : IVec S512x4 32) :
    k0_pay8 (F := Ideal) i ct zr cl = pickedSum 2 slices_S512x4_o0_2_S512x1 (k0_pay5 (F := Ideal) cl) (k0_pay4 i) (k0_pay3 ct zr) := rfl

/-- The accumulator's new value: what it held plus the four sums side by side, the fourth computed in place. -/
theorem pay1_eq (sims : FVec Ideal S512x1024 .bf16) (cn : IVec S512x1024 32) (cl : IVec S512x4 32)
    (x0 x1 x2 : FVec Ideal S512x1 .f32) (prev : FVec Ideal S512x4 .f32) :
    k0_pay1 (F := Ideal) sims cn cl x0 x1 x2 prev
      = addf prev (concatenate S512x4 1 [⟨S512x1, x0⟩, ⟨S512x1, x1⟩, ⟨S512x1, x2⟩,
          ⟨S512x1, pickedSum 3 slices_S512x4_o0_3_S512x1 cl cn sims⟩] concatenates_S512x1_S512x1_S512x1_S512x1_S512x4_d1) := by
  exact shapeCast_self _ shapeCasts_S512x4_S512x4

/-- Four 512 x 1 columns side by side, at (p, k): column k at row p. -/
theorem fourCols_apply {α : Type} (x0 x1 x2 x3 : S512x1.Idx → α) (p : Fin 512) (k : Fin 4) (x : S512x1.Idx → α)
    (hx : [x0, x1, x2, x3][k.val]? = some x) :
    concatenate S512x4 1 [⟨S512x1, x0⟩, ⟨S512x1, x1⟩, ⟨S512x1, x2⟩, ⟨S512x1, x3⟩]
        concatenates_S512x1_S512x1_S512x1_S512x1_S512x4_d1 (ix2 p k) = x (ix2 p (0 : Fin 1)) := by
  have hi : ∀ b : Fin S512x1.rank, b.cast (rfl : S512x1.rank = S512x4.rank) ≠ (1 : Fin S512x4.rank) →
      ((ix2 p (0 : Fin 1) : S512x1.Idx) b).val = ((ix2 p k : S512x4.Idx) (b.cast rfl)).val := fun b hb => by
    match b with
    | ⟨0, _⟩ => rfl
    | ⟨1, _⟩ => exact absurd rfl hb
  match k with
  | ⟨0, _⟩ =>
    obtain rfl : x0 = x := by simpa using hx
    exact concatenate_apply_piece (1 : Fin S512x4.rank) _ _ _ 0 (by simp) S512x1 _ rfl rfl 0 rfl (ix2 p (0 : Fin 1)) hi rfl
  | ⟨1, _⟩ =>
    obtain rfl : x1 = x := by simpa using hx
    exact concatenate_apply_piece (1 : Fin S512x4.rank) _ _ _ 1 (by simp) S512x1 _ rfl rfl 1 rfl (ix2 p (0 : Fin 1)) hi rfl
  | ⟨2, _⟩ =>
    obtain rfl : x2 = x := by simpa using hx
    exact concatenate_apply_piece (1 : Fin S512x4.rank) _ _ _ 2 (by simp) S512x1 _ rfl rfl 2 rfl (ix2 p (0 : Fin 1)) hi rfl
  | ⟨3, _⟩ =>
    obtain rfl : x3 = x := by simpa using hx
    exact concatenate_apply_piece (1 : Fin S512x4.rank) _ _ _ 3 (by simp) S512x1 _ rfl rfl 3 rfl (ix2 p (0 : Fin 1)) hi rfl

/-- The sampled columns as the point reads them are the loaded block. -/
theorem pay5_eq (cl : IVec S512x4 32) : k0_pay5 (F := Ideal) cl = cl := shapeCast_self _ shapeCasts_S512x4_S512x4

/-- The accumulator after a point, at row p and sampled column k: what it held plus the one-hot selection of row p's
    similarities against the column tile `j = i 1`. -/
theorem accNext_apply (i : grid0.Coords) (za : FVec Ideal S8192x512 .bf16) (zr : FVec Ideal S512x512 .bf16) (cl : IVec S512x4 32)
    (prev : FVec Ideal S512x4 .f32) (p : Fin 512) (k : Fin 4) :
    accNext (F := Ideal) i za zr cl prev (ix2 p k)
      = prev (ix2 p k) + ∑ c : Fin 1024,
          (if cl (ix2 p k) = BitVec.ofNat 32 (1024 * (i 1).val + c.val)
            then ∑ d : Fin 512, zr (ix2 p d) * za (ix2 (⟨1024 * (i 1).val + c.val, by have h8 : (i 1).val < 8 := (i 1).isLt; have := c.isLt; omega⟩ : Fin 8192) d)
            else (0 : EReal)) := by
  unfold accNext
  rw [pay1_eq, pay6_eq, pay7_eq, pay8_eq]
  refine (addf_apply _ _ _).trans (congrArg (prev (ix2 p k) + ·) ?_)
  have key : ∀ (o : Nat) (h : S512x4.Slices ![0, o] S512x1), k.val = o →
      pickedSum o h (k0_pay5 (F := Ideal) cl) (k0_pay4 i) (k0_pay3 (colSlice (F := Ideal) i za) zr) (ix2 p (0 : Fin 1))
        = ∑ c : Fin 1024,
          (if cl (ix2 p k) = BitVec.ofNat 32 (1024 * (i 1).val + c.val)
            then ∑ d : Fin 512, zr (ix2 p d) * za (ix2 (⟨1024 * (i 1).val + c.val, by have h8 : (i 1).val < 8 := (i 1).isLt; have := c.isLt; omega⟩ : Fin 8192) d)
            else (0 : EReal)) := by
    intro o h hk
    rw [pickedSum_apply o h _ _ _ p 0 k hk, pay5_eq]
    refine Finset.sum_congr rfl fun c _ => ?_
    rw [colNumber_apply, sims_apply]
    simp only [colSlice_apply]
  rcases (show k.val = 0 ∨ k.val = 1 ∨ k.val = 2 ∨ k.val = 3 by omega) with hk | hk | hk | hk
  · exact (fourCols_apply _ _ _ _ p k _ (by rw [hk]; rfl)).trans (key 0 slices_S512x4_o0_0_S512x1 hk)
  · exact (fourCols_apply _ _ _ _ p k _ (by rw [hk]; rfl)).trans (key 1 slices_S512x4_o0_1_S512x1 hk)
  · exact (fourCols_apply _ _ _ _ p k _ (by rw [hk]; rfl)).trans (key 2 slices_S512x4_o0_2_S512x1 hk)
  · exact (fourCols_apply _ _ _ _ p k _ (by rw [hk]; rfl)).trans (key 3 slices_S512x4_o0_3_S512x1 hk)

end Cert.KernelIdeal.Hand

end
-- ==== Proof.KernelIdeal.OutValue.lean ====
/-
  What the fused kernel writes. Row tile I, column tile j are the coordinates of point 8 I + j. By induction on j the
  accumulator after point 8 I + j holds, at row p and sampled column k, the one-hot selection of row 512 I + p's
  similarities against the key rows 0 .. 1024 (j + 1) - 1; a sampled column index in 0 .. 8191 meets exactly one key row,
  in exactly one column tile, so after the eighth tile the accumulator holds the similarity with the sampled column.
  Only the points with j = 7 write their block back, and those sixteen blocks of 512 rows tile the output array.
-/
import proofs.«418182_j40372692582790_2_alg».proof.Proof.KernelIdeal.Data
import proofs.«418182_j40372692582790_2_alg».proof.Proof.KernelIdeal.PointValue
import proofs.«418182_j40372692582790_2_alg».proof.Proof.Spec

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen ValueIdx

variable (m : (ℓ : Loc nD τ sig) → Buf (Elt Ideal) ℓ)

/-- The printed index maps over the grid: the row tile's, the sampled columns' and the output's block index is the
    point's row-tile coordinate, the key matrix's block is the whole array, and the column-tile coordinate is t mod 8. -/
theorem tile_idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ (grid0.coords t 1).val = t.val % 8 :=
  (by decide +kernel : ∀ t : Fin grid0.N, _)

/-- The row tile's block at point t, row p, is row 512 (t / 8) + p of the normalised rows. -/
theorem rowBlk_apply (c : Dev nD) (t : Fin cfg0.N) (p : Fin 512) (d : Fin 512) (r : Fin 8192)
    (hr : r.val = 512 * (t.val / 8) + p.val) :
    (iblk (F := Ideal) m c 0 t : FVec Ideal S512x512 .bf16) (ix2 p d) = V m c main_v6 (ix2 r d) := by
  obtain ⟨e0, e1, -⟩ := tile_idx_facts t
  unfold iblk
  rw [View.read_apply]
  show V m c main_v6 _ = V m c main_v6 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 512 + 1 * d.val = d.val; rw [e1]; omega

/-- The key matrix's block is the whole array of normalised rows at every point. -/
theorem keyBlk_apply (c : Dev nD) (t : Fin cfg0.N) (g : Fin 8192) (d : Fin 512) :
    (iblk (F := Ideal) m c 1 t : FVec Ideal S8192x512 .bf16) (ix2 g d) = V m c main_v6 (ix2 g d) := by
  obtain ⟨-, -, e0, e1, -⟩ := tile_idx_facts t
  unfold iblk
  rw [View.read_apply]
  show V m c main_v6 _ = V m c main_v6 _
  congr 1
  funext a
  apply Fin.ext
  match a with
  | ⟨0, _⟩ => show win0_1.index t (0 : Fin 2) * 8192 + 1 * g.val = g.val; rw [e0]; omega
  | ⟨1, _⟩ => show win0_1.index t (1 : Fin 2) * 512 + 1 * d.val = d.val; rw [e1]; omega

/-- The sampled columns' block at point t, row p, is row 512 (t / 8) + p of the column indices. -/
theorem colBlk_apply (c : Dev nD) (t : Fin cfg0.N) (p : Fin 512) (k : Fin 4) (r : Fin 8192)
    (hr : r.val = 512 * (t.val / 8) + p.val) :
    (iblk (F := Ideal) m c 2 t : IVec S512x4 32) (ix2 p k) = V m c main_v19 (ix2 r k) := by
  obtain ⟨-, -, -, -, e0, e1, -⟩ := tile_idx_facts t
  unfold iblk
  rw [View.read_apply]
  show V m c main_v19 _ = V m c main_v19 _
  congr 1
  funext a
  apply Fin.ext
  match a with
  | ⟨0, _⟩ => show win0_2.index t (0 : Fin 2) * 512 + 1 * p.val = r.val; rw [e0, hr]; omega
  | ⟨1, _⟩ => show win0_2.index t (1 : Fin 2) * 4 + 1 * k.val = k.val; rw [e1]; omega

/-! ## The one-hot selection, tile by tile -/

/-- A 32-bit word is the word of a number below 2^32 exactly when that number is its value. -/
theorem word_eq_ofNat_iff (w : BitVec 32) (g : ℕ) (hg : g < 2 ^ 32) : w = BitVec.ofNat 32 g ↔ w.toNat = g := by
  constructor
  · intro h; rw [h, BitVec.toNat_ofNat]; exact Nat.mod_eq_of_lt hg
  · intro h; apply BitVec.eq_of_toNat_eq; rw [BitVec.toNat_ofNat, h]; exact (Nat.mod_eq_of_lt hg).symm

/-- Column tile j's share of row r's selection at sampled column k: over the tile's 1024 key rows, the similarity of
    row r with key row 1024 j + x where the sampled column index is that row, zero elsewhere. -/
def tileSel (zn : FVec Ideal S8192x512 .f32) (cols : IVec S8192x4 32) (r : Fin 8192) (k : Fin 4) (j : ℕ) : EReal :=
  ∑ x : Fin 1024, if cols (ix2 r k) = BitVec.ofNat 32 (1024 * j + x.val)
    then Cert.Spec.dot zn r ⟨(1024 * j + x.val) % 8192, Nat.mod_lt _ (by decide)⟩ else 0

/-- A sampled column index below 8192 meets exactly one key row, in exactly one of the eight column tiles: the eight
    shares add up to the similarity with the sampled column. -/
theorem tileSel_sum (zn : FVec Ideal S8192x512 .f32) (cols : IVec S8192x4 32) (r : Fin 8192) (k : Fin 4)
    (h : (cols (ix2 r k)).toNat < 8192) :
    ∑ j ∈ Finset.range 8, tileSel zn cols r k j = Cert.Spec.dot zn r (Cert.Spec.colAt cols r k) := by
  obtain ⟨N, hN⟩ : ∃ N, (cols (ix2 r k)).toNat = N := ⟨_, rfl⟩
  rw [hN] at h
  have hw : ∀ g, g < 8192 → (cols (ix2 r k) = BitVec.ofNat 32 g ↔ N = g) := fun g hg => by
    rw [word_eq_ofNat_iff _ g (by omega), hN]
  have hcol : Cert.Spec.colAt cols r k = ⟨N % 8192, Nat.mod_lt _ (by decide)⟩ :=
    Fin.ext (by show (cols (ix2 r k)).toNat % 8192 = N % 8192; rw [hN])
  rw [Finset.sum_eq_single (N / 1024)]
  · unfold tileSel
    rw [Finset.sum_eq_single (⟨N % 1024, Nat.mod_lt _ (by decide)⟩ : Fin 1024)]
    · have e : 1024 * (N / 1024) + N % 1024 = N := Nat.div_add_mod N 1024
      rw [if_pos ((hw _ (by show 1024 * (N / 1024) + N % 1024 < 8192; omega)).mpr e.symm), hcol]
      exact congrArg (Cert.Spec.dot zn r) (Fin.ext (by show (1024 * (N / 1024) + N % 1024) % 8192 = N % 8192; rw [e]))
    · intro x _ hx
      have hx4 : x.val < 1024 := x.isLt
      rw [if_neg]
      intro hc
      have := (hw _ (by omega)).mp hc
      exact hx (Fin.ext (by show x.val = N % 1024; omega))
    · intro hx; exact absurd (Finset.mem_univ _) hx
  · intro j hj hne
    have hj8 : j < 8 := Finset.mem_range.mp hj
    unfold tileSel
    refine Finset.sum_eq_zero fun x _ => ?_
    have hx4 : x.val < 1024 := x.isLt
    rw [if_neg]
    intro hc
    have := (hw _ (by omega)).mp hc
    exact hne (by omega)
  · intro hn; exact absurd (Finset.mem_range.mpr (by omega)) hn

/-- A signed word between 0 and 8191 has that value unsigned. -/
theorem toNat_lt_of_toInt (w : BitVec 32) (h : (0 : ℤ) ≤ w.toInt ∧ w.toInt < 8192) : w.toNat < 8192 := by
  have e := BitVec.toInt_eq_toNat_cond w
  have hl := w.isLt
  split_ifs at e <;> omega

/-! ## The accumulator after a point -/

/-- The three input blocks at a point, at their literal types. -/
abbrev rowBlk (c : Dev nD) (t : Fin cfg0.N) : FVec Ideal S512x512 .bf16 := iblk (F := Ideal) m c 0 t
abbrev keyBlk (c : Dev nD) (t : Fin cfg0.N) : FVec Ideal S8192x512 .bf16 := iblk (F := Ideal) m c 1 t
abbrev colBlk (c : Dev nD) (t : Fin cfg0.N) : IVec S512x4 32 := iblk (F := Ideal) m c 2 t

/-- The dot product a point's matrix product forms for row p of its row tile against key row g is the similarity of
    the two rows of the array. -/
theorem blk_dot (c : Dev nD) (zn : FVec Ideal S8192x512 .f32) (hz : ∀ i : S8192x512.Idx, V m c main_v6 i = zn i)
    (t : Fin cfg0.N) (p : Fin 512) (r : Fin 8192) (hr : r.val = 512 * (t.val / 8) + p.val)
    (g g' : Fin 8192) (hg : g.val = g'.val) :
    (∑ d : Fin 512, rowBlk m c t (ix2 p d) * keyBlk m c t (ix2 g d)) = Cert.Spec.dot zn r g' := by
  unfold Cert.Spec.dot
  refine Finset.sum_congr rfl fun d _ => ?_
  rw [show rowBlk m c t (ix2 p d) = V m c main_v6 (ix2 r d) from rowBlk_apply m c t p d r hr,
    show keyBlk m c t (ix2 g d) = V m c main_v6 (ix2 g d) from keyBlk_apply m c t g d, hz, hz, Fin.ext hg]

/-- A point's contribution at row p and sampled column k is its column tile's share of the selection. -/
theorem point_share (c : Dev nD) (zn : FVec Ideal S8192x512 .f32) (cols : IVec S8192x4 32)
    (hz : ∀ i : S8192x512.Idx, V m c main_v6 i = zn i) (hcl : ∀ i : S8192x4.Idx, V m c main_v19 i = cols i)
    (t : Fin cfg0.N) (p : Fin 512) (k : Fin 4) (r : Fin 8192) (hr : r.val = 512 * (t.val / 8) + p.val) :
    (∑ x : Fin 1024,
        (if colBlk m c t (ix2 p k) = BitVec.ofNat 32 (1024 * (grid0.coords t 1).val + x.val)
          then ∑ d : Fin 512, rowBlk m c t (ix2 p d) * keyBlk m c t (ix2 (⟨1024 * (grid0.coords t 1).val + x.val, by have h8 : (grid0.coords t 1).val < 8 := (grid0.coords t 1).isLt; have := x.isLt; omega⟩ : Fin 8192) d)
          else (0 : EReal)))
      = tileSel zn cols r k (t.val % 8) := by
  have e : (grid0.coords t 1).val = t.val % 8 := (tile_idx_facts t).2.2.2.2.2.2.2.2
  unfold tileSel
  refine Finset.sum_congr rfl fun x _ => ?_
  have hx : x.val < 1024 := x.isLt
  have h8 : t.val % 8 < 8 := Nat.mod_lt _ (by decide)
  have hb : 1024 * (grid0.coords t 1).val + x.val < 8192 := by rw [e]; omega
  rw [blk_dot m c zn hz t p r hr ⟨1024 * (grid0.coords t 1).val + x.val, hb⟩
      ⟨(1024 * (t.val % 8) + x.val) % 8192, Nat.mod_lt _ (by decide)⟩
      (by show 1024 * (grid0.coords t 1).val + x.val = (1024 * (t.val % 8) + x.val) % 8192; rw [e]; omega),
    show colBlk m c t (ix2 p k) = V m c main_v19 (ix2 r k) from colBlk_apply m c t p k r hr, hcl, e]

/-- THE ACCUMULATOR after point n, at row p and sampled column k: the shares of the column tiles 0 .. n mod 8 of row
    512 (n / 8) + p — by induction on the point: a first column tile restarts from zero, any other adds its share. -/
theorem acc_eq (c : Dev nD) (zn : FVec Ideal S8192x512 .f32) (cols : IVec S8192x4 32)
    (hz : ∀ i : S8192x512.Idx, V m c main_v6 i = zn i) (hcl : ∀ i : S8192x4.Idx, V m c main_v19 i = cols i) :
    ∀ (n : ℕ) (h : n < cfg0.N) (p : Fin 512) (k : Fin 4) (r : Fin 8192), r.val = 512 * (n / 8) + p.val →
      scAt (F := Ideal) m c n h (ix2 p k) = ∑ j ∈ Finset.range (n % 8 + 1), tileSel zn cols r k j := by
  intro n
  induction n with
  | zero =>
    intro h p k r hr
    refine (congrFun (scAt_first m c ⟨0, h⟩ rfl) (ix2 p k)).trans ?_
    refine (accNext_apply (grid0.coords ⟨0, h⟩) (keyBlk m c ⟨0, h⟩) (rowBlk m c ⟨0, h⟩) (colBlk m c ⟨0, h⟩) (k0_pay2 (F := Ideal)) p k).trans ?_
    rw [pay2_apply, zero_add]
    exact (point_share m c zn cols hz hcl ⟨0, h⟩ p k r hr).trans (Finset.sum_range_one _).symm
  | succ n ih =>
    intro h p k r hr
    by_cases h0 : (n + 1) % 8 = 0
    · refine (congrFun (scAt_first m c ⟨n + 1, h⟩ h0) (ix2 p k)).trans ?_
      refine (accNext_apply (grid0.coords ⟨n + 1, h⟩) (keyBlk m c ⟨n + 1, h⟩) (rowBlk m c ⟨n + 1, h⟩) (colBlk m c ⟨n + 1, h⟩) (k0_pay2 (F := Ideal)) p k).trans ?_
      rw [pay2_apply, zero_add]
      refine (point_share m c zn cols hz hcl ⟨n + 1, h⟩ p k r hr).trans ?_
      show tileSel zn cols r k ((n + 1) % 8) = _
      rw [h0]
      exact (Finset.sum_range_one _).symm
    · refine (congrFun (scAt_next m c ⟨n + 1, h⟩ h0) (ix2 p k)).trans ?_
      refine (accNext_apply (grid0.coords ⟨n + 1, h⟩) (keyBlk m c ⟨n + 1, h⟩) (rowBlk m c ⟨n + 1, h⟩) (colBlk m c ⟨n + 1, h⟩) (scAt (F := Ideal) m c n (Nat.lt_of_succ_lt h)) p k).trans ?_
      rw [ih (Nat.lt_of_succ_lt h) p k r (by omega)]
      refine (congrArg (fun s => (∑ j ∈ Finset.range (n % 8 + 1), tileSel zn cols r k j) + s) (point_share m c zn cols hz hcl ⟨n + 1, h⟩ p k r hr)).trans ?_
      show (∑ j ∈ Finset.range (n % 8 + 1), tileSel zn cols r k j) + tileSel zn cols r k ((n + 1) % 8) = _
      have e8 : (n + 1) % 8 = n % 8 + 1 := by omega
      rw [e8, Finset.sum_range_succ _ (n % 8 + 1)]

/-! ## From the blocks to the array -/

/-- WHAT A LAST COLUMN TILE WRITES BACK is its block of the array of similarities with the sampled columns. -/
theorem lastTile_flushed (c : Dev nD) (zn : FVec Ideal S8192x512 .f32) (cols : IVec S8192x4 32)
    (hz : ∀ i : S8192x512.Idx, V m c main_v6 i = zn i) (hcl : ∀ i : S8192x4.Idx, V m c main_v19 i = cols i)
    (hc : ∀ i : S8192x4.Idx, (0 : ℤ) ≤ (cols i).toInt ∧ (cols i).toInt < 8192)
    (t : Fin cfg0.N) (hf : (cfg0.win 3).flush t = true) :
    (dats (F := Ideal) m 0 c).flushed 3 t = ((cfg0.win 3).blk t).view.read (Elt Ideal) (Cert.Spec.negOut zn cols) := by
  have h7 : t.val % 8 = 7 := (flush0_3 t).mp hf
  have hN : t.val < 128 := lt_of_lt_of_eq t.isLt (show cfg0.N = 128 from N_0)
  obtain ⟨-, -, -, -, -, -, e0, e1, -⟩ := tile_idx_facts t
  show (cfg0.win 3).cut (grid0.coords t) ((dats (F := Ideal) m 0 c).after 3 t) = _
  rw [after0_3]
  funext y
  obtain ⟨p, k, rfl⟩ : ∃ (p : Fin 512) (k : Fin 4), y = ix2 p k := ⟨y 0, y 1, eq_ix2 y⟩
  have hp : p.val < 512 := p.isLt
  obtain ⟨r, hr⟩ : ∃ r : Fin 8192, r.val = 512 * (t.val / 8) + p.val := ⟨⟨512 * (t.val / 8) + p.val, by omega⟩, rfl⟩
  have hemb : ((cfg0.win 3).blk t).view.emb (ix2 p k) = (ix2 r k : S8192x4.Idx) := by
    funext a; apply Fin.ext
    match a with
    | ⟨0, _⟩ => show win0_3.index t (0 : Fin 2) * 512 + 1 * p.val = r.val; rw [e0, hr]; omega
    | ⟨1, _⟩ => show win0_3.index t (1 : Fin 2) * 4 + 1 * k.val = k.val; rw [e1]; omega
  rw [View.read_apply, hemb]
  show scAt (F := Ideal) m c t.val t.isLt (ix2 p k) = Cert.Spec.dot zn r (Cert.Spec.colAt cols r k)
  rw [acc_eq m c zn cols hz hcl t.val t.isLt p k r hr, h7]
  exact tileSel_sum zn cols r k (toNat_lt_of_toInt _ (hc (ix2 r k)))

/-- Row i of the array lies in the block of the last column tile of its row tile: point 8 (i / 512) + 7. -/
theorem lastTile_cover (i : S8192x4.Idx) :
    ∃ t : Fin cfg0.N, (cfg0.win 3).flush t = true ∧ i ∈ ((cfg0.win 3).blk t).view.set := by
  have h0 : (i 0 : ℕ) < 8192 := (i 0).isLt
  have h1 : (i 1 : ℕ) < 4 := (i 1).isLt
  have hN : cfg0.N = 128 := N_0
  obtain ⟨t, ht⟩ : ∃ t : Fin cfg0.N, t.val = 8 * ((i 0 : ℕ) / 512) + 7 := ⟨⟨8 * ((i 0 : ℕ) / 512) + 7, by rw [hN]; omega⟩, rfl⟩
  refine ⟨t, (flush0_3 t).mpr (by rw [ht]; omega), ?_⟩
  obtain ⟨-, -, -, -, -, -, e0, e1, -⟩ := tile_idx_facts t
  show i ∈ ((View.whole main_v20).slice (win0_3.rect t)).set
  rw [View.set_slice_whole, Rect.mem_set_unit]
  intro a
  match a with
  | ⟨0, _⟩ =>
    show win0_3.index t (0 : Fin 2) * 512 ≤ (i 0 : ℕ) ∧ (i 0 : ℕ) < win0_3.index t (0 : Fin 2) * 512 + 512
    rw [e0, ht]; omega
  | ⟨1, _⟩ =>
    show win0_3.index t (1 : Fin 2) * 4 ≤ (i 1 : ℕ) ∧ (i 1 : ℕ) < win0_3.index t (1 : Fin 2) * 4 + 4
    rw [e1]; omega

/-- THE OUTPUT ARRAY after the region: row r, sampled column k holds the similarity of row r with its sampled column —
    given the rows `zn` and the column indices `cols` the region finds in its two input arrays, the indices inside the matrix. -/
theorem outArr_eq (c : Dev nD) (zn : FVec Ideal S8192x512 .f32) (cols : IVec S8192x4 32)
    (hz : ∀ i : S8192x512.Idx, V m c main_v6 i = zn i) (hcl : ∀ i : S8192x4.Idx, V m c main_v19 i = cols i)
    (hc : ∀ i : S8192x4.Idx, (0 : ℤ) ≤ (cols i).toInt ∧ (cols i).toInt < 8192) (y : S8192x4.Idx) :
    (dats (F := Ideal) m 0 c).arrAt 3 cfg0.N y = Cert.Spec.negOut zn cols y :=
  congrFun ((dats (F := Ideal) m 0 c).arrAt_eq_of_cover 3 (Cert.Spec.negOut zn cols)
    (fun t hf => lastTile_flushed m c zn cols hz hcl hc t hf) lastTile_cover) y

end Cert.KernelIdeal.Hand

end
-- ==== Proof.KerMath.lean ====
/-
  The kernel program's logits are the specification's. Column 0: the positives are the row dots of the upper half
  against the lower half, listed twice, times 2; row r's partner is r + 4096 for r < 4096 and r - 4096 otherwise, and
  a dot product does not care about the order of its two rows. Columns 1..4: the fused kernel's output (the similarity
  with the sampled column) times 2.
-/
import proofs.«418182_j40372692582790_2_alg».proof.Proof.Spec
import Idealize.ShloMosaic.PureOps.Ideal.Laws
import Idealize.ShloMosaic.Lib.ValueLayout
import Idealize.ShloMosaic.Lib.Pipeline.Value
import Idealize.ShloMosaic.Lib.IdealHost

noncomputable section

namespace Cert.KerMath

open Idealize.ShloMosaic Cert.KernelIdeal Cert.KernelIdeal.Facts₀ ValueIdx

/-- Summing a [4096, 512] array along its columns leaves the 4096 rows. -/
theorem reduces_rows : S4096x512.Reduces [1] S4096 := by decide

/-- The 4096 half dots: entry q is the sum over d of zn[q, d] * zn[q + 4096, d], row q of the upper half against
    row q of the lower half. -/
def halfDot (zn : FVec Ideal S8192x512 .f32) : FVec Ideal S4096 .f32 :=
  Host.reduceAdd (mulf (extractStridedSlice S4096x512 ![0, 0] zn slices_S8192x512_S4096x512_0_0)
    (extractStridedSlice S4096x512 ![4096, 0] zn slices_S8192x512_S4096x512_4096_0))
    (constant (F := Ideal) S_ .f32 0x00000000#32) reducesTo_S4096x512_S4096_d1 h_S_

/-- Entry q of the half dots is the dot product of rows a and b whenever a = q and b = q + 4096 as numbers: the sum
    starts from 0, the upper slice reads row q and the lower slice row 4096 + q. -/
theorem halfDot_apply (zn : FVec Ideal S8192x512 .f32) (q : Fin 4096) (a b : Fin 8192) (ha : a.val = q.val)
    (hb : b.val = q.val + 4096) : halfDot zn (ix1 q) = Cert.Spec.dot zn a b := by
  unfold halfDot Cert.Spec.dot
  rw [hostReduceAdd_apply, Ideal.hostReduceAdd_single reducesTo_S4096x512_S4096_d1 reduces_rows]
  rw [constant_apply, Ideal.ofBits_zero_f32, zero_add]
  refine Finset.sum_congr rfl fun d _ => ?_
  rw [mulf_apply]
  congr 1
  · refine extractStridedSlice_apply _ _ _ _ _ fun c => ?_
    match c with
    | ⟨0, _⟩ => exact ha.trans (Nat.zero_add _).symm
    | ⟨1, _⟩ => exact (Nat.zero_add _).symm
  · refine extractStridedSlice_apply _ _ _ _ _ fun c => ?_
    match c with
    | ⟨0, _⟩ => exact hb.trans (Nat.add_comm _ _)
    | ⟨1, _⟩ => exact (Nat.zero_add _).symm

/-- A dot product does not care about the order of its two rows. -/
theorem dot_comm (zn : FVec Ideal S8192x512 .f32) (a b : Fin 8192) : Cert.Spec.dot zn a b = Cert.Spec.dot zn b a := by
  unfold Cert.Spec.dot
  exact Finset.sum_congr rfl fun d _ => mul_comm _ _

/-- The positives at row r: the dot of row r with its partner, times 2. For r < 4096 entry r of the doubled list is
    half dot r, rows r and r + 4096; for r >= 4096 it is half dot r - 4096, rows r - 4096 and r, the partner first. -/
theorem posK_apply (zn : FVec Ideal S8192x512 .f32) (r : Fin 8192) :
    Cert.Spec.posK zn (ix1 r) = Cert.Spec.dot zn r (Cert.Spec.partner r) * ((2 : ℝ) : EReal) := by
  show (concatenate S8192 0 [⟨S4096, halfDot zn⟩, ⟨S4096, halfDot zn⟩] concatenates_S4096_S4096_S8192_d0) (ix1 r)
    * (broadcastInDim S8192 ![] bcast_S_S8192 (constant (F := Ideal) S_ .f32 0x40000000#32)) (ix1 r) = _
  rw [broadcastInDim_scalar_apply, constant_apply, Cert.Spec.ofBits_two]
  congr 1
  by_cases h : r.val < 4096
  · refine (concatenate_pair_apply_left (t := S8192) (s₁ := S4096) (s₂ := S4096) 0 _ _ _ (ix1 r) rfl
      (ix1 (⟨r.val, h⟩ : Fin 4096)) (fun b => ?_)).trans ?_
    · match b with
      | ⟨0, _⟩ => rfl
    refine halfDot_apply zn _ _ _ rfl ?_
    show (r.val + 4096) % 8192 = r.val + 4096
    omega
  · refine (concatenate_pair_apply_right (t := S8192) (s₁ := S4096) (s₂ := S4096) 0 _ _ _ (ix1 r) rfl rfl
      (ix1 (⟨r.val - 4096, by omega⟩ : Fin 4096)) (fun b hb => ?_) ?_).trans ?_
    · match b with
      | ⟨0, _⟩ => exact absurd rfl hb
    · show r.val - 4096 + 4096 = r.val
      omega
    rw [dot_comm]
    refine halfDot_apply zn _ _ _ ?_ ?_
    · show (r.val + 4096) % 8192 = r.val - 4096
      omega
    · show r.val = r.val - 4096 + 4096
      omega

/-- The kernel program's logits, given that the fused kernel's output is the sampled similarities, are the logits. -/
theorem kerLogits_eq (zn : FVec Ideal S8192x512 .f32) (cols : IVec S8192x4 32) :
    Cert.Spec.kerLogits zn (Cert.Spec.negOut zn cols) = Cert.Spec.logits zn cols := by
  funext i
  obtain ⟨r, k, rfl⟩ : ∃ (r : Fin 8192) (k : Fin 5), i = ix2 r k := ⟨i 0, i 1, eq_ix2 i⟩
  by_cases hk : k.val = 0
  · -- column 0: the [8192, 1] piece, the positives of row r
    have hl : Cert.Spec.logits zn cols (ix2 r k) = Cert.Spec.dot zn r (Cert.Spec.partner r) * ((2 : ℝ) : EReal) := by
      show (if h : k.val = 0 then _ else _) = _
      rw [dif_pos hk]
    rw [hl]
    unfold Cert.Spec.kerLogits
    refine (concatenate_pair_apply_left (t := S8192x5) (s₁ := S8192x1) (s₂ := S8192x4) 1 _ _ _ (ix2 r k) rfl
      (ix2 r (0 : Fin 1)) (fun b => ?_)).trans ?_
    · match b with
      | ⟨0, _⟩ => rfl
      | ⟨1, _⟩ => exact hk.symm
    refine (broadcastInDim_apply (s := S8192) (t := S8192x1) _ _ _ _ (ix1 r) (fun a => ?_)).trans ?_
    · match a with
      | ⟨0, _⟩ => rfl
    exact posK_apply zn r
  · -- columns 1 .. 4: the [8192, 4] piece at column k - 1, the sampled similarity times 2
    have hl : Cert.Spec.logits zn cols (ix2 r k)
        = Cert.Spec.dot zn r (Cert.Spec.colAt cols r ⟨k.val - 1, by omega⟩) * ((2 : ℝ) : EReal) := by
      show (if h : k.val = 0 then _ else _) = _
      rw [dif_neg hk]
    rw [hl]
    unfold Cert.Spec.kerLogits
    refine (concatenate_pair_apply_right (t := S8192x5) (s₁ := S8192x1) (s₂ := S8192x4) 1 _ _ _ (ix2 r k) rfl rfl
      (ix2 r (⟨k.val - 1, by omega⟩ : Fin 4)) (fun b hb => ?_) ?_).trans ?_
    · match b with
      | ⟨0, _⟩ => rfl
      | ⟨1, _⟩ => exact absurd rfl hb
    · show k.val - 1 + 1 = k.val
      omega
    rw [mulf_apply, broadcastInDim_scalar_apply, constant_apply, Cert.Spec.ofBits_two]
    rfl

end Cert.KerMath

end
-- ==== Proof.ColsRange.lean ====
/-
  The shifted column indices stay inside the similarity matrix. idx[r, k] lies in 0 .. 8190; the shift adds 1 exactly
  when idx[r, k] >= r (skipping the diagonal), so cols[r, k] = idx[r, k] or idx[r, k] + 1 lies in 0 .. 8191.

  The range does not depend on which of the two cases holds: the shift is a one-bit word widened to 32 bits, so it
  is the word 0 or the word 1, and a word whose signed value is in 0 .. 8190 plus 0 or 1 does not wrap.
-/
import proofs.«418182_j40372692582790_2_alg».proof.Proof.Spec

noncomputable section

namespace Cert.ColsRange

open Idealize.ShloMosaic Cert.KernelIdeal ValueIdx

/-- A one-bit word widened to 32 bits is the word 0 or the word 1. -/
theorem setWidth_bit (b : BitVec 1) : b.setWidth 32 = 0#32 ∨ b.setWidth 32 = 1#32 := by
  rcases BitVec.eq_zero_or_eq_one b with rfl | rfl
  · exact Or.inl (by decide)
  · exact Or.inr (by decide)

/-- A word with signed value in 0 .. 8190, plus the word 0 or 1, has signed value in 0 .. 8191: no wrap. -/
theorem toInt_add_bit_range {w b : BitVec 32} (h0 : (0 : ℤ) ≤ w.toInt) (h1 : w.toInt < 8191) (hb : b = 0#32 ∨ b = 1#32) :
    (0 : ℤ) ≤ (w + b).toInt ∧ (w + b).toInt < 8192 := by
  rcases hb with rfl | rfl
  · rw [BitVec.add_zero]; omega
  · rw [BitVec.toInt_add]
    have e1 : (1#32 : BitVec 32).toInt = 1 := by decide
    rw [e1]
    have e : (w.toInt + 1).bmod (2 ^ 32) = w.toInt + 1 := by
      apply Int.bmod_eq_of_le <;> omega
    omega

/-- Under the input's range every shifted column index is, as a signed word, in 0 .. 8191. -/
theorem colsOf_range (idx : IVec S8192x4 32) (hr : ∀ i : S8192x4.Idx, (0 : ℤ) ≤ (idx i).toInt ∧ (idx i).toInt < 8191)
    (i : S8192x4.Idx) : (0 : ℤ) ≤ (Cert.Spec.colsOf idx i).toInt ∧ (Cert.Spec.colsOf idx i).toInt < 8192 := by
  obtain ⟨h0, h1⟩ := hr i
  -- at the index: idx i + (the compare's bit at i, widened)
  show (0 : ℤ) ≤ (idx i + (IntOp.cmpi .sge (idx i) _).setWidth 32).toInt
    ∧ (idx i + (IntOp.cmpi .sge (idx i) _).setWidth 32).toInt < 8192
  exact toInt_add_bit_range h0 h1 (setWidth_bit _)

end Cert.ColsRange

end
-- ==== Proof.PreDecode.lean ====
/-
  The precondition read back at the integer input. The printed predicate is a conjunction of three
  all-reductions: |a0| < +inf everywhere, |a1| < +inf everywhere, and, for the [8192 x 4] word array a2,
  (a2 >= 0) and (a2 < 8191) everywhere, the two compares signed. When the predicate is 1 the third conjunct
  is 1, an all-reduction that is 1 met a 1 at every index, and a signed compare that is 1 orders the signed
  values of its two words. So every word of a2 lies in [0, 8191) as an integer: each names one of the
  8191 rows 0 .. 8190. The two float conjuncts are split off and dropped.
-/
import proofs.«418182_j40372692582790_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic
open Cert.Pre_finite_inputs

/-- The predicate's result is a scalar: it has one index. -/
instance scalarIdx : Subsingleton S_.Idx := ⟨fun a b => funext fun d => d.elim0⟩

/-- A signed `w >= lo` that came out 1: the signed value of `lo` is at most that of `w`. -/
theorem le_toInt_of_sge {w lo : BitVec 32} (h : IntOp.cmpi .sge w lo = 1#1) : lo.toInt ≤ w.toInt := by
  unfold IntOp.cmpi at h
  rw [StableHlo.Predicate.ofBool_eq_one_iff] at h
  simpa only [BitVec.sle, decide_eq_true_eq] using h

/-- A signed `w < hi` that came out 1: the signed value of `w` is below that of `hi`. -/
theorem toInt_lt_of_slt {w hi : BitVec 32} (h : IntOp.cmpi .slt w hi = 1#1) : w.toInt < hi.toInt := by
  unfold IntOp.cmpi at h
  rw [StableHlo.Predicate.ofBool_eq_one_iff] at h
  simpa only [BitVec.slt, decide_eq_true_eq] using h

/-- THE RANGE OF THE INTEGER INPUT: under the precondition every word of a2 is, signed, in [0, 8191). -/
theorem range (a0 a1 : FVec Ideal Cert.Pre_finite_inputs.S4096x512 .f32) (a2 : IVec Cert.Pre_finite_inputs.S8192x4 32)
    (h : Cert.Pre_finite_inputs.fn (F := Ideal) a0 a1 a2 = fun _ => 1#1) :
    ∀ i : Cert.Pre_finite_inputs.S8192x4.Idx, (0 : ℤ) ≤ (a2 i).toInt ∧ (a2 i).toInt < 8191 := by
  intro i
  have e := congrFun h ValueIdx.ix0
  dsimp only [Cert.Pre_finite_inputs.fn] at e
  -- the outer conjunction: (both float all-reductions) and (the word all-reduction)
  obtain ⟨-, eall⟩ := IntOp.andi_eq_one.1 e
  -- the word all-reduction is 1: its mask is 1 at index i
  have ei := Host.reduce_andi_all _ _ _ _ _ eall i
  -- the mask at i is (a2 i >= 0) and (a2 i < 8191)
  obtain ⟨hlo, hhi⟩ := IntOp.andi_eq_one.1 ei
  have h0 : (0#32 : BitVec 32).toInt = 0 := by decide
  have h1 : (8191#32 : BitVec 32).toInt = 8191 := by decide
  exact ⟨h0 ▸ le_toInt_of_sge hlo, h1 ▸ toInt_lt_of_slt hhi⟩

end Cert.PreDecode

end
-- ==== Proof.RefRun.lean ====
/-
  The reference program's run, its calls read through. @main calls four module-local functions — the row norm,
  the remainder (which calls the three-way select once), the gather along the columns, and the row-wise
  log-softmax — and a call means its callee's body run on the call's own buffers. So @main is one straight line
  of 116 host operations: its own 53 and, at each call site, the callee's over that call's buffer record
  (5 + 21 + 22 + 15). The line is cut into four stretches, a cut standing before each of the two later concatenates,
  and run as a whole: every buffer ends at the operations' fold over the launch contents, and no operation writes an
  argument.
-/
import proofs.«418182_j40372692582790_2_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-! ## The operations, in order -/

/-- The two argument blocks stacked into the 8192 rows, the rows' Euclidean norms (squares summed along the row, square root), the rows divided by their norm clamped below at 1e-8, the Gram matrix of the normalised rows halved
    (divided by the temperature 1/2), and the row counter with the start of the shifted counter `i + 4096`: 21 operations. -/
abbrev ops1 : List (HloOp τ sig (Elt F)) :=
  [
    StableHlo.binary main_arg0 main_arg1 main_v0 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F)),
    StableHlo.TRef.binary (.of main_v0 : StableHlo.TRef sig ⟨S8192x512, .f32⟩) (.of main_v0 : StableHlo.TRef sig ⟨S8192x512, .f32⟩) main_call0.v0 mulf,
    StableHlo.TRef.nullary main_call0.cst (constant S_ .f32 0x00000000#32),
    StableHlo.TRef.binary main_call0.v0 main_call0.cst main_call0.v1 (fun x v => Host.reduceAdd x v reducesTo_S8192x512_S8192_d1 h_S_),
    StableHlo.TRef.unary main_call0.v1 main_call0.v2 (broadcastInDim S8192x1 ![0] bcast_S8192_S8192x1_0),
    StableHlo.TRef.unary main_call0.v2 main_call0.v3 Host.sqrt,
    StableHlo.nullary main_cst (constant S_ .f32 0x322BCC77#32),
    StableHlo.unary main_cst main_v2 (broadcastInDim S8192x1 ![] bcast_S_S8192x1 : (⟨S_, .f32⟩ : BufTy).Contents (Elt F) → (⟨S8192x1, .f32⟩ : BufTy).Contents (Elt F)),
    StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F)),
    StableHlo.unary main_v3 main_v4 (broadcastInDim S8192x512 ![0, 1] bcast_S8192x1_S8192x512_0_1 : (⟨S8192x1, .f32⟩ : BufTy).Contents (Elt F) → (⟨S8192x512, .f32⟩ : BufTy).Contents (Elt F)),
    StableHlo.binary main_v0 main_v4 main_v5 (Host.divf : (⟨S8192x512, .f32⟩ : BufTy).Contents (Elt F) → (⟨S8192x512, .f32⟩ : BufTy).Contents (Elt F) → (⟨S8192x512, .f32⟩ : BufTy).Contents (Elt F)),
    StableHlo.unary main_v5 main_v6 ((transpose S512x8192 [1, 0] · transposes_S8192x512_S512x8192_1_0) : (⟨S8192x512, .f32⟩ : BufTy).Contents (Elt F) → (⟨S512x8192, .f32⟩ : BufTy).Contents (Elt F)),
    StableHlo.binary main_v5 main_v6 main_v7 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    StableHlo.nullary main_cst_0 (constant S_ .f32 0x3F000000#32),
    StableHlo.unary main_cst_0 main_v8 (broadcastInDim S8192x8192 ![] bcast_S_S8192x8192 : (⟨S_, .f32⟩ : BufTy).Contents (Elt F) → (⟨S8192x8192, .f32⟩ : BufTy).Contents (Elt F)),
    StableHlo.binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    StableHlo.nullary main_v10 (iotaInDim S8192 32 0),
    StableHlo.nullary main_c (constantI S_ 32 4096#32),
    StableHlo.unary main_c main_v11 (broadcastInDim S8192 ![] bcast_S_S8192 : (⟨S_, .i32⟩ : BufTy).Contents (Elt F) → (⟨S8192, .i32⟩ : BufTy).Contents (Elt F)),
    StableHlo.binary main_v10 main_v11 main_v12 (addi : (⟨S8192, .i32⟩ : BufTy).Contents (Elt F) → (⟨S8192, .i32⟩ : BufTy).Contents (Elt F) → (⟨S8192, .i32⟩ : BufTy).Contents (Elt F)),
    StableHlo.nullary main_c_1 (constantI S_ 32 8192#32) ]

/-- The shifted counter reduced modulo 8192 (the divisor made safe against zero, the truncated remainder, its sign corrected by one more addition of the divisor where the signs differ), then both index
    columns wrapped once where negative and made columns: 37 operations. -/
abbrev ops2 : List (HloOp τ sig (Elt F)) :=
  [
    StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (.of main_v12 : StableHlo.TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select,
    StableHlo.nullary main_c_2 (constantI S_ 32 0#32),
    StableHlo.unary main_c_2 main_v14 (broadcastInDim S8192 ![] bcast_S_S8192 : (⟨S_, .i32⟩ : BufTy).Contents (Elt F) → (⟨S8192, .i32⟩ : BufTy).Contents (Elt F)),
    StableHlo.binary main_v10 main_v14 main_v15 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v16 (broadcastInDim S8192 ![] bcast_S_S8192 : (⟨S_, .i32⟩ : BufTy).Contents (Elt F) → (⟨S8192, .i32⟩ : BufTy).Contents (Elt F)),
    StableHlo.binary main_v10 main_v16 main_v17 (addi : (⟨S8192, .i32⟩ : BufTy).Contents (Elt F) → (⟨S8192, .i32⟩ : BufTy).Contents (Elt F) → (⟨S8192, .i32⟩ : BufTy).Contents (Elt F)),
    StableHlo.ternary main_v15 main_v17 main_v10 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v19 (broadcastInDim S8192 ![] bcast_S_S8192 : (⟨S_, .i32⟩ : BufTy).Contents (Elt F) → (⟨S8192, .i32⟩ : BufTy).Contents (Elt F)),
    StableHlo.binary main_v13 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v21 (broadcastInDim S8192 ![] bcast_S_S8192 : (⟨S_, .i32⟩ : BufTy).Contents (Elt F) → (⟨S8192, .i32⟩ : BufTy).Contents (Elt F)),
    StableHlo.binary main_v13 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v13 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v18 main_v24 (broadcastInDim S8192x1 ![0] bcast_S8192_S8192x1_0 : (⟨S8192, .i32⟩ : BufTy).Contents (Elt F) → (⟨S8192x1, .i32⟩ : BufTy).Contents (Elt F)),
    StableHlo.unary main_v23 main_v25 (broadcastInDim S8192x1 ![0] bcast_S8192_S8192x1_0 : (⟨S8192, .i32⟩ : BufTy).Contents (Elt F) → (⟨S8192x1, .i32⟩ : BufTy).Contents (Elt F)) ]

/-- The two index columns side by side, the positive similarity gathered at (i, (i + 4096) mod 8192); the negatives' column indices stepped past the diagonal (`j + [j ≥ i]`), wrapped once where negative,
    the in-range mask of the indices, the row-wise gather along the columns, the masked select against the not-a-number filler, and the positive as a column: 30 operations. -/
abbrev ops3 : List (HloOp τ sig (Elt F)) :=
  [
    StableHlo.binary main_v24 main_v25 main_v26 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v9 main_v26 main_v27 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.unary main_v10 main_v28 (broadcastInDim S8192x1 ![0] bcast_S8192_S8192x1_0 : (⟨S8192, .i32⟩ : BufTy).Contents (Elt F) → (⟨S8192x1, .i32⟩ : BufTy).Contents (Elt F)),
    StableHlo.unary main_v28 main_v29 (broadcastInDim S8192x4 ![0, 1] bcast_S8192x1_S8192x4_0_1 : (⟨S8192x1, .i32⟩ : BufTy).Contents (Elt F) → (⟨S8192x4, .i32⟩ : BufTy).Contents (Elt F)),
    StableHlo.binary main_arg2 main_v29 main_v30 (cmpi .sge : (⟨S8192x4, .i32⟩ : BufTy).Contents (Elt F) → (⟨S8192x4, .i32⟩ : BufTy).Contents (Elt F) → (⟨S8192x4, .i1⟩ : BufTy).Contents (Elt F)),
    StableHlo.unary main_v30 main_v31 ((extui 32 · natLt_1_32) : (⟨S8192x4, .i1⟩ : BufTy).Contents (Elt F) → (⟨S8192x4, .i32⟩ : BufTy).Contents (Elt F)),
    StableHlo.binary main_arg2 main_v31 main_v32 (addi : (⟨S8192x4, .i32⟩ : BufTy).Contents (Elt F) → (⟨S8192x4, .i32⟩ : BufTy).Contents (Elt F) → (⟨S8192x4, .i32⟩ : BufTy).Contents (Elt F)),
    StableHlo.TRef.nullary main_call2.c (constantI S_ 32 0#32),
    StableHlo.TRef.unary main_call2.c main_call2.v0 (broadcastInDim S8192x4 ![] bcast_S_S8192x4),
    StableHlo.TRef.binary (.of main_v32 : StableHlo.TRef sig ⟨S8192x4, .i32⟩) main_call2.v0 main_call2.v1 (cmpi .slt),
    StableHlo.TRef.nullary main_call2.c_0 (constantI S_ 32 8192#32),
    StableHlo.TRef.unary main_call2.c_0 main_call2.v2 (broadcastInDim S8192x4 ![] bcast_S_S8192x4),
    StableHlo.TRef.binary (.of main_v32 : StableHlo.TRef sig ⟨S8192x4, .i32⟩) main_call2.v2 main_call2.v3 addi,
    StableHlo.TRef.ternary main_call2.v1 main_call2.v3 (.of main_v32 : StableHlo.TRef sig ⟨S8192x4, .i32⟩) main_call2.v4 select,
    StableHlo.TRef.reshape main_call2.v4 main_call2.v5 rfl shapeCasts_S8192x4_S8192x4x1,
    StableHlo.TRef.nullary main_call2.c_1 (constantI S1 32 8191#32),
    StableHlo.TRef.nullary main_call2.c_2 (constantI S_ 32 0#32),
    StableHlo.TRef.unary main_call2.c_2 main_call2.v6 (broadcastInDim S8192x4x1 ![] bcast_S_S8192x4x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S8192x4x1 ![0, 1, 2] bcast_S1x1x1_S8192x4x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8192x4x1_S8192x4_d2 h_S_),
    StableHlo.TRef.binary (.of main_v9 : StableHlo.TRef sig ⟨S8192x8192, .f32⟩) main_call2.v5 main_call2.v13 (fun x i => Host.gather gather_S8192x8192_S8192x4x1_S8192x4_n_1_0_0_1_2_11 x i),
    StableHlo.TRef.nullary main_call2.cst (constant S_ .f32 0x7FC00000#32),
    StableHlo.TRef.unary main_call2.cst main_call2.v14 (broadcastInDim S8192x4 ![] bcast_S_S8192x4),
    StableHlo.TRef.ternary main_call2.v12 main_call2.v13 main_call2.v14 main_call2.v15 select,
    StableHlo.unary main_v27 main_v34 (broadcastInDim S8192x1 ![0] bcast_S8192_S8192x1_0 : (⟨S8192, .f32⟩ : BufTy).Contents (Elt F) → (⟨S8192x1, .f32⟩ : BufTy).Contents (Elt F)) ]

/-- Positive and negatives side by side in five columns; the row-wise log-softmax (the row maximum, the shift, the exponentials summed, the logarithm subtracted); its first column negated, scaled by 4,
    summed over the rows and divided by 4 · 8192: 28 operations. -/
abbrev ops4 : List (HloOp τ sig (Elt F)) :=
  [
    StableHlo.binary main_v34 main_v33 main_v35 ((fun a b => concatenate S8192x5 1 [⟨S8192x1, a⟩, ⟨S8192x4, b⟩] concatenates_S8192x1_S8192x4_S8192x5_d1) : (⟨S8192x1, .f32⟩ : BufTy).Contents (Elt F) → (⟨S8192x4, .f32⟩ : BufTy).Contents (Elt F) → (⟨S8192x5, .f32⟩ : BufTy).Contents (Elt F)),
    StableHlo.TRef.nullary main_call3.cst (constant S_ .f32 0xFF800000#32),
    StableHlo.TRef.binary (.of main_v35 : StableHlo.TRef sig ⟨S8192x5, .f32⟩) main_call3.cst main_call3.v0 (fun x v => Host.reduce FloatOps.maximumf x v reducesTo_S8192x5_S8192_d1 h_S_),
    StableHlo.TRef.nullary main_call3.cst_0 (constant S_ .f32 0xFF800000#32),
    StableHlo.TRef.unary main_call3.cst_0 main_call3.v1 (broadcastInDim S8192 ![] bcast_S_S8192),
    StableHlo.TRef.binary main_call3.v1 main_call3.v0 main_call3.v2 maximumf,
    StableHlo.TRef.unary main_call3.v2 main_call3.v3 (broadcastInDim S8192x1 ![0] bcast_S8192_S8192x1_0),
    StableHlo.TRef.unary main_call3.v3 main_call3.v4 (broadcastInDim S8192x5 ![0, 1] bcast_S8192x1_S8192x5_0_1),
    StableHlo.TRef.binary (.of main_v35 : StableHlo.TRef sig ⟨S8192x5, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S8192x5_S8192_d1 h_S_),
    StableHlo.TRef.unary main_call3.v7 main_call3.v8 (broadcastInDim S8192x1 ![0] bcast_S8192_S8192x1_0),
    StableHlo.TRef.unary main_call3.v8 main_call3.v9 Host.log,
    StableHlo.TRef.unary main_call3.v9 main_call3.v10 (broadcastInDim S8192x5 ![0, 1] bcast_S8192x1_S8192x5_0_1),
    StableHlo.TRef.binary main_call3.v5 main_call3.v10 main_call3.v11 subf,
    StableHlo.unary main_v36 main_v37 ((extractStridedSlice S8192x1 ![0, 0] · slices_S8192x5_S8192x1_0_0) : (⟨S8192x5, .f32⟩ : BufTy).Contents (Elt F) → (⟨S8192x1, .f32⟩ : BufTy).Contents (Elt F)),
    StableHlo.reshape main_v37 main_v38 rfl shapeCasts_S8192x1_S8192,
    StableHlo.unary main_v38 main_v39 (Host.negf : (⟨S8192, .f32⟩ : BufTy).Contents (Elt F) → (⟨S8192, .f32⟩ : BufTy).Contents (Elt F)),
    StableHlo.nullary main_cst_6 (constant S_ .f32 0x40800000#32),
    StableHlo.unary main_cst_6 main_v40 (broadcastInDim S8192 ![] bcast_S_S8192 : (⟨S_, .f32⟩ : BufTy).Contents (Elt F) → (⟨S8192, .f32⟩ : BufTy).Contents (Elt F)),
    StableHlo.binary main_v40 main_v39 main_v41 (mulf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x00000000#32),
    StableHlo.binary main_v41 main_cst_7 main_v42 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.nullary main_cst_9 (constant S_ .f32 0x46000000#32),
    StableHlo.binary main_cst_8 main_cst_9 main_v43 (mulf : (⟨S_, .f32⟩ : BufTy).Contents (Elt F) → (⟨S_, .f32⟩ : BufTy).Contents (Elt F) → (⟨S_, .f32⟩ : BufTy).Contents (Elt F)),
    StableHlo.binary main_v42 main_v43 main_v44 (Host.divf : (⟨S_, .f32⟩ : BufTy).Contents (Elt F) → (⟨S_, .f32⟩ : BufTy).Contents (Elt F) → (⟨S_, .f32⟩ : BufTy).Contents (Elt F)) ]

/-- @main's 116 host operations in order, the callees' at their call sites. -/
abbrev ops : List (HloOp τ sig (Elt F)) := ops1 ++ ops2 ++ ops3 ++ ops4

/-! ## @main is that line -/

/-- @main is the line: each call unfolds to its callee's operations over the call's record, and sequencing
    re-associates; both sides are the same chain of steps by computation. -/
theorem main_eq (c : Dev nD) : main (F := F) c = StableHlo.seq ops := by
  show main (F := F) c = StableHlo.seq (ops1 ++ ops2 ++ ops3 ++ ops4)
  rw [StableHlo.seq_append, StableHlo.seq_append, StableHlo.seq_append]
  chain_rfl

/-! ## Every operation touches TensorCore buffers only, and determines what it writes -/

theorem ops1_sub : (ops1 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub ..,
    StableHlo.unary_bufs_sub .., StableHlo.unary_bufs_sub .., StableHlo.nullary_bufs_sub .., StableHlo.unary_bufs_sub ..,
    StableHlo.binary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.nullary_bufs_sub .., StableHlo.unary_bufs_sub .., StableHlo.binary_bufs_sub ..,
    StableHlo.nullary_bufs_sub ..⟩

theorem ops2_sub : (ops2 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub ..,
    StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.unary_bufs_sub ..⟩

theorem ops3_sub : (ops3 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub ..,
    StableHlo.binary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.ternary_bufs_sub .., StableHlo.reshape_bufs_sub .., StableHlo.nullary_bufs_sub ..,
    StableHlo.nullary_bufs_sub .., StableHlo.unary_bufs_sub .., StableHlo.binary_bufs_sub .., StableHlo.unary_bufs_sub ..,
    StableHlo.unary_bufs_sub .., StableHlo.binary_bufs_sub .., StableHlo.binary_bufs_sub .., StableHlo.nullary_bufs_sub ..,
    StableHlo.binary_bufs_sub .., StableHlo.binary_bufs_sub .., StableHlo.nullary_bufs_sub .., StableHlo.unary_bufs_sub ..,
    StableHlo.ternary_bufs_sub .., StableHlo.unary_bufs_sub ..⟩

theorem ops4_sub : (ops4 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.unary_bufs_sub .., StableHlo.nullary_bufs_sub .., StableHlo.binary_bufs_sub .., StableHlo.unary_bufs_sub ..,
    StableHlo.unary_bufs_sub .., StableHlo.unary_bufs_sub .., StableHlo.binary_bufs_sub .., StableHlo.unary_bufs_sub ..,
    StableHlo.reshape_bufs_sub .., StableHlo.unary_bufs_sub .., StableHlo.nullary_bufs_sub .., StableHlo.unary_bufs_sub ..,
    StableHlo.binary_bufs_sub .., StableHlo.nullary_bufs_sub .., StableHlo.binary_bufs_sub .., StableHlo.nullary_bufs_sub ..,
    StableHlo.nullary_bufs_sub .., StableHlo.binary_bufs_sub .., StableHlo.binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
    rfl⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ StableHlo.tcRefs τ sig :=
  List.forall_iff_forall_mem.2 fun op h => by
    rcases List.mem_append.1 h with h | h
    · rcases List.mem_append.1 h with h | h
      · rcases List.mem_append.1 h with h | h
        · exact List.forall_iff_forall_mem.1 ops1_sub op h
        · exact List.forall_iff_forall_mem.1 ops2_sub op h
      · exact List.forall_iff_forall_mem.1 ops3_sub op h
    · exact List.forall_iff_forall_mem.1 ops4_sub op h

theorem ops_fresh : ∀ op ∈ (ops : List (HloOp τ sig (Elt F))), op.fresh = ∅ := fun op h => by
  rcases List.mem_append.1 h with h | h
  · rcases List.mem_append.1 h with h | h
    · rcases List.mem_append.1 h with h | h
      · exact List.forall_iff_forall_mem.1 ops1_fresh op h
      · exact List.forall_iff_forall_mem.1 ops2_fresh op h
    · exact List.forall_iff_forall_mem.1 ops3_fresh op h
  · exact List.forall_iff_forall_mem.1 ops4_fresh op h

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

/-! ## No operation writes an argument -/

/-- Stretch 1 leaves the three arguments' buffers as they were: none of its operations writes one. -/
theorem ops1_args (V : Valuation τ sig (Elt F)) :
    StableHlo.after ops1 V (main_arg0 : DevRef τ sig) = V (main_arg0 : DevRef τ sig)
      ∧ StableHlo.after ops1 V (main_arg1 : DevRef τ sig) = V (main_arg1 : DevRef τ sig)
      ∧ StableHlo.after ops1 V (main_arg2 : DevRef τ sig) = V (main_arg2 : DevRef τ sig) := by
  simp only [StableHlo.after_cons, StableHlo.after_nil]
  exact ⟨rfl, rfl, rfl⟩

/-- Stretch 2 leaves the three arguments' buffers as they were: none of its operations writes one. -/
theorem ops2_args (V : Valuation τ sig (Elt F)) :
    StableHlo.after ops2 V (main_arg0 : DevRef τ sig) = V (main_arg0 : DevRef τ sig)
      ∧ StableHlo.after ops2 V (main_arg1 : DevRef τ sig) = V (main_arg1 : DevRef τ sig)
      ∧ StableHlo.after ops2 V (main_arg2 : DevRef τ sig) = V (main_arg2 : DevRef τ sig) := by
  simp only [StableHlo.after_cons, StableHlo.after_nil]
  exact ⟨rfl, rfl, rfl⟩

/-- Stretch 3 leaves the three arguments' buffers as they were: none of its operations writes one. -/
theorem ops3_args (V : Valuation τ sig (Elt F)) :
    StableHlo.after ops3 V (main_arg0 : DevRef τ sig) = V (main_arg0 : DevRef τ sig)
      ∧ StableHlo.after ops3 V (main_arg1 : DevRef τ sig) = V (main_arg1 : DevRef τ sig)
      ∧ StableHlo.after ops3 V (main_arg2 : DevRef τ sig) = V (main_arg2 : DevRef τ sig) := by
  simp only [StableHlo.after_cons, StableHlo.after_nil]
  exact ⟨rfl, rfl, rfl⟩

/-- Stretch 4 leaves the three arguments' buffers as they were: none of its operations writes one. -/
theorem ops4_args (V : Valuation τ sig (Elt F)) :
    StableHlo.after ops4 V (main_arg0 : DevRef τ sig) = V (main_arg0 : DevRef τ sig)
      ∧ StableHlo.after ops4 V (main_arg1 : DevRef τ sig) = V (main_arg1 : DevRef τ sig)
      ∧ StableHlo.after ops4 V (main_arg2 : DevRef τ sig) = V (main_arg2 : DevRef τ sig) := by
  simp only [StableHlo.after_cons, StableHlo.after_nil]
  exact ⟨rfl, rfl, rfl⟩

/-- The fold over the whole line is the stretches' folds in turn. -/
theorem after_ops (V : Valuation τ sig (Elt F)) :
    StableHlo.after ops V = StableHlo.after ops4 (StableHlo.after ops3 (StableHlo.after ops2 (StableHlo.after ops1 V))) := by
  show StableHlo.after (ops1 ++ ops2 ++ ops3 ++ ops4) V = _
  rw [StableHlo.after_append, StableHlo.after_append, StableHlo.after_append]

theorem arg0_eq (V : Valuation τ sig (Elt F)) :
    StableHlo.after ops V (main_arg0 : DevRef τ sig) = V (main_arg0 : DevRef τ sig) := by
  rw [after_ops, (ops4_args _).1, (ops3_args _).1, (ops2_args _).1, (ops1_args _).1]

theorem arg1_eq (V : Valuation τ sig (Elt F)) :
    StableHlo.after ops V (main_arg1 : DevRef τ sig) = V (main_arg1 : DevRef τ sig) := by
  rw [after_ops, (ops4_args _).2.1, (ops3_args _).2.1, (ops2_args _).2.1, (ops1_args _).2.1]

theorem arg2_eq (V : Valuation τ sig (Elt F)) :
    StableHlo.after ops V (main_arg2 : DevRef τ sig) = V (main_arg2 : DevRef τ sig) := by
  rw [after_ops, (ops4_args _).2.2, (ops3_args _).2.2, (ops2_args _).2.2, (ops1_args _).2.2]

end Cert.ReferenceIdeal.Hand

end
-- ==== Proof.RefTerm.lean ====
/-
  The reference's similarity logits as one pure term of the normalised rows and the negatives' column indices.
  From the 8192 unit rows `zn`: the Gram matrix `zn · znᵀ` divided by the temperature 1/2; the positive of row i
  is its entry at column (i + 4096) mod 8192, read by a gather at the index pair (i, that column) — the modulus is
  the host remainder with its divisor guarded against zero and its sign corrected, and both index columns are
  wrapped once where negative; the four negatives of row i are its entries at the columns `cols i`, wrapped once
  where negative, read by the gather along the columns and kept where the index lies in [0, 8191], the
  not-a-number filler elsewhere. The positive is column 0 of the result, the negatives columns 1 to 4.
  Every step is the program's own operation, applied in the program's order.
-/
import proofs.«418182_j40372692582790_2_alg».proof.Proof.Gen.ReferenceIdeal
import Idealize.ShloMosaic.PureOps.Ideal

noncomputable section

namespace Cert.ReferenceIdeal.Hand

open Idealize.ShloMosaic
open Cert.ReferenceIdeal Cert.ReferenceIdeal.Gen

/-- The similarities: the Gram matrix of the rows, `zn · znᵀ`, divided by the temperature 1/2. -/
def simOf (zn : FVec Ideal S8192x512 .f32) : FVec Ideal S8192x8192 .f32 :=
  let znT : FVec Ideal S512x8192 .f32 := transpose S512x8192 [1, 0] zn transposes_S8192x512_S512x8192_1_0
  let gram : FVec Ideal S8192x8192 .f32 := Host.dotGeneral dot_S8192x512_S512x8192_S8192x8192_1_0_0_1_n_n none zn znT
  let half : FVec Ideal S_ .f32 := constant (F := Ideal) S_ .f32 0x3F000000#32
  let halfB : FVec Ideal S8192x8192 .f32 := broadcastInDim S8192x8192 ![] bcast_S_S8192x8192 half
  Host.divf gram halfB

/-- The row counter `i`, 0 to 8191. -/
def rowCounter : IVec S8192 32 := iotaInDim S8192 32 0

/-- `(i + 4096) mod 8192` as the host computes it: the divisor guarded against zero, the truncated remainder, and
    the divisor added once more where the remainder is not zero and its sign differs from the divisor's. -/
def partnerRem : IVec S8192 32 :=
  let row : IVec S8192 32 := rowCounter
  let c4096 : IVec S_ 32 := constantI S_ 32 4096#32
  let c4096B : IVec S8192 32 := broadcastInDim S8192 ![] bcast_S_S8192 c4096
  let shifted : IVec S8192 32 := addi row c4096B
  let c8192 : IVec S_ 32 := constantI S_ 32 8192#32
  -- (i + 4096) mod 8192: the divisor guarded against zero,
  let dv : IVec S_ 32 := id c8192
  let r_c : IVec S_ 32 := constantI S_ 32 0#32
  let dvIsZero : IVec S_ 1 := cmpi .eq dv r_c
  let r_c_0 : IVec S_ 32 := constantI S_ 32 1#32
  let dvSafe : IVec S_ 32 := select dvIsZero r_c_0 dv
  let dvSafeB : IVec S8192 32 := broadcastInDim S8192 ![] bcast_S_S8192 dvSafe
  -- the truncated remainder,
  let rem : IVec S8192 32 := Host.remsi shifted dvSafeB
  let r_c_1 : IVec S_ 32 := constantI S_ 32 0#32
  let r_v5 : IVec S8192 32 := broadcastInDim S8192 ![] bcast_S_S8192 r_c_1
  let remNonzero : IVec S8192 1 := cmpi .ne rem r_v5
  let r_c_2 : IVec S_ 32 := constantI S_ 32 0#32
  let r_v7 : IVec S8192 32 := broadcastInDim S8192 ![] bcast_S_S8192 r_c_2
  let remNeg : IVec S8192 1 := cmpi .slt rem r_v7
  let r_c_3 : IVec S_ 32 := constantI S_ 32 0#32
  let dvNeg : IVec S_ 1 := cmpi .slt dvSafe r_c_3
  let dvNegB : IVec S8192 1 := broadcastInDim S8192 ![] bcast_S_S8192 dvNeg
  -- and the divisor added once more where the signs differ and the remainder is not zero
  let signsDiffer : IVec S8192 1 := cmpi .ne remNeg dvNegB
  let fix : IVec S8192 1 := andi signsDiffer remNonzero
  let r_v13 : IVec S8192 32 := broadcastInDim S8192 ![] bcast_S_S8192 dvSafe
  let remPlus : IVec S8192 32 := addi rem r_v13
  let partner : IVec S8192 32 := select fix remPlus rem
  partner

/-- The row index, wrapped once (8192 added) where negative. -/
def rowIdx : IVec S8192 32 :=
  let row : IVec S8192 32 := rowCounter
  let c_2 : IVec S_ 32 := constantI S_ 32 0#32
  let v14 : IVec S8192 32 := broadcastInDim S8192 ![] bcast_S_S8192 c_2
  let rowNeg : IVec S8192 1 := cmpi .slt row v14
  let c_3 : IVec S_ 32 := constantI S_ 32 8192#32
  let v16 : IVec S8192 32 := broadcastInDim S8192 ![] bcast_S_S8192 c_3
  let rowPlus : IVec S8192 32 := addi row v16
  let rowW : IVec S8192 32 := select rowNeg rowPlus row
  rowW

/-- The partner column, wrapped once (8192 added) where negative. -/
def partnerIdx : IVec S8192 32 :=
  let c_4 : IVec S_ 32 := constantI S_ 32 0#32
  let v19 : IVec S8192 32 := broadcastInDim S8192 ![] bcast_S_S8192 c_4
  let partnerNeg : IVec S8192 1 := cmpi .slt partnerRem v19
  let c_5 : IVec S_ 32 := constantI S_ 32 8192#32
  let v21 : IVec S8192 32 := broadcastInDim S8192 ![] bcast_S_S8192 c_5
  let partnerPlus : IVec S8192 32 := addi partnerRem v21
  let partnerW : IVec S8192 32 := select partnerNeg partnerPlus partnerRem
  partnerW

/-- The positives: the similarity gathered at the index pairs (i, partner i). -/
def posOf (sim : FVec Ideal S8192x8192 .f32) : FVec Ideal S8192 .f32 :=
  let rowW : IVec S8192 32 := rowIdx
  let partnerW : IVec S8192 32 := partnerIdx
  let rowCol : IVec S8192x1 32 := broadcastInDim S8192x1 ![0] bcast_S8192_S8192x1_0 rowW
  let partnerCol : IVec S8192x1 32 := broadcastInDim S8192x1 ![0] bcast_S8192_S8192x1_0 partnerW
  let pairs : IVec S8192x2 32 :=
    concatenate S8192x2 1 [⟨S8192x1, rowCol⟩, ⟨S8192x1, partnerCol⟩] concatenates_S8192x1_S8192x1_S8192x2_d1
  let pos : FVec Ideal S8192 .f32 := Host.gather gather_S8192x8192_S8192x2_S8192_n_01_n_n_01_1_11 sim pairs
  pos

/-- The negatives: the columns `cols` wrapped once where negative; their in-range mask 0 ≤ · ≤ 8191; the row-wise
    gather of the similarity along the columns, and the not-a-number filler where the mask is off. -/
def negsOf (sim : FVec Ideal S8192x8192 .f32) (cols : IVec S8192x4 32) : FVec Ideal S8192x4 .f32 :=
  let t_c : IVec S_ 32 := constantI S_ 32 0#32
  let t_v0 : IVec S8192x4 32 := broadcastInDim S8192x4 ![] bcast_S_S8192x4 t_c
  let colsNeg : IVec S8192x4 1 := cmpi .slt cols t_v0
  let t_c_0 : IVec S_ 32 := constantI S_ 32 8192#32
  let t_v2 : IVec S8192x4 32 := broadcastInDim S8192x4 ![] bcast_S_S8192x4 t_c_0
  let colsPlus : IVec S8192x4 32 := addi cols t_v2
  let colsW : IVec S8192x4 32 := select colsNeg colsPlus cols
  let colsW3 : IVec S8192x4x1 32 := shapeCast S8192x4x1 colsW shapeCasts_S8192x4_S8192x4x1
  -- their in-range mask 0 ≤ · ≤ 8191,
  let t_c_1 : IVec S1 32 := constantI S1 32 8191#32
  let t_c_2 : IVec S_ 32 := constantI S_ 32 0#32
  let t_v6 : IVec S8192x4x1 32 := broadcastInDim S8192x4x1 ![] bcast_S_S8192x4x1 t_c_2
  let geZero : IVec S8192x4x1 1 := cmpi .sge colsW3 t_v6
  let t_v8 : IVec S1x1x1 32 := broadcastInDim S1x1x1 ![2] bcast_S1_S1x1x1_2 t_c_1
  let t_v9 : IVec S8192x4x1 32 := broadcastInDim S8192x4x1 ![0, 1, 2] bcast_S1x1x1_S8192x4x1_0_1_2 t_v8
  let leMax : IVec S8192x4x1 1 := cmpi .sle colsW3 t_v9
  let inRange3 : IVec S8192x4x1 1 := andi geZero leMax
  let t_c_3 : IVec S_ 1 := constantI S_ 1 1#1
  let inRange : IVec S8192x4 1 := Host.reduce IntOp.andi inRange3 t_c_3 reducesTo_S8192x4x1_S8192x4_d2 h_S_
  -- the row-wise gather along the columns, the filler where out of range
  let taken : FVec Ideal S8192x4 .f32 := Host.gather gather_S8192x8192_S8192x4x1_S8192x4_n_1_0_0_1_2_11 sim colsW3
  let t_cst : FVec Ideal S_ .f32 := constant (F := Ideal) S_ .f32 0x7FC00000#32
  let filler : FVec Ideal S8192x4 .f32 := broadcastInDim S8192x4 ![] bcast_S_S8192x4 t_cst
  let negs : FVec Ideal S8192x4 .f32 := select inRange taken filler
  negs

/-- The 8192 × 5 logits the reference feeds its log-softmax, from the normalised rows `zn` (the reference's
    `%5`) and the stepped column indices `cols` (its `%32`): the positive as column 0, the negatives beside it. -/
def refLogits (zn : FVec Ideal S8192x512 .f32) (cols : IVec S8192x4 32) : FVec Ideal S8192x5 .f32 :=
  let sim : FVec Ideal S8192x8192 .f32 := simOf zn
  let posCol : FVec Ideal S8192x1 .f32 := broadcastInDim S8192x1 ![0] bcast_S8192_S8192x1_0 (posOf sim)
  concatenate S8192x5 1 [⟨S8192x1, posCol⟩, ⟨S8192x4, negsOf sim cols⟩] concatenates_S8192x1_S8192x4_S8192x5_d1

end Cert.ReferenceIdeal.Hand

end
-- ==== Proof.RefMathNeg.lean ====
/-
  The reference's negatives, read at an index. With every column index in 0 .. 8191 the wrap of negative indices does
  nothing, the in-range mask is 1 everywhere, so the select keeps the gathered value and never the not-a-number filler;
  and the row-wise gather at (r, k) reads row r of the similarity at the column the index names: the clamp into
  0 .. 8191 leaves an in-range index alone, and its unsigned value is below 8192, so reducing it mod 8192 leaves it too.
-/
import proofs.«418182_j40372692582790_2_alg».proof.Proof.RefTerm
import proofs.«418182_j40372692582790_2_alg».proof.Proof.Spec
import Idealize.ShloMosaic.Lib.ValueIdx
import Idealize.ShloMosaic.Lib.ReduceAll
import Idealize.ShloMosaic.Lib.Pipeline.Value
import Idealize.ShloMosaic.PureOps.Reduce

noncomputable section

namespace Cert.RefMath

open Idealize.ShloMosaic ValueIdx
open Cert.ReferenceIdeal Cert.ReferenceIdeal.Gen

/-- A left fold by and from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    rw [List.foldl_cons]
    refine foldl_andi_ones f l _ ?_ (fun n hn => hl n (List.mem_cons_of_mem _ hn))
    exact IntOp.andi_eq_one.2 ⟨hi, hl a (List.mem_cons_self ..)⟩

/-- An and-reduction from 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_ones x _ _ hi (fun n _ => hx n)

/-- A word whose signed value is in 0 .. 8191, clamped into 0 .. 8191, is its unsigned value, also mod 8192. -/
theorem clamp_eq_mod {w : BitVec 32} (h0 : (0 : ℤ) ≤ w.toInt) (h1 : w.toInt < 8192) :
    min w.toInt.toNat 8191 = w.toNat % 8192 := by
  have hlt := w.isLt
  have e : w.toInt = (w.toNat : ℤ) := by
    have c := BitVec.toInt_eq_toNat_cond w
    split at c <;> omega
  omega

/-- The columns with 8192 added once where negative. -/
def wrap (cols : IVec S8192x4 32) : IVec S8192x4 32 :=
  select (cmpi .slt cols (broadcastInDim S8192x4 ![] bcast_S_S8192x4 (constantI S_ 32 0#32)))
    (addi cols (broadcastInDim S8192x4 ![] bcast_S_S8192x4 (constantI S_ 32 8192#32))) cols

/-- The wrapped columns as an [8192, 4, 1] array: the start indices of the gather. -/
def lifted (cols : IVec S8192x4 32) : IVec S8192x4x1 32 :=
  shapeCast S8192x4x1 (wrap cols) shapeCasts_S8192x4_S8192x4x1

/-- The mask "0 <= c and c <= 8191", both compares signed. -/
def inRange3 (c3 : IVec S8192x4x1 32) : IVec S8192x4x1 1 :=
  andi (cmpi .sge c3 (broadcastInDim S8192x4x1 ![] bcast_S_S8192x4x1 (constantI S_ 32 0#32)))
    (cmpi .sle c3 (broadcastInDim S8192x4x1 ![0, 1, 2] bcast_S1x1x1_S8192x4x1_0_1_2
      (broadcastInDim S1x1x1 ![2] bcast_S1_S1x1x1_2 (constantI S1 32 8191#32))))

/-- The negatives, with the three pieces above named. -/
theorem negsOf_eq (sim : FVec Ideal S8192x8192 .f32) (cols : IVec S8192x4 32) :
    Cert.ReferenceIdeal.Hand.negsOf sim cols
      = select (Host.reduce IntOp.andi (inRange3 (lifted cols)) (constantI S_ 1 1#1) reducesTo_S8192x4x1_S8192x4_d2 h_S_)
          (Host.gather gather_S8192x8192_S8192x4x1_S8192x4_n_1_0_0_1_2_11 sim (lifted cols))
          (broadcastInDim S8192x4 ![] bcast_S_S8192x4 (constant (F := Ideal) S_ .f32 0x7FC00000#32)) := rfl

/-- A column index that is not negative is not wrapped. -/
theorem wrap_apply (cols : IVec S8192x4 32) (i : S8192x4.Idx) (h0 : (0 : ℤ) ≤ (cols i).toInt) : wrap cols i = cols i := by
  show Scalar.select (IntOp.cmpi .slt (cols i) 0#32) _ _ = _
  have hz : IntOp.cmpi .slt (cols i) 0#32 = 0#1 := by
    refine eq_zero_of_ne_one fun h => ?_
    have hlt := IntOp.cmpi_slt.1 h
    have z : (0#32 : BitVec 32).toInt = 0 := by decide
    omega
  rw [hz, select_zero]

/-- The [8192, 4, 1] array at (r, k, 0) is the [8192, 4] array at (r, k): the same row-major position. -/
theorem lifted_at (cols : IVec S8192x4 32) (r : Fin 8192) (k : Fin 4) (h0 : (0 : ℤ) ≤ (cols (ix2 r k)).toInt) :
    lifted cols (ix3 r k (0 : Fin 1)) = cols (ix2 r k) := by
  unfold lifted
  refine (shapeCast_apply (s := S8192x4) (t := S8192x4x1) _ _ (ix3 r k (0 : Fin 1)) (ix2 r k) ?_).trans (wrap_apply cols _ h0)
  rw [Shape.rowMajor_val_two, Shape.rowMajor_val_three]
  show r.val * 4 + k.val = (r.val * 4 + k.val) * 1 + 0
  omega

/-- Every entry of the [8192, 4, 1] array is an entry of the column array, so in range when those all are. -/
theorem lifted_range (cols : IVec S8192x4 32) (hc : ∀ i : S8192x4.Idx, (0 : ℤ) ≤ (cols i).toInt ∧ (cols i).toInt < 8192)
    (i3 : S8192x4x1.Idx) : (0 : ℤ) ≤ (lifted cols i3).toInt ∧ (lifted cols i3).toInt < 8192 := by
  have e : lifted cols i3 = cols (Shape.reshapeEquiv shapeCasts_S8192x4_S8192x4x1 i3) :=
    wrap_apply cols _ (hc _).1
  rw [e]
  exact hc _

/-- The mask is 1 at an entry whose signed value is in 0 .. 8191. -/
theorem inRange3_one (c3 : IVec S8192x4x1 32) (i3 : S8192x4x1.Idx) (h0 : (0 : ℤ) ≤ (c3 i3).toInt) (h1 : (c3 i3).toInt < 8192) :
    inRange3 c3 i3 = 1#1 := by
  show IntOp.andi (IntOp.cmpi .sge (c3 i3) 0#32) (IntOp.cmpi .sle (c3 i3) 8191#32) = 1#1
  have z : (0#32 : BitVec 32).toInt = 0 := by decide
  have m : (8191#32 : BitVec 32).toInt = 8191 := by decide
  refine IntOp.andi_eq_one.2 ⟨IntOp.cmpi_sge.2 ?_, IntOp.cmpi_sle.2 ?_⟩ <;> omega

/-- The row-wise gather along the columns at (r, k): row r of the operand, at the column the start index idx[r, k, 0]
    names, read signed and clamped into 0 .. 8191. Axis 0 of the operand is the batching axis: its coordinate is the
    result's row; axis 1 is collapsed and is the one axis the start index addresses. -/
theorem takeAlong_apply (sim : FVec Ideal S8192x8192 .f32) (idx : IVec S8192x4x1 32) (r : Fin 8192) (k : Fin 4) :
    Host.gather gather_S8192x8192_S8192x4x1_S8192x4_n_1_0_0_1_2_11 sim idx (ix2 r k)
      = sim (ix2 r (⟨min (idx (ix3 r k (0 : Fin 1))).toInt.toNat 8191, by omega⟩ : Fin 8192)) := by
  unfold Host.gather
  congr 1
  funext a
  refine Fin.ext ?_
  match a with
  | ⟨0, _⟩ =>
    show GatherDims.start _ (ix2 r k) idx 0 + GatherDims.batchCoord _ (ix2 r k) 0 + GatherDims.offCoord _ (ix2 r k) 0 = r.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S8192x8192_S8192x4x1_S8192x4_n_1_0_0_1_2_11.operandBatchingDims from List.mem_singleton.mpr rfl)]
    unfold GatherDims.siCoord
    simp only [Fin.val_cast]
    have key : ∀ X : Fin 2, X = 0 → ((ix2 r k : S8192x4.Idx) X).val = r.val := fun X h => by subst h; rfl
    refine key _ ?_
    decide
  | ⟨1, _⟩ =>
    show GatherDims.start _ (ix2 r k) idx 1 + GatherDims.batchCoord _ (ix2 r k) 1 + GatherDims.offCoord _ (ix2 r k) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x4x1_S8192x4_n_1_0_0_1_2_11.startIndexMap from List.mem_singleton.mpr rfl)]
    have hsi : gather_S8192x8192_S8192x4x1_S8192x4_n_1_0_0_1_2_11.siIdx (ix2 r k)
        ⟨List.idxOf (1 : Fin 2) gather_S8192x8192_S8192x4x1_S8192x4_n_1_0_0_1_2_11.startIndexMap,
          List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl

/-- THE NEGATIVES AT (r, k): the similarity of row r at its k-th sampled column. -/
theorem negsOf_apply (sim : FVec Ideal Cert.ReferenceIdeal.S8192x8192 .f32) (cols : IVec Cert.ReferenceIdeal.S8192x4 32)
    (hc : ∀ i : Cert.ReferenceIdeal.S8192x4.Idx, (0 : ℤ) ≤ (cols i).toInt ∧ (cols i).toInt < 8192) (r : Fin 8192) (k : Fin 4) :
    Cert.ReferenceIdeal.Hand.negsOf sim cols (ValueIdx.ix2 r k) = sim (ValueIdx.ix2 r (Cert.Spec.colAt cols r k)) := by
  rw [negsOf_eq, select_apply]
  have hm : Host.reduce IntOp.andi (inRange3 (lifted cols)) (constantI S_ 1 1#1) reducesTo_S8192x4x1_S8192x4_d2 h_S_ (ix2 r k) = 1#1 :=
    reduce_andi_ones _ _ _ _ rfl (fun i3 => inRange3_one _ i3 (lifted_range cols hc i3).1 (lifted_range cols hc i3).2) _
  rw [hm, select_one, takeAlong_apply]
  refine congrArg sim (funext fun a => Fin.ext ?_)
  match a with
  | ⟨0, _⟩ => rfl
  | ⟨1, _⟩ =>
    show min (lifted cols (ix3 r k (0 : Fin 1))).toInt.toNat 8191 = (cols (ix2 r k)).toNat % 8192
    rw [lifted_at cols r k (hc _).1]
    exact clamp_eq_mod (hc _).1 (hc _).2

end Cert.RefMath
end
-- ==== Proof.RefMath.lean ====
/-
  The reference's logits are the specification's logits.

  The similarities: the Gram matrix of the 8192 unit rows divided by the temperature 1/2 is, entry by entry, the dot
  product of two rows times 2 (division by 1/2 is multiplication by 2, at the infinities too).

  Column 0, the positive of row r: the gather reads the similarity matrix at the index pair (r, (r + 4096) mod 8192).
  The first index is the row counter. The second is the host's modulus of r + 4096 by 8192: the sum does not wrap,
  both words are positive, so the truncated remainder already is the modulus and the sign correction adds nothing;
  the divisor's guard against zero picks 8192 itself. Both index words lie in 0 .. 8191, so neither the wrap of
  negative indices nor the gather's clamp moves them. So the positive is the similarity of row r with its partner.

  Columns 1 to 4, the negatives of row r: the similarity of row r with its sampled columns (proved beside this
  module, under the range 0 .. 8191 of the column indices).

  The concatenation of the positive's column with the four negatives' is the specification, column by column.
-/
import proofs.«418182_j40372692582790_2_alg».proof.Proof.RefTerm
import proofs.«418182_j40372692582790_2_alg».proof.Proof.RefMathNeg
import proofs.«418182_j40372692582790_2_alg».proof.Proof.Spec
import Idealize.ShloMosaic.PureOps.Ideal.Laws
import Idealize.ShloMosaic.Lib.ValueIdx
import Idealize.ShloMosaic.Lib.Pipeline.Value
import Idealize.ShloMosaic.Lib.StackMember
import Idealize.ShloMosaic.Lib.StableHlo.Predicate

noncomputable section

namespace Cert.RefMath

open Idealize.ShloMosaic Cert.ReferenceIdeal Cert.ReferenceIdeal.Gen ValueIdx

/-! ## The similarities -/

/-- The similarity matrix at (r, g): the dot product of rows r and g, over the temperature 1/2, that is times 2. -/
theorem simOf_apply (zn : FVec Ideal S8192x512 .f32) (r g : Fin 8192) :
    Hand.simOf zn (ix2 r g) = Cert.Spec.dot zn r g * ((2 : ℝ) : EReal) := by
  show Ideal.div (Host.dotGeneral (DotDims.plain 8192 512 8192) none zn
        (transpose S512x8192 [1, 0] zn transposes_S8192x512_S512x8192_1_0) (ix2 r g)) (Ideal.ofBits .f32 0x3F000000#32) = _
  rw [Cert.Spec.ofBits_half, Ideal.div_coe (by norm_num : (0.5 : ℝ) ≠ 0), StackMember.dotGeneral_plain_apply]
  have ht : ∀ c : Fin 512, transpose S512x8192 [1, 0] zn transposes_S8192x512_S512x8192_1_0 (ix2 c g) = zn (ix2 g c) := fun c =>
    transpose_apply [1, 0] zn _ (ix2 c g) (ix2 g c) (fun b => match b with | ⟨0, _⟩ => rfl | ⟨1, _⟩ => rfl)
  simp only [ht]
  have h2 : ((1 / 0.5 : ℝ)) = 2 := by norm_num
  rw [h2]
  rfl

namespace Partner

/-! ## Words -/

/-- A word that is not negative as a signed word does not compare below zero. -/
theorem slt_zero_of_nonneg {w : BitVec 32} (h : (0 : ℤ) ≤ w.toInt) : IntOp.cmpi .slt w 0#32 = 0#1 := by
  show BitVec.ofBool (w.slt 0#32) = 0#1
  have h0 : (0#32 : BitVec 32).toInt = 0 := by decide
  have hs : w.slt 0#32 = false := by rw [BitVec.slt, h0]; exact decide_eq_false (by omega)
  rw [hs]; rfl

/-- The wrap of a negative index (8192 added where the word is negative) leaves a word that is not negative alone. -/
theorem wrap_of_nonneg {w : BitVec 32} (h : (0 : ℤ) ≤ w.toInt) :
    Scalar.select (IntOp.cmpi .slt w 0#32) (IntOp.addi w 8192#32) w = w := by
  rw [slt_zero_of_nonneg h, select_zero]

/-- A number below 2³¹ is, as a word, not negative. -/
theorem toInt_ofNat_nonneg (n : Nat) (hn : n < 2 ^ 31) : (0 : ℤ) ≤ (BitVec.ofNat 32 n).toInt := by
  rw [StableHlo.Predicate.toInt_ofNat_small n hn]; omega

/-- The host's modulus of two words: the truncated remainder, with the divisor added once more where the remainder
    is not zero and its sign is not the divisor's. -/
def floorMod (s d : BitVec 32) : BitVec 32 :=
  Scalar.select
    (IntOp.andi (IntOp.cmpi .ne (IntOp.cmpi .slt (IntOp.remsi .host s d) 0#32) (IntOp.cmpi .slt d 0#32))
      (IntOp.cmpi .ne (IntOp.remsi .host s d) 0#32))
    (IntOp.addi (IntOp.remsi .host s d) d) (IntOp.remsi .host s d)

/-- For n below 8192 the modulus of the word n + 4096 by the word 8192 is the word (n + 4096) mod 8192: the sum
    does not wrap, both words are positive, so the truncated remainder is the modulus and nothing is added. -/
theorem floorMod_shift (n : Nat) (hn : n < 8192) :
    floorMod (IntOp.addi (BitVec.ofNat 32 n) 4096#32) 8192#32 = BitVec.ofNat 32 ((n + 4096) % 8192) := by
  have hs : IntOp.addi (BitVec.ofNat 32 n) 4096#32 = BitVec.ofNat 32 (n + 4096) := (BitVec.ofNat_add ..).symm
  have hrem : IntOp.remsi .host (IntOp.addi (BitVec.ofNat 32 n) 4096#32) 8192#32 = BitVec.ofNat 32 ((n + 4096) % 8192) := by
    rw [hs]
    unfold IntOp.remsi
    have hnc : ¬ IntOp.SDivCorner (BitVec.ofNat 32 (n + 4096)) 8192#32 := by
      rintro (h | ⟨_, h⟩) <;> exact absurd h (by decide)
    have hx : (BitVec.ofNat 32 (n + 4096)).msb = false :=
      BitVec.msb_eq_false_iff_two_mul_lt.mpr (by rw [BitVec.toNat_ofNat]; omega)
    have hy : (8192#32 : BitVec 32).msb = false := by decide
    rw [if_neg hnc, BitVec.srem_eq, hx, hy]
    apply BitVec.eq_of_toNat_eq
    show (BitVec.ofNat 32 (n + 4096) % 8192#32).toNat = _
    rw [BitVec.toNat_umod, BitVec.toNat_ofNat, BitVec.toNat_ofNat, BitVec.toNat_ofNat,
      show (8192 : Nat) % 2 ^ 32 = 8192 from by norm_num]
    omega
  unfold floorMod
  rw [hrem, slt_zero_of_nonneg (toInt_ofNat_nonneg _ (by omega))]
  have e1 : IntOp.cmpi .slt (8192#32 : BitVec 32) 0#32 = 0#1 := by decide
  have e2 : IntOp.cmpi .ne (0#1 : BitVec 1) 0#1 = 0#1 := by decide
  have e3 : ∀ b : BitVec 1, IntOp.andi 0#1 b = 0#1 := by decide
  rw [e1, e2, e3, select_zero]

/-! ## The index words of row r -/

/-- The row index of row r is the word r. -/
theorem rowIdx_apply (r : Fin 8192) : Hand.rowIdx (ix1 r) = BitVec.ofNat 32 r.val :=
  wrap_of_nonneg (w := BitVec.ofNat 32 r.val) (toInt_ofNat_nonneg _ (by omega))

/-- The host's (r + 4096) mod 8192 at row r is the word (r + 4096) mod 8192. -/
theorem partnerRem_apply (r : Fin 8192) : Hand.partnerRem (ix1 r) = BitVec.ofNat 32 ((r.val + 4096) % 8192) := by
  have hd : Scalar.select (IntOp.cmpi .eq (8192#32 : BitVec 32) 0#32) 1#32 8192#32 = 8192#32 := by decide
  show floorMod (IntOp.addi (BitVec.ofNat 32 r.val) 4096#32)
    (Scalar.select (IntOp.cmpi .eq (8192#32 : BitVec 32) 0#32) 1#32 8192#32) = _
  rw [hd]
  exact floorMod_shift r.val r.isLt

/-- The partner column of row r is the word (r + 4096) mod 8192. -/
theorem partnerIdx_apply (r : Fin 8192) : Hand.partnerIdx (ix1 r) = BitVec.ofNat 32 ((r.val + 4096) % 8192) := by
  show Scalar.select (IntOp.cmpi .slt (Hand.partnerRem (ix1 r)) 0#32) (IntOp.addi (Hand.partnerRem (ix1 r)) 8192#32)
    (Hand.partnerRem (ix1 r)) = _
  rw [partnerRem_apply]
  exact wrap_of_nonneg (toInt_ofNat_nonneg _ (by omega))

/-! ## The positives: the gather at the index pairs -/

local notation "pointDims" => gather_S8192x8192_S8192x2_S8192_n_01_n_n_01_1_11

/-- The gather at a pair of start indices per row (both matrix axes collapsed and start-indexed), read at row r: the
    matrix at the two start indices of row r, each read signed and clamped into 0 .. 8191. -/
theorem pointGather_apply {α : Type} (x : S8192x8192.Idx → α) (idx : IVec S8192x2 32) (r : Fin 8192) :
    Host.gather pointDims x idx (ix1 r)
      = x (ix2 (⟨min (idx (ix2 r (0 : Fin 2))).toInt.toNat 8191, by omega⟩ : Fin 8192)
              (⟨min (idx (ix2 r (1 : Fin 2))).toInt.toNat 8191, by omega⟩ : Fin 8192)) := by
  unfold Host.gather
  refine congrArg x (funext fun a => Fin.ext ?_)
  have hb : ∀ a : Fin S8192x8192.rank, a ∉ (pointDims).operandBatchingDims := fun a => List.not_mem_nil
  have hm0 : ∀ h : 0 < S8192x8192.rank, (⟨0, h⟩ : Fin S8192x8192.rank) ∈ (pointDims).startIndexMap :=
    fun _ => List.mem_cons_self ..
  have hm1 : ∀ h : 1 < S8192x8192.rank, (⟨1, h⟩ : Fin S8192x8192.rank) ∈ (pointDims).startIndexMap :=
    fun _ => List.mem_cons_of_mem _ (List.mem_cons_self ..)
  have hk : ∀ a : Fin S8192x8192.rank, a ∉ (pointDims).sKept := fun a h => by
    have hc := ((GatherDims.mem_sKept _ _).mp h).1
    match a with
    | ⟨0, h0⟩ => exact hc (hm0 h0)
    | ⟨1, h1⟩ => exact hc (hm1 h1)
  show (pointDims).start (ix1 r) idx a + (pointDims).batchCoord (ix1 r) a + (pointDims).offCoord (ix1 r) a = _
  rw [GatherDims.batchCoord_eq_zero _ _ _ (hb a), GatherDims.offCoord_eq_zero _ _ _ (hk a)]
  simp only [Nat.add_zero]
  unfold GatherDims.start
  match a with
  | ⟨0, h0⟩ =>
    rw [dif_pos (hm0 h0)]
    have hsi : (pointDims).siIdx (ix1 r) ⟨List.idxOf (⟨0, h0⟩ : Fin S8192x8192.rank) (pointDims).startIndexMap,
          List.idxOf_lt_length_iff.2 (hm0 h0)⟩ = ix2 r (0 : Fin 2) := by
      funext b; refine Fin.ext ?_
      match b with
      | ⟨0, _⟩ => rfl
      | ⟨1, _⟩ => rfl
    rw [hsi]
    rfl
  | ⟨1, h1⟩ =>
    rw [dif_pos (hm1 h1)]
    have hsi : (pointDims).siIdx (ix1 r) ⟨List.idxOf (⟨1, h1⟩ : Fin S8192x8192.rank) (pointDims).startIndexMap,
          List.idxOf_lt_length_iff.2 (hm1 h1)⟩ = ix2 r (1 : Fin 2) := by
      funext b; refine Fin.ext ?_
      match b with
      | ⟨0, _⟩ => rfl
      | ⟨1, _⟩ => rfl
    rw [hsi]
    rfl

/-- Two vectors laid side by side as the columns of an 8192 × 2 table: column 0 at row r is the first at r. -/
theorem pairs_fst (u v : IVec S8192 32) (r : Fin 8192) :
    concatenate S8192x2 1 [⟨S8192x1, broadcastInDim S8192x1 ![0] bcast_S8192_S8192x1_0 u⟩,
        ⟨S8192x1, broadcastInDim S8192x1 ![0] bcast_S8192_S8192x1_0 v⟩] concatenates_S8192x1_S8192x1_S8192x2_d1
      (ix2 r (0 : Fin 2)) = u (ix1 r) := by
  refine (concatenate_pair_apply_left (t := S8192x2) (s₁ := S8192x1) (s₂ := S8192x1) (1 : Fin 2) _ _ _ (ix2 r (0 : Fin 2)) rfl (ix2 r (0 : Fin 1))
    (fun b => match b with | ⟨0, _⟩ => rfl | ⟨1, _⟩ => rfl)).trans ?_
  exact broadcastInDim_apply ![0] _ u (ix2 r (0 : Fin 1)) (ix1 r) (fun a => match a with | ⟨0, _⟩ => rfl)

/-- … and column 1 at row r is the second at r. -/
theorem pairs_snd (u v : IVec S8192 32) (r : Fin 8192) :
    concatenate S8192x2 1 [⟨S8192x1, broadcastInDim S8192x1 ![0] bcast_S8192_S8192x1_0 u⟩,
        ⟨S8192x1, broadcastInDim S8192x1 ![0] bcast_S8192_S8192x1_0 v⟩] concatenates_S8192x1_S8192x1_S8192x2_d1
      (ix2 r (1 : Fin 2)) = v (ix1 r) := by
  refine (concatenate_pair_apply_right (t := S8192x2) (s₁ := S8192x1) (s₂ := S8192x1) (1 : Fin 2) _ _ _ (ix2 r (1 : Fin 2)) rfl rfl (ix2 r (0 : Fin 1))
    (fun b => match b with | ⟨0, _⟩ => fun _ => rfl | ⟨1, _⟩ => fun h => absurd rfl h) rfl).trans ?_
  exact broadcastInDim_apply ![0] _ v (ix2 r (0 : Fin 1)) (ix1 r) (fun a => match a with | ⟨0, _⟩ => rfl)

/-- A number below 8192, as a word read signed and clamped into 0 .. 8191, is itself. -/
theorem clamp_ofNat (n : Nat) (hn : n < 8192) : min (BitVec.ofNat 32 n).toInt.toNat 8191 = n := by
  rw [StableHlo.Predicate.toInt_ofNat_small n (by omega)]; omega

end Partner

open Partner

/-! ## The positive of a row -/

local notation "pointDims" => gather_S8192x8192_S8192x2_S8192_n_01_n_n_01_1_11

/-- The positive of row r is the similarity of row r with its partner row (r + 4096) mod 8192. -/
theorem posOf_apply (sim : FVec Ideal S8192x8192 .f32) (r : Fin 8192) :
    Hand.posOf sim (ix1 r) = sim (ix2 r (Cert.Spec.partner r)) := by
  show Host.gather pointDims sim
    (concatenate S8192x2 1 [⟨S8192x1, broadcastInDim S8192x1 ![0] bcast_S8192_S8192x1_0 Hand.rowIdx⟩,
      ⟨S8192x1, broadcastInDim S8192x1 ![0] bcast_S8192_S8192x1_0 Hand.partnerIdx⟩] concatenates_S8192x1_S8192x1_S8192x2_d1)
    (ix1 r) = _
  rw [pointGather_apply]
  refine congrArg sim (funext fun a => Fin.ext ?_)
  match a with
  | ⟨0, _⟩ =>
    show min (concatenate S8192x2 1 [⟨S8192x1, broadcastInDim S8192x1 ![0] bcast_S8192_S8192x1_0 Hand.rowIdx⟩,
      ⟨S8192x1, broadcastInDim S8192x1 ![0] bcast_S8192_S8192x1_0 Hand.partnerIdx⟩] concatenates_S8192x1_S8192x1_S8192x2_d1
      (ix2 r (0 : Fin 2))).toInt.toNat 8191 = r.val
    rw [pairs_fst, rowIdx_apply]
    exact clamp_ofNat r.val r.isLt
  | ⟨1, _⟩ =>
    show min (concatenate S8192x2 1 [⟨S8192x1, broadcastInDim S8192x1 ![0] bcast_S8192_S8192x1_0 Hand.rowIdx⟩,
      ⟨S8192x1, broadcastInDim S8192x1 ![0] bcast_S8192_S8192x1_0 Hand.partnerIdx⟩] concatenates_S8192x1_S8192x1_S8192x2_d1
      (ix2 r (1 : Fin 2))).toInt.toNat 8191 = (r.val + 4096) % 8192
    rw [pairs_snd, partnerIdx_apply]
    exact clamp_ofNat _ (Nat.mod_lt _ (by decide))

/-! ## The logits -/

/-- The reference's logits are the specification's: column 0 the partner's similarity, columns 1 to 4 the sampled
    columns', each a dot product of two rows times 2. -/
theorem refLogits_eq (zn : FVec Ideal Cert.ReferenceIdeal.S8192x512 .f32) (cols : IVec Cert.ReferenceIdeal.S8192x4 32)
    (hc : ∀ i : Cert.ReferenceIdeal.S8192x4.Idx, (0 : ℤ) ≤ (cols i).toInt ∧ (cols i).toInt < 8192) :
    Cert.ReferenceIdeal.Hand.refLogits zn cols = Cert.Spec.logits zn cols := by
  funext i
  obtain ⟨r, k, rfl⟩ : ∃ (r : Fin 8192) (k : Fin 5), i = ix2 r k := ⟨i 0, i 1, eq_ix2 i⟩
  show concatenate S8192x5 1 [⟨S8192x1, broadcastInDim S8192x1 ![0] bcast_S8192_S8192x1_0 (Hand.posOf (Hand.simOf zn))⟩,
    ⟨S8192x4, Hand.negsOf (Hand.simOf zn) cols⟩] concatenates_S8192x1_S8192x4_S8192x5_d1 (ix2 r k) = _
  by_cases hk : k.val = 0
  · obtain rfl : k = 0 := Fin.ext hk
    have hL : Cert.Spec.logits zn cols (ix2 r (0 : Fin 5))
        = Cert.Spec.dot zn r (Cert.Spec.partner r) * ((2 : ℝ) : EReal) := by
      unfold Cert.Spec.logits
      dsimp only
      split
      · rfl
      · rename_i h; exact absurd rfl h
    rw [hL]
    refine (concatenate_pair_apply_left (t := S8192x5) (s₁ := S8192x1) (s₂ := S8192x4) (1 : Fin 2) _ _ _
      (ix2 r (0 : Fin 5)) rfl (ix2 r (0 : Fin 1)) (fun b => match b with | ⟨0, _⟩ => rfl | ⟨1, _⟩ => rfl)).trans ?_
    refine (broadcastInDim_apply ![0] _ _ (ix2 r (0 : Fin 1)) (ix1 r) (fun a => match a with | ⟨0, _⟩ => rfl)).trans ?_
    rw [posOf_apply, simOf_apply]
  · have hL : Cert.Spec.logits zn cols (ix2 r k)
        = Cert.Spec.dot zn r (Cert.Spec.colAt cols r ⟨k.val - 1, by omega⟩) * ((2 : ℝ) : EReal) := by
      unfold Cert.Spec.logits
      dsimp only
      split
      · rename_i h; exact absurd h hk
      · rfl
    rw [hL]
    refine (concatenate_pair_apply_right (t := S8192x5) (s₁ := S8192x1) (s₂ := S8192x4) (1 : Fin 2) _ _ _
      (ix2 r k) rfl rfl (ix2 r (⟨k.val - 1, by omega⟩ : Fin 4))
      (fun b => match b with | ⟨0, _⟩ => fun _ => rfl | ⟨1, _⟩ => fun h => absurd rfl h)
      (by show k.val - 1 + 1 = k.val; omega)).trans ?_
    rw [negsOf_apply _ cols hc, simOf_apply]

end Cert.RefMath

end
-- ==== Proof.RefValue.lean ====
/-
  The reference read back. Its rows, its shifted column indices and its tail from the logits to the loss are the shared
  chains; its logits are the similarity matrix (the rows times their transpose, over 0.5) gathered at the partner column
  and at the sampled columns. A gathered column index in 0 .. 8191 is taken as it is (the wrap of a negative index and
  the out-of-range fill do not bind), so the reference's logits are the specification's.
-/
import proofs.«418182_j40372692582790_2_alg».proof.Proof.RefRun
import proofs.«418182_j40372692582790_2_alg».proof.Proof.Spec
import proofs.«418182_j40372692582790_2_alg».proof.Proof.ColsRange
import proofs.«418182_j40372692582790_2_alg».proof.Proof.RefTerm
import proofs.«418182_j40372692582790_2_alg».proof.Proof.RefMath

set_option maxRecDepth 16384

noncomputable section

namespace Cert.ReferenceIdeal.Hand

open Idealize.ShloMosaic Idealize.ShloMosaic.TcCoe Idealize.SL.Sem
open Cert.ReferenceIdeal Cert.ReferenceIdeal.Gen

/-! ## The four stages of the line

Each is the fold read at one buffer: every operation's result at the buffer it writes is its function of what its
operands hold, and at any other buffer what was there, so the fold at a buffer is a closed term of the arguments'
contents, and the equation holds by computation. The reductions, the gathers, the concatenates, the transpose and
the broadcasts are never opened: both sides apply them to the same operands. -/

attribute [local irreducible] Host.reduce Host.reduceAdd Host.gather concatenate transpose broadcastInDim in
set_option maxHeartbeats 1000000 in
/-- The normalised rows: the line's `%5` is the shared chain from the two argument blocks. -/
theorem stage_rows (V : Valuation τ sig (Elt Ideal)) :
    StableHlo.after ops V (main_v5 : DevRef τ sig)
      = Cert.Spec.znOf (V (main_arg0 : DevRef τ sig)) (V (main_arg1 : DevRef τ sig)) := by
  rw [after_ops]
  simp only [StableHlo.after_cons, StableHlo.after_nil]
  rfl

attribute [local irreducible] Host.reduce Host.reduceAdd Host.gather concatenate transpose broadcastInDim in
set_option maxHeartbeats 1000000 in
/-- The stepped column indices: the line's `%32` is the shared chain from the integer argument. -/
theorem stage_cols (V : Valuation τ sig (Elt Ideal)) :
    StableHlo.after ops V (main_v32 : DevRef τ sig) = Cert.Spec.colsOf (V (main_arg2 : DevRef τ sig)) := by
  rw [after_ops]
  simp only [StableHlo.after_cons, StableHlo.after_nil]
  rfl

attribute [local irreducible] Host.reduce Host.reduceAdd Host.gather concatenate transpose broadcastInDim in
set_option maxHeartbeats 4000000 in
/-- The logits: the line's `%35` is the reference's own term of its `%5` and `%32`. -/
theorem stage_logits (V : Valuation τ sig (Elt Ideal)) :
    StableHlo.after ops V (main_v35 : DevRef τ sig)
      = refLogits (StableHlo.after ops V (main_v5 : DevRef τ sig)) (StableHlo.after ops V (main_v32 : DevRef τ sig)) := by
  rw [after_ops]
  simp only [StableHlo.after_cons, StableHlo.after_nil]
  rfl

attribute [local irreducible] Host.reduce Host.reduceAdd Host.gather concatenate transpose broadcastInDim in
set_option maxHeartbeats 4000000 in
/-- The loss: the line's result is the shared tail from its `%35`. -/
theorem stage_loss (V : Valuation τ sig (Elt Ideal)) :
    StableHlo.after ops V (main_v44 : DevRef τ sig) = Cert.Spec.lossOf (StableHlo.after ops V (main_v35 : DevRef τ sig)) := by
  rw [after_ops]
  simp only [StableHlo.after_cons, StableHlo.after_nil]
  rfl

/-! ## The result -/

/-- THE REFERENCE'S RESULT: from contents `V` whose integer input lies in 0 .. 8190, the fold of @main's operations leaves
    the loss of the specification's logits in the result buffer: the loss of the line's own logits, which are the
    reference's term of the normalised rows and the stepped columns, which is the specification's once every stepped
    column lies in 0 .. 8191. -/
theorem out_eq (V : Valuation τ sig (Elt Ideal))
    (hr : ∀ i : S8192x4.Idx, (0 : ℤ) ≤ (V (main_arg2 : DevRef τ sig) i).toInt ∧ (V (main_arg2 : DevRef τ sig) i).toInt < 8191) :
    StableHlo.after ops V (main_v44 : DevRef τ sig)
      = Cert.Spec.lossOf (Cert.Spec.logits (Cert.Spec.znOf (V (main_arg0 : DevRef τ sig)) (V (main_arg1 : DevRef τ sig)))
          (Cert.Spec.colsOf (V (main_arg2 : DevRef τ sig)))) := by
  rw [stage_loss, stage_logits, stage_rows, stage_cols,
    Cert.RefMath.refLogits_eq _ _ (Cert.ColsRange.colsOf_range (V (main_arg2 : DevRef τ sig)) hr)]

end Cert.ReferenceIdeal.Hand

end
-- ==== Proof.lean ====
/-
  Both programs compute the contrastive loss of the stacked, normalised rows: per row, minus the log-softmax at column 0
  of five logits — the similarity with the partner row and with four sampled columns (the diagonal skipped), each
  similarity a dot product of two normalised rows times 2. The reference forms the whole 8192 x 8192 similarity matrix and
  gathers from it; the kernel program computes the partner similarities on the host and the sampled ones in a fused
  kernel that, row tile by row tile, multiplies the tile against each of eight column tiles and keeps, per sampled
  column, the one entry whose column number matches, accumulated across the column tiles. A sampled index in 0 .. 8190
  (the precondition) names a column of the matrix, which the gather reads as it is and the one-hot selection meets once;
  so the two logits arrays agree entry by entry and the shared tail gives equal losses. Every program terminates without
  a fault and leaves its inputs as they were; the idealized kernel program is the word-level one's text read over the
  extended reals, no operation rewritten.
-/
import proofs.«418182_j40372692582790_2_alg».proof.Defs
import proofs.«418182_j40372692582790_2_alg».proof.Proof.Gen.Kernel
import proofs.«418182_j40372692582790_2_alg».proof.Proof.Gen.KernelIdeal
import proofs.«418182_j40372692582790_2_alg».proof.Proof.Gen.ReferenceIdeal
import proofs.«418182_j40372692582790_2_alg».proof.Proof.Gen.Pre_finite_inputs
import proofs.«418182_j40372692582790_2_alg».proof.Proof.Kernel.Launch
import proofs.«418182_j40372692582790_2_alg».proof.Proof.KernelIdeal.Launch
import proofs.«418182_j40372692582790_2_alg».proof.Proof.KernelIdeal.HostValue
import proofs.«418182_j40372692582790_2_alg».proof.Proof.KernelIdeal.OutValue
import proofs.«418182_j40372692582790_2_alg».proof.Proof.KerMath
import proofs.«418182_j40372692582790_2_alg».proof.Proof.ColsRange
import proofs.«418182_j40372692582790_2_alg».proof.Proof.PreDecode
import proofs.«418182_j40372692582790_2_alg».proof.Proof.RefRun
import proofs.«418182_j40372692582790_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its inputs unchanged. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference is host operations only: its run, read at the three inputs. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _)⟩)
    (Cert.ReferenceIdeal.Hand.run_main (F := Ideal) m ρ)

/-- No operation of the kernel was rewritten for the reading over the extended reals. -/
theorem preserves : Cert.preserves_Kernel_KernelIdeal := trivial

/-- Both idealized programs end with the loss of the specification's logits. -/
theorem algebraic : Cert.algebraic_KernelIdeal_ReferenceIdeal := by
  intro m ρ m' ρ' hpre hagree
  -- the sampled indices' range, from the precondition
  have hr : ∀ c : Dev Cert.KernelIdeal.nD, ∀ i, (0 : ℤ) ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 8191 :=
    fun c => Cert.PreDecode.range _ _ _ (hpre c)
  refine ⟨fun c => Cert.Spec.lossOf (Cert.Spec.logits
      (Cert.Spec.znOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Spec.colsOf (m ((c.tc : Thread Cert.KernelIdeal.nD Cert.KernelIdeal.τ).loc Cert.KernelIdeal.main_arg2)))), ?_, ?_⟩
  · -- the kernel program: the run, the host stretches read back, the fused kernel's output, the logits' agreement
    refine (θ_run Cert.KernelIdeal.defs _ _).mono (fun _ h c => ⟨?_, ?_, ?_, ?_⟩) (Cert.KernelIdeal.Hand.run (F := Ideal) m ρ)
    · refine (h c _ (Cert.KernelIdeal.Hand.mem_uc Cert.KernelIdeal.main_v33 (by decide))).trans ?_
      rw [Cert.KernelIdeal.Hand.W7_result m c]
      have hout : (Cert.KernelIdeal.Hand.dats (F := Ideal) m 0 c).arrAt 3 Cert.KernelIdeal.cfg0.N
          = Cert.Spec.negOut (Cert.Spec.znOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
              (Cert.Spec.colsOf (m ((c.tc : Thread Cert.KernelIdeal.nD Cert.KernelIdeal.τ).loc Cert.KernelIdeal.main_arg2))) :=
        funext fun y => Cert.KernelIdeal.Hand.outArr_eq m c _ _ (Cert.KernelIdeal.Hand.V_rows m c) (Cert.KernelIdeal.Hand.V_cols m c)
          (Cert.ColsRange.colsOf_range _ (hr c)) y
      rw [hout, Cert.KerMath.kerLogits_eq]
    · exact (h c _ (Cert.KernelIdeal.Hand.mem_uc Cert.KernelIdeal.main_arg0 (by decide))).trans (Cert.KernelIdeal.Hand.W7_main_arg0 m c)
    · exact (h c _ (Cert.KernelIdeal.Hand.mem_uc Cert.KernelIdeal.main_arg1 (by decide))).trans (Cert.KernelIdeal.Hand.W7_main_arg1 m c)
    · exact (h c _ (Cert.KernelIdeal.Hand.mem_uc Cert.KernelIdeal.main_arg2 (by decide))).trans (Cert.KernelIdeal.Hand.W7_main_arg2 m c)
  · -- the reference: its run, read back at the result and at the inputs, from a memory that agrees on the inputs
    refine (θ_run Cert.ReferenceIdeal.defs _ _).mono (fun _ h c => ⟨?_, ?_, ?_, ?_⟩) (Cert.ReferenceIdeal.Hand.run_main (F := Ideal) m' ρ')
    · refine (h c Cert.ReferenceIdeal.main_v44).trans ?_
      have hr' : ∀ i, (0 : ℤ) ≤ (StableHlo.launchContents m' c (Cert.ReferenceIdeal.main_arg2 : DevRef Cert.ReferenceIdeal.τ Cert.ReferenceIdeal.sig) i).toInt
          ∧ (StableHlo.launchContents m' c (Cert.ReferenceIdeal.main_arg2 : DevRef Cert.ReferenceIdeal.τ Cert.ReferenceIdeal.sig) i).toInt < 8191 := by
        intro i
        have e2' : StableHlo.launchContents m' c (Cert.ReferenceIdeal.main_arg2 : DevRef Cert.ReferenceIdeal.τ Cert.ReferenceIdeal.sig)
            = m ((c.tc : Thread Cert.KernelIdeal.nD Cert.KernelIdeal.τ).loc Cert.KernelIdeal.main_arg2) := (hagree c).2.2
        rw [e2']
        exact hr c i
      have e0 : StableHlo.launchContents m' c (Cert.ReferenceIdeal.main_arg0 : DevRef Cert.ReferenceIdeal.τ Cert.ReferenceIdeal.sig)
          = m ((c.tc : Thread Cert.KernelIdeal.nD Cert.KernelIdeal.τ).loc Cert.KernelIdeal.main_arg0) := (hagree c).1
      have e1 : StableHlo.launchContents m' c (Cert.ReferenceIdeal.main_arg1 : DevRef Cert.ReferenceIdeal.τ Cert.ReferenceIdeal.sig)
          = m ((c.tc : Thread Cert.KernelIdeal.nD Cert.KernelIdeal.τ).loc Cert.KernelIdeal.main_arg1) := (hagree c).2.1
      have e2 : StableHlo.launchContents m' c (Cert.ReferenceIdeal.main_arg2 : DevRef Cert.ReferenceIdeal.τ Cert.ReferenceIdeal.sig)
          = m ((c.tc : Thread Cert.KernelIdeal.nD Cert.KernelIdeal.τ).loc Cert.KernelIdeal.main_arg2) := (hagree c).2.2
      rw [Cert.ReferenceIdeal.Hand.out_eq _ hr', e0, e1, e2]
    · exact (h c Cert.ReferenceIdeal.main_arg0).trans (Cert.ReferenceIdeal.Hand.arg0_eq _)
    · exact (h c Cert.ReferenceIdeal.main_arg1).trans (Cert.ReferenceIdeal.Hand.arg1_eq _)
    · exact (h c Cert.ReferenceIdeal.main_arg2).trans (Cert.ReferenceIdeal.Hand.arg2_eq _)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
